-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S2048x4096 : Shape := ⟨2, ![2048, 4096]⟩
abbrev S2048 : Shape := ⟨1, ![2048]⟩
abbrev S4096x4096 : Shape := ⟨2, ![4096, 4096]⟩
abbrev S4096 : Shape := ⟨1, ![4096]⟩
abbrev S2048x2048 : Shape := ⟨2, ![2048, 2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S2048x2048 : S_.BroadcastsInDim S2048x2048 (![] : Fin 0 → Fin S2048x2048.rank)
  reducesTo_S2048x2048_S_d0_1 : S2048x2048.ReducesTo [0, 1] S_
  reducesTo_S_S_d : S_.ReducesTo [] S_

variable [Facts]

def fn_part4 {F : FTy → Type} [FloatOps F] (main_arg14 : FVec F S_ .f32) (main_arg15 : FVec F S_ .f32) (main_v63 : IVec S_ 1) (main_v67 : IVec S_ 1) : IVec S_ 1 :=
  let main_v68 : IVec S_ 1 := andi main_v63 main_v67
  let main_v69 : FVec F S_ .f32 := Host.absf main_arg14
  let main_cst_26 : FVec F S_ .f32 := constant S_ .f32 0x7F800000#32
  let main_v70 : IVec S_ 1 := cmpf .olt main_v69 main_cst_26
  let main_c_27 : IVec S_ 1 := constantI S_ 1 1#1
  let main_v71 : IVec S_ 1 := (fun x v => Host.reduce IntOp.andi x v reducesTo_S_S_d h_S_) main_v70 main_c_27
  let main_v72 : IVec S_ 1 := andi main_v68 main_v71
  let main_v73 : FVec F S_ .f32 := Host.absf main_arg15
  let main_cst_28 : FVec F S_ .f32 := constant S_ .f32 0x7F800000#32
  let main_v74 : IVec S_ 1 := cmpf .olt main_v73 main_cst_28
  let main_c_29 : IVec S_ 1 := constantI S_ 1 1#1
  let main_v75 : IVec S_ 1 := (fun x v => Host.reduce IntOp.andi x v reducesTo_S_S_d h_S_) main_v74 main_c_29
  let main_v76 : IVec S_ 1 := andi main_v72 main_v75
  main_v76

def fn_part3 {F : FTy → Type} [FloatOps F] (main_arg11 : FVec F S2048 .f32) (main_arg12 : FVec F S2048 .f32) (main_arg13 : FVec F S2048 .f32) (main_arg14 : FVec F S_ .f32) (main_arg15 : FVec F S_ .f32) (main_v48 : IVec S_ 1) (main_v49 : FVec F S2048x4096 .f32) (main_v50 : FVec F S2048x4096 .f32) : IVec S_ 1 :=
  let main_v51 : IVec S2048x4096 1 := cmpf .olt main_v49 main_v50
  let main_c_19 : IVec S_ 1 := constantI S_ 1 1#1
  let main_v52 : IVec S_ 1 := (fun x v => Host.reduce IntOp.andi x v reducesTo_S2048x4096_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_v63 main_v67

def fn_part2 {F : FTy → Type} [FloatOps F] (main_arg7 : FVec F S2048 .f32) (main_arg8 : FVec F S2048x2048 .f32) (main_arg9 : FVec F S2048 .f32) (main_arg10 : FVec F S2048x4096 .f32) (main_arg11 : FVec F S2048 .f32) (main_arg12 : FVec F S2048 .f32) (main_arg13 : FVec F S2048 .f32) (main_arg14 : FVec F S_ .f32) (main_arg15 : FVec F S_ .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x4096 .f32 := Host.absf main_arg10
  let main_cst_18 : FVec F S_ .f32 := constant S_ .f32 0x7F800000#32
  let main_v50 : FVec F S2048x4096 .f32 := broadcastInDim S2048x4096 ![] bcast_S_S2048x4096 main_cst_18
  fn_part3 (F := F) main_arg11 main_arg12 main_arg13 main_arg14 main_arg15 main_v48 main_v49 main_v50

def fn_part1 {F : FTy → Type} [FloatOps F] (main_arg4 : FVec F S4096x4096 .f32) (main_arg5 : FVec F S4096 .f32) (main_arg6 : FVec F S2048x4096 .f32) (main_arg7 : FVec F S2048 .f32) (main_arg8 : FVec F S2048x2048 .f32) (main_arg9 : FVec F S2048 .f32) (main_arg10 : FVec F S2048x4096 .f32) (main_arg11 : FVec F S2048 .f32) (main_arg12 : FVec F S2048 .f32) (main_arg13 : FVec F S2048 .f32) (main_arg14 : FVec F S_ .f32) (main_arg15 : FVec F S_ .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S2048x4096 .f32 := Host.absf main_arg6
  let main_cst_10 : FVec F S_ .f32 := constant S_ .f32 0x7F800000#32
  let main_v30 : FVec F S2048x4096 .f32 := broadcastInDim S2048x4096 ![] bcast_S_S2048x4096 main_cst_10
  let main_v31 : IVec S2048x4096 1 := cmpf .olt main_v29 main_v30
  let main_c_11 : IVec S_ 1 := constantI S_ 1 1#1
  let main_v32 : IVec S_ 1 := (fun x v => Host.reduce IntOp.andi x v reducesTo_S2048x4096_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8x4096x2048 .f32) (main_arg1 : FVec F S8x4096x2048 .f32) (main_arg2 : FVec F S2048x4096 .f32) (main_arg3 : FVec F S2048 .f32) (main_arg4 : FVec F S4096x4096 .f32) (main_arg5 : FVec F S4096 .f32) (main_arg6 : FVec F S2048x4096 .f32) (main_arg7 : FVec F S2048 .f32) (main_arg8 : FVec F S2048x2048 .f32) (main_arg9 : FVec F S2048 .f32) (main_arg10 : FVec F S2048x4096 .f32) (main_arg11 : FVec F S2048 .f32) (main_arg12 : FVec F S2048 .f32) (main_arg13 : FVec F S2048 .f32) (main_arg14 : FVec F S_ .f32) (main_arg15 : FVec F S_ .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x4096x2048 .f32 := Host.absf main_arg1
  let main_cst_0 : FVec F S_ .f32 := constant S_ .f32 0x7F800000#32
  let main_v5 : FVec F S8x4096x2048 .f32 := broadcastInDim S8x4096x2048 ![] bcast_S_S8x4096x2048 main_cst_0
  let main_v6 : IVec S8x4096x2048 1 := cmpf .olt main_v4 main_v5
  let main_c_1 : IVec S_ 1 := constantI S_ 1 1#1
  let main_v7 : IVec S_ 1 := (fun x v => Host.reduce IntOp.andi x v reducesTo_S8x4096x2048_S_d0_1_2 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8x4096x2048 : Shape := ⟨3, ![8, 4096, 2048]⟩
abbrev S2048x4096 : Shape := ⟨2, ![2048, 4096]⟩
abbrev S2048 : Shape := ⟨1, ![2048]⟩
abbrev S4096x4096 : Shape := ⟨2, ![4096, 4096]⟩
abbrev S4096 : Shape := ⟨1, ![4096]⟩
abbrev S2048x2048 : Shape := ⟨2, ![2048, 2048]⟩
abbrev S_ : Shape := ⟨0, ![]⟩
abbrev S8x1x2048 : Shape := ⟨3, ![8, 1, 2048]⟩
abbrev S2x256x2048 : Shape := ⟨3, ![2, 256, 2048]⟩
abbrev S2x1x2048 : Shape := ⟨3, ![2, 1, 2048]⟩
abbrev S2x2048 : Shape := ⟨2, ![2, 2048]⟩
abbrev S8x2048 : Shape := ⟨2, ![8, 2048]⟩
abbrev S8x4096 : Shape := ⟨2, ![8, 4096]⟩
abbrev S4096x2048 : Shape := ⟨2, ![4096, 2048]⟩
abbrev S1x2048 : Shape := ⟨2, ![1, 2048]⟩
abbrev S1x4096 : Shape := ⟨2, ![1, 4096]⟩
abbrev S1x1x2048 : Shape := ⟨3, ![1, 1, 2048]⟩
abbrev S2x128x2048 : Shape := ⟨3, ![2, 128, 2048]⟩
abbrev S2x128 : Shape := ⟨2, ![2, 128]⟩
abbrev S2x128x1 : Shape := ⟨3, ![2, 128, 1]⟩

abbrev nBuf : Space → Nat
  | .hbm => 87
  | .vmem => 22
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S2048x4096, .f32⟩
  | .hbm, ⟨3, _⟩ => ⟨S2048, .f32⟩
  | .hbm, ⟨4, _⟩ => ⟨S4096x4096, .f32⟩
  | .hbm, ⟨5, _⟩ => ⟨S4096, .f32⟩
  | .hbm, ⟨6, _⟩ => ⟨S2048x4096, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x4096, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S_, .f32⟩
  | .hbm, ⟨16, _⟩ => ⟨S8x1x2048, .f32⟩
  | .hbm, ⟨17, _⟩ => ⟨S8x1x2048, .f32⟩
  | .hbm, ⟨18, _⟩ => ⟨S8x2048, .f32⟩
  | .hbm, ⟨19, _⟩ => ⟨S8x2048, .f32⟩
  | .hbm, ⟨20, _⟩ => ⟨S8x4096, .f32⟩
  | .hbm, ⟨21, _⟩ => ⟨S4096x2048, .f32⟩
  | .hbm, ⟨22, _⟩ => ⟨S8x2048, .f32⟩
  | .hbm, ⟨23, _⟩ => ⟨S1x2048, .f32⟩
  | .hbm, ⟨24, _⟩ => ⟨S8x2048, .f32⟩
  | .hbm, ⟨25, _⟩ => ⟨S8x2048, .f32⟩
  | .hbm, ⟨26, _⟩ => ⟨S8x2048, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S4096x4096, .f32⟩
  | .hbm, ⟨35, _⟩ => ⟨S8x4096, .f32⟩
  | .hbm, ⟨36, _⟩ => ⟨S1x4096, .f32⟩
  | .hbm, ⟨37, _⟩ => ⟨S8x4096, .f32⟩
  | .hbm, ⟨38, _⟩ => ⟨S8x4096, .f32⟩
  | .hbm, ⟨39, _⟩ => ⟨S8x4096, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .f32⟩
  | .hbm, ⟨47, _⟩ => ⟨S8x4096, .f32⟩
  | .hbm, ⟨48, _⟩ => ⟨S4096x2048, .f32⟩
  | .hbm, ⟨49, _⟩ => ⟨S8x2048, .f32⟩
  | .hbm, ⟨50, _⟩ => ⟨S1x2048, .f32⟩
  | .hbm, ⟨51, _⟩ => ⟨S8x2048, .f32⟩
  | .hbm, ⟨52, _⟩ => ⟨S8x2048, .f32⟩
  | .hbm, ⟨53, _⟩ => ⟨S8x2048, .f32⟩
  | .hbm, ⟨54, _⟩ => ⟨S8x2048, .f32⟩
  | .hbm, ⟨55, _⟩ => ⟨S_, .f32⟩
  | .hbm, ⟨56, _⟩ => ⟨S8x2048, .f32⟩
  | .hbm, ⟨57, _⟩ => ⟨S8x2048, .f32⟩
  | .hbm, ⟨58, _⟩ => ⟨S_, .f32⟩
  | .hbm, ⟨59, _⟩ => ⟨S8x2048, .f32⟩
  | .hbm, ⟨60, _⟩ => ⟨S8x2048, .f32⟩
  | .hbm, ⟨61, _⟩ => ⟨S8x2048, .f32⟩
  | .hbm, ⟨62, _⟩ => ⟨S2048x2048, .f32⟩
  | .hbm, ⟨63, _⟩ => ⟨S8x2048, .f32⟩
  | .hbm, ⟨64, _⟩ => ⟨S1x2048, .f32⟩
  | .hbm, ⟨65, _⟩ => ⟨S8x2048, .f32⟩
  | .hbm, ⟨66, _⟩ => ⟨S8x2048, .f32⟩
  | .hbm, ⟨67, _⟩ => ⟨S4096x2048, .f32⟩
  | .hbm, ⟨68, _⟩ => ⟨S8x2048, .f32⟩
  | .hbm, ⟨69, _⟩ => ⟨S1x2048, .f32⟩
  | .hbm, ⟨70, _⟩ => ⟨S8x2048, .f32⟩
  | .hbm, ⟨71, _⟩ => ⟨S8x2048, .f32⟩
  | .hbm, ⟨72, _⟩ => ⟨S8x2048, .f32⟩
  | .hbm, ⟨73, _⟩ => ⟨S8x2048, .f32⟩
  | .hbm, ⟨74, _⟩ => ⟨S8x2048, .f32⟩
  | .hbm, ⟨75, _⟩ => ⟨S8x2048, .f32⟩
  | .hbm, ⟨76, _⟩ => ⟨S8x2048, .f32⟩
  | .hbm, ⟨77, _⟩ => ⟨S8x2048, .f32⟩
  | .hbm, ⟨78, _⟩ => ⟨S8x1x2048, .f32⟩
  | .hbm, ⟨79, _⟩ => ⟨S8x1x2048, .f32⟩
  | .hbm, ⟨80, _⟩ => ⟨S1x1x2048, .f32⟩
  | .hbm, ⟨81, _⟩ => ⟨S1x1x2048, .f32⟩
  | .hbm, ⟨82, _⟩ => ⟨S8x4096x2048, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .local _ .vmem, ⟨0, _⟩ => ⟨S2x256x2048, .f32⟩
  | .local _ .vmem, ⟨1, _⟩ => ⟨S2x256x2048, .f32⟩
  | .local _ .vmem, ⟨2, _⟩ => ⟨S2x256x2048, .f32⟩
  | .local _ .vmem, ⟨3, _⟩ => ⟨S2x256x2048, .f32⟩
  | .local _ .vmem, ⟨4, _⟩ => ⟨S2x1x2048, .f32⟩
  | .local _ .vmem, ⟨5, _⟩ => ⟨S2x1x2048, .f32⟩
  | .local _ .vmem, ⟨6, _⟩ => ⟨S2x1x2048, .f32⟩
  | .local _ .vmem, ⟨7, _⟩ => ⟨S2x1x2048, .f32⟩
  | .local _ .vmem, ⟨8, _⟩ => ⟨S2x1x2048, .f32⟩
  | .local _ .vmem, ⟨9, _⟩ => ⟨S2x1x2048, .f32⟩
  | .local _ .vmem, ⟨10, _⟩ => ⟨S2x128x2048, .f32⟩
  | .local _ .vmem, ⟨11, _⟩ => ⟨S2x128x2048, .f32⟩
  | .local _ .vmem, ⟨12, _⟩ => ⟨S2x128x2048, .f32⟩
  | .local _ .vmem, ⟨13, _⟩ => ⟨S2x128x2048, .f32⟩
  | .local _ .vmem, ⟨14, _⟩ => ⟨S2x1x2048, .f32⟩
  | .local _ .vmem, ⟨15, _⟩ => ⟨S2x1x2048, .f32⟩
  | .local _ .vmem, ⟨16, _⟩ => ⟨S2x1x2048, .f32⟩
  | .local _ .vmem, ⟨17, _⟩ => ⟨S2x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S2x128x2048, .f32⟩
  | .local _ .vmem, ⟨21, _⟩ => ⟨S2x128x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_1 : Ref sig .tc := ⟨.hbm, 83, rfl⟩
abbrev main_v48 : Ref sig .tc := ⟨.hbm, 84, rfl⟩
abbrev main_cst_2 : Ref sig .tc := ⟨.hbm, 85, rfl⟩
abbrev main_v49 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_19 : BitVec 32 := 0#32
  let v21 : BitVec 1 := Scalar.cmpi .ne v20 c0_i32_19
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S2x128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S2x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S2x1x2048_S2x1x2048_0_0_0 : ∀ a, (![0, 0, 0] : Fin 3 → Nat) a + S2x1x2048.size a ≤ S2x1x2048.size a
  h_S2x1x2048 : 0 < S2x1x2048.numel
  shapeCasts_S2x1x2048_S2x1x2048 : S2x1x2048.ShapeCasts S2x1x2048
  inb_S2x256x2048_S2x256x2048_0_0_0 : ∀ a, (![0, 0, 0] : Fin 3 → Nat) a + S2x256x2048.size a ≤ S2x256x2048.size a
  h_S2x256x2048 : 0 < S2x256x2048.numel
  reduces_S2x256x2048_S2x2048 : S2x256x2048.Reduces [1] S2x2048
  shapeCasts_S2x2048_S2x1x2048 : S2x2048.ShapeCasts S2x1x2048
  shapeCasts_S8x1x2048_S8x2048 : S8x1x2048.ShapeCasts S8x2048
  concatenates_S8x2048_S8x2048_S8x4096_d1 : Shape.Concatenates [S8x2048, S8x2048] S8x4096 1
  transposes_S2048x4096_S4096x2048_1_0 : S2048x4096.Transposes [1, 0] S4096x2048
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  bcast_S_S8x2048 : S_.BroadcastsInDim S8x2048 (![] : Fin 0 → Fin S8x2048.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8x4096_0_1 : S1x4096.BroadcastsInDim S8x4096 (![0, 1] : Fin 2 → Fin S8x4096.rank)
  bcast_S_S8x4096 : S_.BroadcastsInDim S8x4096 (![] : Fin 0 → Fin S8x4096.rank)
  transposes_S2048x2048_S2048x2048_1_0 : S2048x2048.Transposes [1, 0] S2048x2048
  bcast_S8x2048_S8x1x2048_0_2 : S8x2048.BroadcastsInDim S8x1x2048 (![0, 2] : Fin 2 → Fin S8x1x2048.rank)
  shapeCasts_S2048_S1x1x2048 : S2048.ShapeCasts S1x1x2048
  inb_S2x128x2048_S2x128x2048_0_0_0 : ∀ a, (![0, 0, 0] : Fin 3 → Nat) a + S2x128x2048.size a ≤ S2x128x2048.size a
  h_S2x128x2048 : 0 < S2x128x2048.numel
  broadcasts_S2x1x2048_S2x128x2048 : S2x1x2048.Broadcasts S2x128x2048
  reduces_S2x128x2048_S2x128 : S2x128x2048.Reduces [2] S2x128
  shapeCasts_S2x128_S2x128x1 : S2x128.ShapeCasts S2x128x1
  broadcasts_S2x128x1_S2x128x2048 : S2x128x1.Broadcasts S2x128x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  broadcasts_S1x1x2048_S2x128x2048 : S1x1x2048.Broadcasts S2x128x2048
  reducesTo_S8x2048_S_d0_1 : S8x2048.ReducesTo [0, 1] S_
  h_S_ : 0 < S_.numel
  dot_S8x4096_S4096x2048_S8x2048_1_0_0_1_n_n_wf : DotDims.WF S8x4096 S4096x2048 S8x2048 [1] [0] [0] [1] [] []
  dot_S8x4096_S4096x4096_S8x4096_1_0_0_1_n_n_wf : DotDims.WF S8x4096 S4096x4096 S8x4096 [1] [0] [0] [1] [] []
  dot_S8x2048_S2048x2048_S8x2048_1_0_0_1_n_n_wf : DotDims.WF S8x2048 S2048x2048 S8x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x2048.size a ≤ S8x4096x2048.size a
  hwx0_0 : ∀ i : grid0.Coords, EltTy.bits .f32 = 32 ∨ (Rect.block (s := S8x4096x2048) S2x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x2048.size a ≤ S8x4096x2048.size a
  hwx0_1 : ∀ i : grid0.Coords, EltTy.bits .f32 = 32 ∨ (Rect.block (s := S8x4096x2048) S2x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x2048.size a ≤ S8x1x2048.size a
  hwx0_2 : ∀ i : grid0.Coords, EltTy.bits .f32 = 32 ∨ (Rect.block (s := S8x1x2048) S2x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x2048.size a ≤ S8x1x2048.size a
  hwx0_3 : ∀ i : grid0.Coords, EltTy.bits .f32 = 32 ∨ (Rect.block (s := S8x1x2048) S2x1x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x128x2048.size a ≤ S8x4096x2048.size a
  hwx1_0 : ∀ i : grid1.Coords, EltTy.bits .f32 = 32 ∨ (Rect.block (s := S8x4096x2048) S2x128x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x128x2048.size a ≤ S8x4096x2048.size a
  hwx1_1 : ∀ i : grid1.Coords, EltTy.bits .f32 = 32 ∨ (Rect.block (s := S8x4096x2048) S2x128x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x1x2048.size a ≤ S8x1x2048.size a
  hwx1_2 : ∀ i : grid1.Coords, EltTy.bits .f32 = 32 ∨ (Rect.block (s := S8x1x2048) S2x1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x1x2048.size a ≤ S8x1x2048.size a
  hwx1_3 : ∀ i : grid1.Coords, EltTy.bits .f32 = 32 ∨ (Rect.block (s := S8x1x2048) S2x1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1x2048.size a ≤ S1x1x2048.size a
  hwx1_4 : ∀ i : grid1.Coords, EltTy.bits .f32 = 32 ∨ (Rect.block (s := S1x1x2048) S1x1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1x2048.size a ≤ S1x1x2048.size a
  hwx1_5 : ∀ i : grid1.Coords, EltTy.bits .f32 = 32 ∨ (Rect.block (s := S1x1x2048) S1x1x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2x128x2048.size a ≤ S8x4096x2048.size a
  hwx1_6 : ∀ i : grid1.Coords, EltTy.bits .f32 = 32 ∨ (Rect.block (s := S8x4096x2048) S2x128x2048.size (cc1_transform_6 i) (hinb1_6 i)).WholeWords (EltTy.packing .f32)

variable [Facts₀]

def dot_S8x4096_S4096x2048_S8x2048_1_0_0_1_n_n : DotDims S8x4096 S4096x2048 S8x2048 where
  lhsContracting := [1]
  rhsContracting := [0]
  lhsNonContracting := [0]
  rhsNonContracting := [1]
  lhsBatch := []
  rhsBatch := []
  wf := dot_S8x4096_S4096x2048_S8x2048_1_0_0_1_n_n_wf
def dot_S8x4096_S4096x4096_S8x4096_1_0_0_1_n_n : DotDims S8x4096 S4096x4096 S8x4096 where
  lhsContracting := [1]
  rhsContracting := [0]
  lhsNonContracting := [0]
  rhsNonContracting := [1]
  lhsBatch := []
  rhsBatch := []
  wf := dot_S8x4096_S4096x4096_S8x4096_1_0_0_1_n_n_wf
def dot_S8x2048_S2048x2048_S8x2048_1_0_0_1_n_n : DotDims S8x2048 S2048x2048 S8x2048 where
  lhsContracting := [1]
  rhsContracting := [0]
  lhsNonContracting := [0]
  rhsNonContracting := [1]
  lhsBatch := []
  rhsBatch := []
  wf := dot_S8x2048_S2048x2048_S8x2048_1_0_0_1_n_n_wf

abbrev win0_0 : Pipeline.Window sig grid0 :=
  Pipeline.Window.ofSpec (Memref.whole main_arg0) S2x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S2x128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2x128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S2x1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S2x1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x1x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S2x128x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8x4096x2048 : Shape := ⟨3, ![8, 4096, 2048]⟩
abbrev S2048x4096 : Shape := ⟨2, ![2048, 4096]⟩
abbrev S2048 : Shape := ⟨1, ![2048]⟩
abbrev S4096x4096 : Shape := ⟨2, ![4096, 4096]⟩
abbrev S4096 : Shape := ⟨1, ![4096]⟩
abbrev S2048x2048 : Shape := ⟨2, ![2048, 2048]⟩
abbrev S_ : Shape := ⟨0, ![]⟩
abbrev S8x2048 : Shape := ⟨2, ![8, 2048]⟩
abbrev S8x4096 : Shape := ⟨2, ![8, 4096]⟩
abbrev S4096x2048 : Shape := ⟨2, ![4096, 2048]⟩
abbrev S1x2048 : Shape := ⟨2, ![1, 2048]⟩
abbrev S8x1x2048 : Shape := ⟨3, ![8, 1, 2048]⟩
abbrev S1x4096 : Shape := ⟨2, ![1, 4096]⟩
abbrev S8x4096x1 : Shape := ⟨3, ![8, 4096, 1]⟩
abbrev S1x1x2048 : Shape := ⟨3, ![1, 1, 2048]⟩

abbrev nBuf : Space → Nat
  | .hbm => 146
  | .vmem => 0
  | .smem => 0
  | _ => 0

abbrev hbmTy0_0 (i : Nat) : BufTy := match i % 128 with
  | 0 => ⟨S8x4096x2048, .f32⟩
  | 1 => ⟨S8x4096x2048, .f32⟩
  | 2 => ⟨S2048x4096, .f32⟩
  | 3 => ⟨S2048, .f32⟩
  | 4 => ⟨S4096x4096, .f32⟩
  | 5 => ⟨S4096, .f32⟩
  | 6 => ⟨S2048x4096, .f32⟩
  | 7 => ⟨S2048, .f32⟩
  | 8 => ⟨S2048x2048, .f32⟩
  | 9 => ⟨S2048, .f32⟩
  | 10 => ⟨S2048x4096, .f32⟩
  | 11 => ⟨S2048, .f32⟩
  | 12 => ⟨S2048, .f32⟩
  | 13 => ⟨S2048, .f32⟩
  | 14 => ⟨S_, .f32⟩
  | 15 => ⟨S_, .f32⟩
  | 16 => ⟨S_, .f32⟩
  | 17 => ⟨S8x2048, .f32⟩
  | 18 => ⟨S_, .f32⟩
  | 19 => ⟨S8x2048, .f32⟩
  | 20 => ⟨S8x2048, .f32⟩
  | 21 => ⟨S_, .f32⟩
  | 22 => ⟨S8x2048, .f32⟩
  | 23 => ⟨S_, .f32⟩
  | 24 => ⟨S8x2048, .f32⟩
  | 25 => ⟨S8x2048, .f32⟩
  | 26 => ⟨S8x4096, .f32⟩
  | 27 => ⟨S4096x2048, .f32⟩
  | 28 => ⟨S8x2048, .f32⟩
  | 29 => ⟨S1x2048, .f32⟩
  | 30 => ⟨S8x2048, .f32⟩
  | 31 => ⟨S8x2048, .f32⟩
  | 32 => ⟨S8x2048, .f32⟩
  | 33 => ⟨S8x2048, .f32⟩
  | 34 => ⟨S_, .f32⟩
  | 35 => ⟨S8x2048, .f32⟩
  | 36 => ⟨S8x2048, .f32⟩
  | 37 => ⟨S_, .f32⟩
  | 38 => ⟨S8x2048, .f32⟩
  | 39 => ⟨S8x2048, .f32⟩
  | 40 => ⟨S8x1x2048, .f32⟩
  | 41 => ⟨S_, .f32⟩
  | 42 => ⟨S8x1x2048, .f32⟩
  | 43 => ⟨S8x1x2048, .f32⟩
  | 44 => ⟨S8x4096x2048, .f32⟩
  | 45 => ⟨S8x4096x2048, .f32⟩
  | 46 => ⟨S8x4096x2048, .f32⟩
  | 47 => ⟨S8x4096x2048, .f32⟩
  | 48 => ⟨S8x4096x2048, .f32⟩
  | 49 => ⟨S4096x4096, .f32⟩
  | 50 => ⟨S8x4096, .f32⟩
  | 51 => ⟨S1x4096, .f32⟩
  | 52 => ⟨S8x4096, .f32⟩
  | 53 => ⟨S8x4096, .f32⟩
  | 54 => ⟨S8x4096, .f32⟩
  | 55 => ⟨S8x4096, .f32⟩
  | 56 => ⟨S_, .f32⟩
  | 57 => ⟨S8x4096, .f32⟩
  | 58 => ⟨S8x4096, .f32⟩
  | 59 => ⟨S_, .f32⟩
  | 60 => ⟨S8x4096, .f32⟩
  | 61 => ⟨S8x4096, .f32⟩
  | 62 => ⟨S8x4096, .f32⟩
  | 63 => ⟨S4096x2048, .f32⟩
  | 64 => ⟨S8x2048, .f32⟩
  | 65 => ⟨S1x2048, .f32⟩
  | 66 => ⟨S8x2048, .f32⟩
  | 67 => ⟨S8x2048, .f32⟩
  | 68 => ⟨S8x2048, .f32⟩
  | 69 => ⟨S8x2048, .f32⟩
  | 70 => ⟨S_, .f32⟩
  | 71 => ⟨S8x2048, .f32⟩
  | 72 => ⟨S8x2048, .f32⟩
  | 73 => ⟨S_, .f32⟩
  | 74 => ⟨S8x2048, .f32⟩
  | 75 => ⟨S8x2048, .f32⟩
  | 76 => ⟨S8x2048, .f32⟩
  | 77 => ⟨S2048x2048, .f32⟩
  | 78 => ⟨S8x2048, .f32⟩
  | 79 => ⟨S1x2048, .f32⟩
  | 80 => ⟨S8x2048, .f32⟩
  | 81 => ⟨S8x2048, .f32⟩
  | 82 => ⟨S4096x2048, .f32⟩
  | 83 => ⟨S8x2048, .f32⟩
  | 84 => ⟨S1x2048, .f32⟩
  | 85 => ⟨S8x2048, .f32⟩
  | 86 => ⟨S8x2048, .f32⟩
  | 87 => ⟨S8x2048, .f32⟩
  | 88 => ⟨S8x1x2048, .f32⟩
  | 89 => ⟨S8x1x2048, .f32⟩
  | 90 => ⟨S8x1x2048, .f32⟩
  | 91 => ⟨S8x4096x2048, .f32⟩
  | 92 => ⟨S8x4096x2048, .f32⟩
  | 93 => ⟨S8x1x2048, .f32⟩
  | 94 => ⟨S8x1x2048, .f32⟩
  | 95 => ⟨S8x1x2048, .f32⟩
  | 96 => ⟨S8x4096x2048, .f32⟩
  | 97 => ⟨S8x4096x2048, .f32⟩
  | 98 => ⟨S_, .f32⟩
  | 99 => ⟨S8x4096, .f32⟩
  | 100 => ⟨S8x4096x1, .f32⟩
  | 101 => ⟨S_, .f32⟩
  | 102 => ⟨S8x4096x1, .f32⟩
  | 103 => ⟨S8x4096x1, .f32⟩
  | 104 => ⟨S_, .i32⟩
  | 105 => ⟨S_, .f32⟩
  | 106 => ⟨S8x4096, .f32⟩
  | 107 => ⟨S8x4096x1, .f32⟩
  | 108 => ⟨S_, .f32⟩
  | 109 => ⟨S8x4096x1, .f32⟩
  | 110 => ⟨S8x4096x1, .f32⟩
  | 111 => ⟨S8x4096x2048, .f32⟩
  | 112 => ⟨S8x4096x2048, .f32⟩
  | 113 => ⟨S8x4096x2048, .f32⟩
  | 114 => ⟨S_, .f32⟩
  | 115 => ⟨S_, .f32⟩
  | 116 => ⟨S_, .f32⟩
  | 117 => ⟨S_, .f32⟩
  | 118 => ⟨S8x4096, .f32⟩
  | 119 => ⟨S8x4096x1, .f32⟩
  | 120 => ⟨S8x4096x1, .f32⟩
  | 121 => ⟨S8x4096x1, .f32⟩
  | 122 => ⟨S_, .f32⟩
  | 123 => ⟨S_, .i1⟩
  | 124 => ⟨S_, .f32⟩
  | 125 => ⟨S_, .f32⟩
  | 126 => ⟨S8x4096x1, .f32⟩
  | 127 => ⟨S8x4096x1, .f32⟩
  | _ => ⟨S8x4096x2048, .f32⟩

abbrev hbmTy0_1 (i : Nat) : BufTy := match i % 128 with
  | 0 => ⟨S8x4096x2048, .f32⟩
  | 1 => ⟨S8x4096x2048, .f32⟩
  | 2 => ⟨S_, .f32⟩
  | 3 => ⟨S8x4096x1, .f32⟩
  | 4 => ⟨S8x4096x1, .f32⟩
  | 5 => ⟨S8x4096x1, .f32⟩
  | 6 => ⟨S8x4096x2048, .f32⟩
  | 7 => ⟨S8x4096x2048, .f32⟩
  | 8 => ⟨S1x1x2048, .f32⟩
  | 9 => ⟨S8x4096x2048, .f32⟩
  | 10 => ⟨S8x4096x2048, .f32⟩
  | 11 => ⟨S1x1x2048, .f32⟩
  | 12 => ⟨S8x4096x2048, .f32⟩
  | 13 => ⟨S8x4096x2048, .f32⟩
  | 14 => ⟨S_, .f32⟩
  | 15 => ⟨S_, .f32⟩
  | 16 => ⟨S_, .f32⟩
  | 17 => ⟨S_, .f32⟩
  | _ => ⟨S8x4096x2048, .f32⟩

abbrev hbmTy (i : Nat) : BufTy := match i / 128 with
  | 0 => hbmTy0_0 i
  | 1 => hbmTy0_1 i
  | _ => ⟨S8x4096x2048, .f32⟩

abbrev bufTy : (tb : Table) → Fin (tcTables nBuf tb) → BufTy
  | .hbm, ⟨i, _⟩ => hbmTy i
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_cst_1 : Ref sig .tc := ⟨.hbm, 21, rfl⟩
abbrev main_v3 : Ref sig .tc := ⟨.hbm, 22, rfl⟩
abbrev main_cst_2 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_6 : Ref sig .tc := ⟨.hbm, 98, rfl⟩
abbrev main_v59 : Ref sig .tc := ⟨.hbm, 99, rfl⟩
abbrev main_v60 : Ref sig .tc := ⟨.hbm, 100, rfl⟩
abbrev main_cst_7 : Ref sig .tc := ⟨.hbm, 101, rfl⟩
abbrev main_v61 : Ref sig .tc := ⟨.hbm, 102, rfl⟩
abbrev main_v62 : Ref sig .tc := ⟨.hbm, 103, rfl⟩
abbrev main_c : Ref sig .tc := ⟨.hbm, 104, rfl⟩
abbrev main_call2_cst : Ref sig .tc := ⟨.hbm, 105, rfl⟩
abbrev main_call2_v0 : Ref sig .tc := ⟨.hbm, 106, rfl⟩
abbrev main_call2_v1 : Ref sig .tc := ⟨.hbm, 107, rfl⟩
abbrev main_call2_cst_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_v7 : Ref sig .tc := ⟨.hbm, 114, rfl⟩
abbrev main_call2_cst_1 : Ref sig .tc := ⟨.hbm, 115, rfl⟩
abbrev main_call2_v8 : Ref sig .tc := ⟨.hbm, 116, rfl⟩
abbrev main_call2_cst_2 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_v12 : Ref sig .tc := ⟨.hbm, 121, rfl⟩
abbrev main_call2_cst_3 : Ref sig .tc := ⟨.hbm, 122, rfl⟩
abbrev main_call2_v13 : Ref sig .tc := ⟨.hbm, 123, rfl⟩
abbrev main_call2_cst_4 : Ref sig .tc := ⟨.hbm, 124, rfl⟩
abbrev main_call2_call0_v0 : Ref sig .tc := ⟨.hbm, 125, rfl⟩
abbrev main_call2_call0_v1 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_cst_8 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_9 : Ref sig .tc := ⟨.hbm, 142, rfl⟩
abbrev main_v77 : Ref sig .tc := ⟨.hbm, 143, rfl⟩
abbrev main_cst_10 : Ref sig .tc := ⟨.hbm, 144, rfl⟩
abbrev main_v78 : Ref sig .tc := ⟨.hbm, 145, rfl⟩

abbrev nD : Nat := 1
abbrev τ : Topo := Topo.v7x

variable {F : FTy → Type} [FloatOps F]

class Facts₀ : Prop where
  reducesTo_S8x4096x2048_S8x2048_d1 : S8x4096x2048.ReducesTo [1] S8x2048
  h_S_ : 0 < S_.numel
  bcast_S_S8x2048 : S_.BroadcastsInDim S8x2048 (![] : Fin 0 → Fin S8x2048.rank)
  concatenates_S8x2048_S8x2048_S8x4096_d1 : Shape.Concatenates [S8x2048, S8x2048] S8x4096 1
  transposes_S2048x4096_S4096x2048_1_0 : S2048x4096.Transposes [1, 0] S4096x2048
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  bcast_S8x2048_S8x1x2048_0_2 : S8x2048.BroadcastsInDim S8x1x2048 (![0, 2] : Fin 2 → Fin S8x1x2048.rank)
  bcast_S_S8x1x2048 : S_.BroadcastsInDim S8x1x2048 (![] : Fin 0 → Fin S8x1x2048.rank)
  bcast_S8x1x2048_S8x4096x2048_0_1_2 : S8x1x2048.BroadcastsInDim S8x4096x2048 (![0, 1, 2] : Fin 3 → Fin S8x4096x2048.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8x4096_0_1 : S1x4096.BroadcastsInDim S8x4096 (![0, 1] : Fin 2 → Fin S8x4096.rank)
  bcast_S_S8x4096 : S_.BroadcastsInDim S8x4096 (![] : Fin 0 → Fin S8x4096.rank)
  transposes_S2048x2048_S2048x2048_1_0 : S2048x2048.Transposes [1, 0] S2048x2048
  reducesTo_S8x4096x2048_S8x4096_d2 : S8x4096x2048.ReducesTo [2] S8x4096
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x2048_0_1_2 : S8x4096x1.BroadcastsInDim S8x4096x2048 (![0, 1, 2] : Fin 3 → Fin S8x4096x2048.rank)
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  reducesTo_S8x2048_S_d0_1 : S8x2048.ReducesTo [0, 1] S_
  dot_S8x4096_S4096x2048_S8x2048_1_0_0_1_n_n_wf : DotDims.WF S8x4096 S4096x2048 S8x2048 [1] [0] [0] [1] [] []
  dot_S8x4096_S4096x4096_S8x4096_1_0_0_1_n_n_wf : DotDims.WF S8x4096 S4096x4096 S8x4096 [1] [0] [0] [1] [] []
  dot_S8x2048_S2048x2048_S8x2048_1_0_0_1_n_n_wf : DotDims.WF S8x2048 S2048x2048 S8x2048 [1] [0] [0] [1] [] []

variable [Facts₀]

def dot_S8x4096_S4096x2048_S8x2048_1_0_0_1_n_n : DotDims S8x4096 S4096x2048 S8x2048 where
  lhsContracting := [1]
  rhsContracting := [0]
  lhsNonContracting := [0]
  rhsNonContracting := [1]
  lhsBatch := []
  rhsBatch := []
  wf := dot_S8x4096_S4096x2048_S8x2048_1_0_0_1_n_n_wf
def dot_S8x4096_S4096x4096_S8x4096_1_0_0_1_n_n : DotDims S8x4096 S4096x4096 S8x4096 where
  lhsContracting := [1]
  rhsContracting := [0]
  lhsNonContracting := [0]
  rhsNonContracting := [1]
  lhsBatch := []
  rhsBatch := []
  wf := dot_S8x4096_S4096x4096_S8x4096_1_0_0_1_n_n_wf
def dot_S8x2048_S2048x2048_S8x2048_1_0_0_1_n_n : DotDims S8x2048 S2048x2048 S8x2048 where
  lhsContracting := [1]
  rhsContracting := [0]
  lhsNonContracting := [0]
  rhsNonContracting := [1]
  lhsBatch := []
  rhsBatch := []
  wf := dot_S8x2048_S2048x2048_S8x2048_1_0_0_1_n_n_wf

class Facts : Prop extends Facts₀ where

variable [Facts]
-- ==== Proof.BitsPoolFrame.lean ====
/-
  The first launch of the kernel program pools its two inputs over the sequence axis: a grid of 4 × 16 points, each
  point reading a block of 2 batches × 256 rows × 2048 features of either input, adding the block's column sums into
  two scratch rows, which the point with l = 0 first clears and the point with l = 15 scales by 2⁻¹² and stores into
  the two results. This module states, at the buffer contents `V` the launch is entered from, what each point leaves:
  the two running sums (`acc`), the invariant that carries them from point to point, and the pipeline's proof data.
-/
import proofs.«140230_j55336358642849_1_alg».proof.Proof.Gen.Kernel.Launch
import proofs.«140230_j55336358642849_1_alg».proof.Proof.Gen.Kernel.Skeleton
import proofs.«140230_j55336358642849_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions; loads and stores through the whole-shape rectangle -/

/-- The condition of the body's first `scf.if` (the scratch rows are cleared), from the grid coordinates. -/
abbrev cond0 (i : grid0.Coords) : Prop := (Scalar.cmpi .ne (Scalar.extui (Scalar.cmpi .eq (BitVec.ofNat 32 (i 1).val) 0#32)) 0#32) = 1#1
/-- The condition of its second (the results are stored). -/
abbrev cond1 (i : grid0.Coords) : Prop := k0_cond2 i = 1#1

theorem hz3 : (![0, 0, 0] : Fin 3 → Nat) = fun _ => 0 := funext fun a => by fin_cases a <;> rfl

/-- A buffer whose last store went through the whole-shape rectangle reads as that store's payload. -/
theorem read_writes_unit {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon _ _ _ (fun y => ⟨_, List.mem_cons_self, View.mem_set_unit_zero h inb y⟩), View.canon_cons_unit_zero h]

/-- A load through the whole-shape rectangle reads the buffer's contents. -/
theorem readAt_unit {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

/-! ## The body's triple, case by case

On whole memrefs, the two inputs' at read contents `x0`, `x1`: the body leaves the inputs as they were and the two scratch
rows at the column sums of `x0`, `x1` added to what the rows held (`s0`, `s1`), or, where the first condition holds, to
the cleared rows; where the second condition holds it also leaves the two results' buffers at the scaled new sums, and
elsewhere it does not touch them. A load of a scratch row right after its whole store reads the stored row back. -/

set_option maxHeartbeats 1000000 in
/-- The first condition holds, the second does not: the rows are cleared, then the sums added. -/
theorem run_reset (c : Dev nD) (E : Set ℕ) (i : grid0.Coords)
    (arg2 : Memref sig .tc .vmem S2x256x2048 .f32) (harg2 : arg2.IsWhole) (arg3 : Memref sig .tc .vmem S2x256x2048 .f32) (harg3 : arg3.IsWhole)
    (arg4 : Memref sig .tc .vmem S2x1x2048 .f32) (harg4 : arg4.IsWhole) (arg5 : Memref sig .tc .vmem S2x1x2048 .f32) (harg5 : arg5.IsWhole)
    (arg6 : Memref sig .tc .vmem S2x1x2048 .f32) (harg6 : arg6.IsWhole) (arg7 : Memref sig .tc .vmem S2x1x2048 .f32) (harg7 : arg7.IsWhole)
    (hc0 : cond0 i) (hc1 : ¬cond1 i)
    (x0 x1 : Vec F S2x256x2048 .f32) (K : PUnit → sProp 𝕄) :
    iprop(owns (c : Thread nD τ) arg2 fullShare x0 ∗ owns (c : Thread nD τ) arg3 fullShare x1
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg6 fullShare (k0_pay3 (k0_pay1 (F := F)) x0) ∗ owns (c : Thread nD τ) arg7 fullShare (k0_pay4 (k0_pay2 (F := F)) x1)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%d0, %g0, -, HS0⟩, ⟨%d1, %g1, -, HS1⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    sl_unfold_run_names
    rw [read_writes_unit _ _ hz3, readAt_unit _ _ hz3, View.readCov_unit_zero _ hz3]
  · iexists _; isplitr
    swap; · iexact HS1
    ipureintro
    sl_unfold_run_names
    rw [read_writes_unit _ _ hz3, readAt_unit _ _ hz3, View.readCov_unit_zero _ hz3]

set_option maxHeartbeats 1000000 in
/-- Neither condition holds: the sums are added to what the rows held. -/
theorem run_add (c : Dev nD) (E : Set ℕ) (i : grid0.Coords)
    (arg2 : Memref sig .tc .vmem S2x256x2048 .f32) (harg2 : arg2.IsWhole) (arg3 : Memref sig .tc .vmem S2x256x2048 .f32) (harg3 : arg3.IsWhole)
    (arg4 : Memref sig .tc .vmem S2x1x2048 .f32) (harg4 : arg4.IsWhole) (arg5 : Memref sig .tc .vmem S2x1x2048 .f32) (harg5 : arg5.IsWhole)
    (arg6 : Memref sig .tc .vmem S2x1x2048 .f32) (harg6 : arg6.IsWhole) (arg7 : Memref sig .tc .vmem S2x1x2048 .f32) (harg7 : arg7.IsWhole)
    (hc0 : ¬cond0 i) (hc1 : ¬cond1 i)
    (x0 x1 : Vec F S2x256x2048 .f32) (s0 s1 : Vec F S2x1x2048 .f32) (K : PUnit → sProp 𝕄) :
    iprop(owns (c : Thread nD τ) arg2 fullShare x0 ∗ owns (c : Thread nD τ) arg3 fullShare x1
        ∗ owns (c : Thread nD τ) arg6 fullShare s0 ∗ owns (c : Thread nD τ) arg7 fullShare s1
        ∗ (iprop(owns (c : Thread nD τ) arg2 fullShare x0 ∗ owns (c : Thread nD τ) arg3 fullShare x1
            ∗ owns (c : Thread nD τ) arg6 fullShare (k0_pay3 s0 x0) ∗ owns (c : Thread nD τ) arg7 fullShare (k0_pay4 s1 x1)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%g0, %hg0, HS0⟩, ⟨%g1, %hg1, HS1⟩, Hk⟩
  subst hf0; subst hf1; subst hg0; subst hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    rw [read_writes_unit _ _ hz3, readAt_unit _ _ hz3, readAt_unit _ _ hz3]
  · iexists _; isplitr
    swap; · iexact HS1
    ipureintro
    rw [read_writes_unit _ _ hz3, readAt_unit _ _ hz3, readAt_unit _ _ hz3]

set_option maxHeartbeats 1000000 in
/-- The second condition holds, the first does not: the sums are added, then the scaled new sums stored into the results' buffers. -/
theorem run_store (c : Dev nD) (E : Set ℕ) (i : grid0.Coords)
    (arg2 : Memref sig .tc .vmem S2x256x2048 .f32) (harg2 : arg2.IsWhole) (arg3 : Memref sig .tc .vmem S2x256x2048 .f32) (harg3 : arg3.IsWhole)
    (arg4 : Memref sig .tc .vmem S2x1x2048 .f32) (harg4 : arg4.IsWhole) (arg5 : Memref sig .tc .vmem S2x1x2048 .f32) (harg5 : arg5.IsWhole)
    (arg6 : Memref sig .tc .vmem S2x1x2048 .f32) (harg6 : arg6.IsWhole) (arg7 : Memref sig .tc .vmem S2x1x2048 .f32) (harg7 : arg7.IsWhole)
    (hc0 : ¬cond0 i) (hc1 : cond1 i)
    (x0 x1 : Vec F S2x256x2048 .f32) (s0 s1 : Vec F S2x1x2048 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg2 fullShare x0 ∗ owns (c : Thread nD τ) arg3 fullShare x1
            ∗ owns (c : Thread nD τ) arg4 fullShare (k0_pay5 (k0_pay3 s0 x0)) ∗ owns (c : Thread nD τ) arg5 fullShare (k0_pay6 (k0_pay4 s1 x1))
            ∗ owns (c : Thread nD τ) arg6 fullShare (k0_pay3 s0 x0) ∗ owns (c : Thread nD τ) arg7 fullShare (k0_pay4 s1 x1)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%d2, %f2, -, H2⟩, ⟨%d3, %f3, -, H3⟩, ⟨%g0, %hg0, HS0⟩, ⟨%g1, %hg1, HS1⟩, Hk⟩
  subst hf0; subst hf1; subst hg0; subst hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_unit _ _ hz3, View.readCov_unit_zero _ hz3, readAt_unit _ _ hz3, readAt_unit _ _ hz3]
  isplitl [H3]
  · iexists _; isplitr
    swap; · iexact H3
    ipureintro
    sl_unfold_run_names
    rw [read_writes_unit _ _ hz3, View.readCov_unit_zero _ hz3, readAt_unit _ _ hz3, readAt_unit _ _ hz3]
  isplitl [HS0]
  · iexists _; isplitr
    swap; · iexact HS0
    ipureintro
    sl_unfold_run_names
    rw [read_writes_unit _ _ hz3, readAt_unit _ _ hz3, readAt_unit _ _ hz3]
  · iexists _; isplitr
    swap; · iexact HS1
    ipureintro
    sl_unfold_run_names
    rw [read_writes_unit _ _ hz3, readAt_unit _ _ hz3, readAt_unit _ _ hz3]

/-! ## The running sums, the invariant and the proof data, at the entry contents `V` -/

variable (V : (c : Dev nD) → (b : Ref sig .tc) → Buf (Elt F) ((c : Thread nD τ).loc b))

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch rows after point `n`: at a point with l = 0 (n ≡ 0 mod 16) the column sums of the point's two
    blocks added to the cleared rows, at any other point added to what the point before left. -/
def acc (c : Dev nD) : (n : ℕ) → n < cfg0.N → Vec F S2x1x2048 .f32 × Vec F S2x1x2048 .f32
  | 0, hn => (k0_pay3 (k0_pay1 (F := F)) (iblk V c 0 ⟨0, hn⟩), k0_pay4 (k0_pay2 (F := F)) (iblk V c 1 ⟨0, hn⟩))
  | n + 1, hn =>
    if (n + 1) % 16 = 0 then
      (k0_pay3 (k0_pay1 (F := F)) (iblk V c 0 ⟨n + 1, hn⟩), k0_pay4 (k0_pay2 (F := F)) (iblk V c 1 ⟨n + 1, hn⟩))
    else
      (k0_pay3 (acc c n (Nat.lt_of_succ_lt hn)).1 (iblk V c 0 ⟨n + 1, hn⟩),
       k0_pay4 (acc c n (Nat.lt_of_succ_lt hn)).2 (iblk V c 1 ⟨n + 1, hn⟩))

/-- The two scratch rows as whole memrefs. -/
abbrev scL : Memref sig .tc .vmem S2x1x2048 .f32 := Memref.whole cc0_scratch0
abbrev scR : Memref sig .tc .vmem S2x1x2048 .f32 := Memref.whole cc0_scratch1

/-- The launch's invariant before position `n`: before the first point every scoped buffer that is no staging buffer
    at anything and the generator register at some state; afterwards the two scratch rows at the running sums the
    point before left, every other such buffer at anything, the register at some state. -/
def PhiS (c : Dev nD) : (n : ℕ) → n ≤ cfg0.N → sProp 𝕄
  | 0, _ => Pipeline.ΦA spec0 c
  | n + 1, hn => iprop(owns (c : Thread nD τ) scL fullShare (acc V c n hn).1 ∗ owns (c : Thread nD τ) scR fullShare (acc V c n hn).2
      ∗ Pipeline.scopedRestBut (Ix := Unit) (Name := ℕ) (U := UR sig nD τ) (Lvl := ℕ) (Val := Elt F) spec0 c [cc0_scratch0, cc0_scratch1]
      ∗ (∃ r, prngReg c r))

/-- The pipeline's proof data on core `c`: the arrays as the launch finds them; after the body each input's buffer at
    its block, each result's at the scaled running sum; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay5 (acc V c t.val t.isLt).1
    | ⟨3, _⟩ => k0_pay6 (acc V c t.val t.isLt).2
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = k0_pay5 (acc V c t.val t.isLt).1 := by dsimp only [dat]
theorem after_3 (c : Dev nD) (t : Fin cfg0.N) : (dat V c).after 3 t = k0_pay6 (acc V c t.val t.isLt).2 := by dsimp only [dat]

/-! ## The conditions in closed form, decided over the grid's 64 points -/

/-- The first condition holds at the points ≡ 0 (mod 16), -/
theorem hcond0 : ∀ t : Fin cfg0.N, cond0 (grid0.coords t) ↔ t.val % 16 = 0 :=
  (by decide +kernel : ∀ t : Fin grid0.N, cond0 (grid0.coords t) ↔ t.val % 16 = 0)
/-- the second at the points ≡ 15 (mod 16). -/
theorem hcond1 : ∀ t : Fin cfg0.N, cond1 (grid0.coords t) ↔ t.val % 16 = 15 :=
  (by decide +kernel : ∀ t : Fin grid0.N, cond1 (grid0.coords t) ↔ t.val % 16 = 15)

/-- The inputs are never idle. -/
theorem liveAt0 : ∀ t : Fin cfg0.N, cfg0.idle 0 (grid0.coords t) = false := by decide +kernel
theorem liveAt1 : ∀ t : Fin cfg0.N, cfg0.idle 1 (grid0.coords t) = false := by decide +kernel
/-- The results are idle, and not written back, exactly where the second condition fails. -/
theorem idleAt2 : ∀ t : Fin cfg0.N, ¬cond1 (grid0.coords t) → cfg0.idle 2 (grid0.coords t) = true := by decide +kernel
theorem idleAt3 : ∀ t : Fin cfg0.N, ¬cond1 (grid0.coords t) → cfg0.idle 3 (grid0.coords t) = true := by decide +kernel
theorem noFlush2 : ∀ t : Fin cfg0.N, ¬cond1 (grid0.coords t) → (cfg0.win 2).flush t = false := by decide +kernel
theorem noFlush3 : ∀ t : Fin cfg0.N, ¬cond1 (grid0.coords t) → (cfg0.win 3).flush t = false := by decide +kernel
theorem liveAt2 : ∀ t : Fin cfg0.N, cond1 (grid0.coords t) → cfg0.idle 2 (grid0.coords t) = false := by decide +kernel
theorem liveAt3 : ∀ t : Fin cfg0.N, cond1 (grid0.coords t) → cfg0.idle 3 (grid0.coords t) = false := by decide +kernel

/-! ## The running sums, point by point -/

/-- At a point ≡ 0 (mod 16) the sums start afresh from the cleared rows. -/
theorem acc_reset (c : Dev nD) (t : Fin cfg0.N) (h : t.val % 16 = 0) :
    acc V c t.val t.isLt = (k0_pay3 (k0_pay1 (F := F)) (iblk V c 0 t), k0_pay4 (k0_pay2 (F := F)) (iblk V c 1 t)) := by
  obtain ⟨n, hn⟩ := t
  cases n with
  | zero => rfl
  | succ n => exact if_pos h

/-- At any other point they are the point's column sums added to what the point before left. -/
theorem acc_step (c : Dev nD) (t : Fin cfg0.N) (h : ¬t.val % 16 = 0) :
    acc V c t.val t.isLt
      = (k0_pay3 (acc V c (t.val - 1) (Nat.lt_of_le_of_lt (Nat.sub_le _ _) t.isLt)).1 (iblk V c 0 t),
         k0_pay4 (acc V c (t.val - 1) (Nat.lt_of_le_of_lt (Nat.sub_le _ _) t.isLt)).2 (iblk V c 1 t)) := by
  obtain ⟨n, hn⟩ := t
  cases n with
  | zero => exact absurd (Nat.zero_mod _) h
  | succ n => exact if_neg h

/-! ## The invariant, position by position -/

theorem PhiS_zero (c : Dev nD) (n : ℕ) (h : n ≤ cfg0.N) (hz : n = 0) : PhiS V c n h = Pipeline.ΦA spec0 c := by
  subst hz; rfl

/-- After point `n`: the two scratch rows at that point's sums. -/
theorem PhiS_succ (c : Dev nD) (n : ℕ) (hn : n < cfg0.N) :
    PhiS V c (n + 1) hn = iprop(owns (c : Thread nD τ) scL fullShare (acc V c n hn).1 ∗ owns (c : Thread nD τ) scR fullShare (acc V c n hn).2
      ∗ Pipeline.scopedRestBut (Ix := Unit) (Name := ℕ) (U := UR sig nD τ) (Lvl := ℕ) (Val := Elt F) spec0 c [cc0_scratch0, cc0_scratch1]
      ∗ (∃ r, prngReg c r)) := rfl

/-- Before a point that is not the first: the two scratch rows at what the point before left. -/
theorem PhiS_pos (c : Dev nD) (n : ℕ) (h : n ≤ cfg0.N) (hz : n ≠ 0) :
    PhiS V c n h = iprop(owns (c : Thread nD τ) scL fullShare (acc V c (n - 1) (by omega)).1 ∗ owns (c : Thread nD τ) scR fullShare (acc V c (n - 1) (by omega)).2
      ∗ Pipeline.scopedRestBut (Ix := Unit) (Name := ℕ) (U := UR sig nD τ) (Lvl := ℕ) (Val := Elt F) spec0 c [cc0_scratch0, cc0_scratch1]
      ∗ (∃ r, prngReg c r)) := by
  cases n with
  | zero => exact absurd rfl hz
  | succ n => rfl

/-- The invariant at a point's start, restated at `t.val`. -/
theorem PhiS_castSucc (c : Dev nD) (t : Fin cfg0.N) :
    (dat V c).Φ t.castSucc = PhiS V c t.val (Nat.le_of_lt t.isLt) := by
  dsimp only [dat]; simp only [Fin.coe_castSucc]

/-- The class's invariant with the two scratch rows taken out of the scoped rest as memrefs owned at some contents. -/
theorem PhiA_eq (c : Dev nD) :
    (Pipeline.ΦA spec0 c : sProp 𝕄)
      = iprop((((∃ d, owns (c : Thread nD τ) scL fullShare d) ∗ (∃ d, owns (c : Thread nD τ) scR fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA
  rw [Pipeline.scopedRest_split_of_list spec0 c [cc0_scratch0, cc0_scratch1] (by decide) (by decide)]
  simp only [bigSepL_cons_cons, bigSepL_singleton, scL, scR, owns_whole]
  try rfl

/-! ## What the body finds in the inputs' buffers -/

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation, at a generic point -/

/-- Each window's current staging memref at point `t`, spelled as the pipeline passes it to the body. -/
abbrev ms0 (t : Fin cfg0.N) : Memref sig .tc .vmem S2x256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x256x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x1x2048 .f32 := win0_3.stage (cfg0.slots t 3)
abbrev hs3 (t : Fin cfg0.N) : (ms3 t).IsWhole := hstage0_3 ((cfg0.slots t 3).cast nbuf0_3)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the closed forms say which case the point is in; the
    invariant hands the body the two scratch rows at what the point before left (at anything before the first point,
    where the body clears them) and takes them back at this point's sums; the results' buffers are handed back
    untouched where the second condition fails and at the scaled sums where it holds; the rest of the invariant and
    what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [liveAt0 t], after_0]
  rw [show (dat V c).leavesExact 1 t = owns (c : Thread nD τ) (ms1 t) fullShare ((dat V c).after 1 t) from by
    unfold Dat.leavesExact; rw [liveAt1 t], after_1]
  have hN : t.val < 64 := lt_of_lt_of_eq t.isLt (show cfg0.N = 64 from N_0)
  by_cases h0 : t.val % 16 = 0
  · have h1 : ¬t.val % 16 = 15 := by omega
    have hc0 : cond0 (grid0.coords t) := (hcond0 t).mpr h0
    have hc1 : ¬cond1 (grid0.coords t) := fun h => h1 ((hcond1 t).mp h)
    rw [Dat.leavesExact_idle (dat V c) 2 t (idleAt2 t hc1) (noFlush2 t hc1),
      Dat.leavesExact_idle (dat V c) 3 t (idleAt3 t hc1) (noFlush3 t hc1)]
    rw [acc_reset V c t h0]; dsimp only
    by_cases hz : t.val = 0
    · rw [PhiS_castSucc V c t, PhiS_zero V c _ _ hz, PhiA_eq]
      iintro ⟨⟨⟨⟨HL, HR⟩, Hrest⟩, Hg⟩, Ho, ⟨%d0, H0⟩, ⟨%d1, H1⟩, H2, H3⟩
      iapply (run_reset c Set.univ (grid0.coords t) _ _ _ _ _ _ _ _ _ _ _ _ hc0 hc1 (iblk V c 0 t) (iblk V c 1 t) _)
      isplitl [H0]; · iexact H0
      isplitl [H1]; · iexact H1
      isplitl [HL]; · iexact HL
      isplitl [HR]; · iexact HR
      iintro ⟨H0, H1, HL, HR⟩
      isplitl [HL HR Hrest Hg]
      · isplitl [HL]; · iexact HL
        isplitl [HR]; · iexact HR
        isplitl [Hrest]; · iexact Hrest
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨HL, HR, Hrest, Hg⟩, Ho, ⟨%d0, H0⟩, ⟨%d1, H1⟩, H2, H3⟩
      iapply (run_reset c Set.univ (grid0.coords t) _ _ _ _ _ _ _ _ _ _ _ _ hc0 hc1 (iblk V c 0 t) (iblk V c 1 t) _)
      isplitl [H0]; · iexact H0
      isplitl [H1]; · iexact H1
      isplitl [HL]; · iexists _; iexact HL
      isplitl [HR]; · iexists _; iexact HR
      iintro ⟨H0, H1, HL, HR⟩
      isplitl [HL HR Hrest Hg]
      · isplitl [HL]; · iexact HL
        isplitl [HR]; · iexact HR
        isplitl [Hrest]; · iexact Hrest
        iexact Hg
      isplitl [Ho]; · iexact Ho
      isplitl [H0]; · iexact H0
      isplitl [H1]; · iexact H1
      isplitl [H2]; · iexact H2
      iexact H3
  · have hz : t.val ≠ 0 := fun e => h0 (by rw [e])
    have hc0 : ¬cond0 (grid0.coords t) := fun h => h0 ((hcond0 t).mp h)
    rw [acc_step V c t h0]; dsimp only
    rw [PhiS_castSucc V c t, PhiS_pos V c _ _ hz]
    by_cases h1 : t.val % 16 = 15
    · have hc1 : cond1 (grid0.coords t) := (hcond1 t).mpr h1
      rw [show (dat V c).leavesExact 2 t = owns (c : Thread nD τ) (ms2 t) fullShare ((dat V c).after 2 t) from by
        unfold Dat.leavesExact; rw [liveAt2 t hc1], after_2]
      rw [show (dat V c).leavesExact 3 t = owns (c : Thread nD τ) (ms3 t) fullShare ((dat V c).after 3 t) from by
        unfold Dat.leavesExact; rw [liveAt3 t hc1], after_3]
      rw [acc_step V c t h0]; dsimp only
      iintro ⟨⟨HL, HR, Hrest, Hg⟩, Ho, ⟨%d0, H0⟩, ⟨%d1, H1⟩, ⟨%d2, H2⟩, ⟨%d3, H3⟩⟩
      iapply (run_store c Set.univ (grid0.coords t) _ _ _ _ _ _ _ _ _ _ _ _ hc0 hc1 (iblk V c 0 t) (iblk V c 1 t) _ _ _)
      isplitl [H0]; · iexact H0
      isplitl [H1]; · iexact H1
      isplitl [H2]; · iexists _; iexact H2
      isplitl [H3]; · iexists _; iexact H3
      isplitl [HL]; · iexact HL
      isplitl [HR]; · iexact HR
      iintro ⟨H0, H1, H2, H3, HL, HR⟩
      isplitl [HL HR Hrest Hg]
      · isplitl [HL]; · iexact HL
        isplitl [HR]; · iexact HR
        isplitl [Hrest]; · iexact Hrest
        iexact Hg
      isplitl [Ho]; · iexact Ho
      isplitl [H0]; · iexact H0
      isplitl [H1]; · iexact H1
      isplitl [H2]; · iexact H2
      iexact H3
    · have hc1 : ¬cond1 (grid0.coords t) := fun h => h1 ((hcond1 t).mp h)
      rw [Dat.leavesExact_idle (dat V c) 2 t (idleAt2 t hc1) (noFlush2 t hc1),
        Dat.leavesExact_idle (dat V c) 3 t (idleAt3 t hc1) (noFlush3 t hc1)]
      iintro ⟨⟨HL, HR, Hrest, Hg⟩, Ho, ⟨%d0, H0⟩, ⟨%d1, H1⟩, H2, H3⟩
      iapply (run_add c Set.univ (grid0.coords t) _ _ _ _ _ _ _ _ _ _ _ _ hc0 hc1 (iblk V c 0 t) (iblk V c 1 t) _ _ _)
      isplitl [H0]; · iexact H0
      isplitl [H1]; · iexact H1
      isplitl [HL]; · iexact HL
      isplitl [HR]; · iexact HR
      iintro ⟨H0, H1, HL, HR⟩
      isplitl [HL HR Hrest Hg]
      · isplitl [HL]; · iexact HL
        isplitl [HR]; · iexact HR
        isplitl [Hrest]; · iexact Hrest
        iexact Hg
      isplitl [Ho]; · iexact Ho
      isplitl [H0]; · iexact H0
      isplitl [H1]; · iexact H1
      isplitl [H2]; · iexact H2
      iexact H3

/-- The body at every point meets the pipeline's obligation. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]

/-- After the last point the invariant gives the class's back: the named sums are forgotten. -/
theorem hout (c : Dev nD) : (dat V c).Φ (Fin.last cfg0.N) ⊢ Pipeline.ΦA spec0 c := by
  have hN : cfg0.N ≠ 0 := by rw [show cfg0.N = 64 from N_0]; omega
  rw [show (dat V c).Φ (Fin.last cfg0.N) = PhiS V c cfg0.N (Nat.le_refl _) from rfl, PhiS_pos V c _ _ hN, PhiA_eq]
  iintro ⟨HL, HR, Hrest, Hg⟩
  isplitl [HL HR Hrest]
  · isplitl [HL HR]
    · isplitl [HL]
      · iexists _; iexact HL
      iexists _; iexact HR
    iexact Hrest
  iexact Hg

end Cert.Kernel.Pool

end
-- ==== Proof.BitsNormFrame.lean ====
/-
  The second launch of the kernel program mixes the two inputs by the gate, adds the bias and normalises each row over
  its 2048 features: a grid of 4 × 32 points, each point reading a block of 2 batches × 128 rows of either input, the
  two batches' gate and bias rows, the scale and shift rows, and storing the normalised block whole. Nothing is kept
  between points. This module states, at the buffer contents `V` the launch is entered from, what each point stores
  (`out`, the body's arithmetic applied to the point's blocks) and the pipeline's proof data.
-/
import proofs.«140230_j55336358642849_1_alg».proof.Proof.Gen.Kernel.Launch
import proofs.«140230_j55336358642849_1_alg».proof.Proof.Gen.Kernel.Skeleton
import proofs.«140230_j55336358642849_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What a point stores: the body's arithmetic on the two input blocks, the gate and bias rows, the scale row, then
    the shift row added. -/
def out (xl xr : Vec F S2x128x2048 .f32) (a b : Vec F S2x1x2048 .f32) (g be : Vec F S1x1x2048 .f32) : Vec F S2x128x2048 .f32 :=
  k1_pay1 (k1_pay2 xl xr a b g) be

/-! ## The body's triple -/

/-- The offsets of every access of the body are zero: each load and the store go through the whole buffer. -/
theorem offsets_zero : (![0, 0, 0] : Fin 3 → Nat) = fun _ => 0 := funext fun a => by fin_cases a <;> rfl

set_option maxHeartbeats 1000000 in
/-- The body on whole staging memrefs, the six inputs' at read contents and the result's at anything, runs to the
    continuation holding the inputs' as they were and the result's at `out` of the inputs: six whole loads, then one
    whole store whose payload is the body's arithmetic on what was loaded. The one store covers the buffer, so what
    it leaves reads as its payload; each whole load reads the contents. -/
theorem sound_kernel (c : Dev nD) (E : Set ℕ) (i : grid1.Coords)
    (arg2 : Memref sig .tc .vmem S2x128x2048 .f32) (harg2 : arg2.IsWhole) (arg3 : Memref sig .tc .vmem S2x128x2048 .f32) (harg3 : arg3.IsWhole)
    (arg4 : Memref sig .tc .vmem S2x1x2048 .f32) (harg4 : arg4.IsWhole) (arg5 : Memref sig .tc .vmem S2x1x2048 .f32) (harg5 : arg5.IsWhole)
    (arg6 : Memref sig .tc .vmem S1x1x2048 .f32) (harg6 : arg6.IsWhole) (arg7 : Memref sig .tc .vmem S1x1x2048 .f32) (harg7 : arg7.IsWhole)
    (arg8 : Memref sig .tc .vmem S2x128x2048 .f32) (harg8 : arg8.IsWhole)
    (xl xr : Vec F S2x128x2048 .f32) (a b : Vec F S2x1x2048 .f32) (g be : Vec F S1x1x2048 .f32) (K : PUnit → sProp 𝕄) :
    iprop(owns (c : Thread nD τ) arg2 fullShare xl ∗ owns (c : Thread nD τ) arg3 fullShare xr
        ∗ owns (c : Thread nD τ) arg4 fullShare a ∗ owns (c : Thread nD τ) arg5 fullShare b
        ∗ owns (c : Thread nD τ) arg6 fullShare g ∗ owns (c : Thread nD τ) arg7 fullShare be
        ∗ (∃ d, owns (c : Thread nD τ) arg8 fullShare d)
        ∗ (iprop(owns (c : Thread nD τ) arg2 fullShare xl ∗ owns (c : Thread nD τ) arg3 fullShare xr
            ∗ owns (c : Thread nD τ) arg4 fullShare a ∗ owns (c : Thread nD τ) arg5 fullShare b
            ∗ owns (c : Thread nD τ) arg6 fullShare g ∗ owns (c : Thread nD τ) arg7 fullShare be
            ∗ owns (c : Thread nD τ) arg8 fullShare (out xl xr a b g be)) -∗ K ⟨⟩))
      ⊢ wp frame (wpE (defs₀ (F := F)) Variants.none c none) E
          (cc1_kernel i arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf2 hf3 hf4 hf5 hf6 hf7
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (fun y => ⟨_, List.mem_singleton_self _, View.mem_set_unit_zero offsets_zero inb_S2x128x2048_S2x128x2048_0_0_0 y⟩)]
  rw [View.canon_unit_zero offsets_zero]
  simp only [View.readAt_eq_ld, View.ld_unit_zero (S := S2x128x2048) offsets_zero,
    View.ld_unit_zero (S := S2x1x2048) offsets_zero, View.ld_unit_zero (S := S1x1x2048) offsets_zero]
  rfl

/-- The pipeline's proof data on core `c`: the arrays as the launch finds them; after the body each input's buffer at
    its block and the result's at `out` of the blocks; the class's invariant; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out (iblk V c 0 t) (iblk V c 1 t) (iblk V c 2 t) (iblk V c 3 t) (iblk V c 4 t) (iblk V c 5 t)
  Φ _ := Pipeline.ΦA spec1 c
  q _ := fullShare
  owed _ := 0

theorem A_eq (c : Dev nD) (w : Fin cfg1.W) : (dat V c).A w = V c (Pipeline.arrRef spec1 w) := by
  dsimp only [dat]

theorem after_6 (c : Dev nD) (t : Fin cfg1.N) :
    (dat V c).after 6 t = out (iblk V c 0 t) (iblk V c 1 t) (iblk V c 2 t) (iblk V c 3 t) (iblk V c 4 t) (iblk V c 5 t) := by
  dsimp only [dat]

/-! ## What the body finds and leaves, window by window -/

/-- The body leaves each input's buffer at its block. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]

/-- The left input's buffer holds its block at every point: it is fetched at every point, and a fetch of an uncut window
    fills the buffer with the block. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- The right input's likewise. -/
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- The gate rows' buffer holds its block at every point, fetched there or not: the block index depends on the first grid
    coordinate only, so where the window is not fetched the index has not moved and the buffer, which the body leaves
    as it found it, still holds the block. -/
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- The bias rows' likewise. -/
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
/-- The scale row's buffer holds the one block of its array at every point: fetched at the first point, never moved. -/
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- The shift row's likewise. -/
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body obligation, at a generic point -/

/-- What the body is called with at point `t`: the invariant, what the core owes, and each window's current buffer at
    what it then holds. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- What it returns: the same invariant and debts, each buffer at what the body leaves. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: every input's buffer holds its block, so the body's triple applies at the blocks; the
    invariant and the core's debts pass through unread, and the result's buffer may hold anything beforehand. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at every point meets the pipeline's obligation. -/
theorem body_obligation (c : Dev nD) : BodyObligation (dat (F := F) V c) (defs₀ (F := F)) Variants.none () Set.univ := fun t => by
  rw [bigSep_W1, bigSep_W1]
  exact sound_body V c t

end Cert.Kernel.Norm

end
-- ==== Proof.BitsLaunch.lean ====
/-
  The kernel program's run as a whole: the first launch (the pooled sums) entered from the launch memory, the host
  operations between, the second launch (the gated mix and the normalisation) entered from what those leave, the host
  operations after. What each launch leaves in its result arrays is what its pipeline's write-backs fold to
  (`left0`, `left1`, `left47`); every other buffer it leaves as it found it. The two launches enter the program's
  run as segment records over the thread state "every unscoped buffer at the boundary's contents, the generator
  register at some state, nothing owed"; the run then ends with every argument array as launched.
-/
import proofs.«140230_j55336358642849_1_alg».proof.Proof.Gen.Kernel.Regions
import proofs.«140230_j55336358642849_1_alg».proof.Proof.BitsPoolFrame
import proofs.«140230_j55336358642849_1_alg».proof.Proof.BitsNormFrame

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the launches are entered from, and what they leave -/

/-- The first launch is entered from the launch memory. -/
abbrev E0 : (c : Dev nD) → (b : Ref sig .tc) → Buf (Elt F) ((c : Thread nD τ).loc b) := fun c b => V0 m c b

/-- What the first launch leaves in its two result arrays: its write-backs folded. -/
def left0 (c : Dev nD) : Buf (Elt F) ((c : Thread nD τ).loc main_v0_0) := (Pool.dat (E0 m) c).arrAt 2 cfg0.N
def left1 (c : Dev nD) : Buf (Elt F) ((c : Thread nD τ).loc main_v0_1) := (Pool.dat (E0 m) c).arrAt 3 cfg0.N

/-- The contents the launches leave, the first launch's only. -/
def outsA : Outs (F := F) := fun _ r c =>
  if h : r = main_v0_0 then h ▸ left0 m c else if h : r = main_v0_1 then h ▸ left1 m c else V0 m c r

/-- The second launch is entered from what the host operations between the launches leave. -/
abbrev E1 : (c : Dev nD) → (b : Ref sig .tc) → Buf (Elt F) ((c : Thread nD τ).loc b) := fun c b => V6 m (outsA m) c b

/-- What the second launch leaves in its result array. -/
def left47 (c : Dev nD) : Buf (Elt F) ((c : Thread nD τ).loc main_v47) := (Norm.dat (E1 m) c).arrAt 6 cfg1.N

/-- The contents the launches leave. -/
def outs : Outs (F := F) := fun J r c => if h : r = main_v47 then h ▸ left47 m c else outsA m J r c

theorem outs_v0_0 (J : ℕ) (c : Dev nD) : outs m J main_v0_0 c = left0 m c := by
  unfold outs outsA; rw [dif_neg (by decide), dif_pos rfl]
theorem outs_v0_1 (J : ℕ) (c : Dev nD) : outs m J main_v0_1 c = left1 m c := by
  unfold outs outsA; rw [dif_neg (by decide), dif_neg (by decide), dif_pos rfl]
theorem outs_v47 (J : ℕ) (c : Dev nD) : outs m J main_v47 c = left47 m c := by
  unfold outs; rw [dif_pos rfl]
theorem outsA_v0_0 (J : ℕ) (c : Dev nD) : outsA m J main_v0_0 c = left0 m c := by
  unfold outsA; rw [dif_pos rfl]
theorem outsA_v0_1 (J : ℕ) (c : Dev nD) : outsA m J main_v0_1 c = left1 m c := by
  unfold outsA; rw [dif_neg (by decide), dif_pos rfl]

/-- Between the launches only the first launch's results matter. -/
theorem V1_outs (c : Dev nD) : V1 m (outs m) c = V1 m (outsA m) c := by
  unfold V1; rw [outs_v0_0, outs_v0_1, outsA_v0_0, outsA_v0_1]

theorem V6_outs (c : Dev nD) : V6 m (outs m) c = V6 m (outsA m) c := by
  unfold V6 V5 V4 V3 V2; rw [V1_outs]

/-! ## The proof data family and the thread state -/

/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => Pool.dat (E0 m) c
  | ⟨1, _⟩ => fun c => Norm.dat (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-- The buffers after the first launch, read at the TensorCore's references. -/
abbrev X1 : (c : Dev nD) → (b : Ref sig .tc) → Buf (Elt F) ((c : Thread nD τ).loc b) := fun c b => V1 m (outs m) c b
/-- The buffers before and after the second launch, read at the TensorCore's references. -/
abbrev X6 : (c : Dev nD) → (b : Ref sig .tc) → Buf (Elt F) ((c : Thread nD τ).loc b) := fun c b => V6 m (outs m) c b
abbrev X7 : (c : Dev nD) → (b : Ref sig .tc) → Buf (Elt F) ((c : Thread nD τ).loc b) := fun c b => V7 m (outs m) c b

/-- After the first launch each of its arrays holds what the pipeline leaves: an input what it held, a result its
    write-backs folded. -/
theorem hF0 (c : Dev nD) (w : Fin cfg0.W) : (pdats m 0 c).arrAt w cfg0.N = X1 m c (Pipeline.arrRef spec0 w) := by
  match w with
  | ⟨0, _⟩ => exact ((Pool.dat (E0 m) c).arrAt_in 0 rfl _).trans ((Pool.A_eq (E0 m) c 0).trans (V1_of m (outs m) c main_arg0 (by decide)).symm)
  | ⟨1, _⟩ => exact ((Pool.dat (E0 m) c).arrAt_in 1 rfl _).trans ((Pool.A_eq (E0 m) c 1).trans (V1_of m (outs m) c main_arg1 (by decide)).symm)
  | ⟨2, _⟩ =>
    show left0 m c = V1 m (outs m) c main_v0_0
    unfold V1
    rw [Function.update_of_ne (StableHlo.devRef_ne_of_ne (by decide) : (Proc.devRef .tc main_v0_0 : DevRef τ sig) ≠ Proc.devRef .tc main_v0_1),
      Function.update_self, outs_v0_0]
  | ⟨3, _⟩ =>
    show left1 m c = V1 m (outs m) c main_v0_1
    unfold V1
    rw [Function.update_self, outs_v0_1]

/-- Every other buffer it leaves as it found it. -/
theorem hrest0 (c : Dev nD) : ∀ b, b ∉ Finset.univ.image (Pipeline.arrRef spec0) → X1 m c b = E0 m c b :=
  fun b hb => V1_of m (outs m) c b (by
    intro h
    rcases List.mem_cons.mp h with h | h
    · exact hb (Finset.mem_image.mpr ⟨2, Finset.mem_univ _, h.symm⟩)
    · rcases List.mem_cons.mp h with h | h
      · exact hb (Finset.mem_image.mpr ⟨3, Finset.mem_univ _, h.symm⟩)
      · exact absurd h (List.not_mem_nil))

/-! ## The launches as segments -/

/-- The generator register and the scoped buffers no window stages make the class's invariant, -/
theorem phiA_join0 (c : Dev nD) :
    (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ Pipeline.ΦA spec0 c := by
  unfold Pipeline.ΦA
  iintro ⟨Hp, -, Hr⟩
  isplitl [Hr]; · iexact Hr
  iexact Hp

/-- and the class's invariant gives them back. -/
theorem phiA_split0 (c : Dev nD) :
    (Pipeline.ΦA spec0 c : sProp 𝕄) ⊢ iprop((∃ r, prngReg c r) ∗ BI.emp ∗ Pipeline.scopedRest (Pipeline.pin (pcfgs (F := F)) adm 0).spec c) := by
  unfold Pipeline.ΦA
  iintro ⟨Hr, Hp⟩
  isplitl [Hp]; · iexact Hp
  isplitr; · iempintro
  iexact Hr

set_option backward.isDefEq.respectTransparency.types false in
/-- THE FIRST LAUNCH over the thread state: entered from every unscoped buffer at the launch memory, left with its two
    results at the folded write-backs. Its arrays are split out of the unscoped buffers and put back at the exit contents;
    the generator register and the scoped buffers no window stages enter the pipeline's invariant (which then names the
    two scratch rows point by point) and come back out with the names forgotten; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pool.body_obligation (E0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_join0 c).trans (Pool.hin (E0 m) c)
  hout c := by
    rw [Pipeline.ownSems0_none]
    exact (Pool.hout (E0 m) c).trans (phiA_split0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- A buffer the second launch does not write keeps, across it, what the host operations before it left. -/
theorem X7_of (c : Dev nD) (b : Ref sig .tc) (h : b ∉ ([main_v47] : List (Ref sig .tc))) : X7 m c b = E1 m c b := by
  show V7 m (outs m) c b = V6 m (outsA m) c b
  rw [V7_of m (outs m) c b h, V6_outs]

/-- After the second launch an operand's array holds what it held before it, -/
theorem hF1_0 (c : Dev nD) : (Norm.dat (E1 m) c).arrAt 0 cfg1.N = X7 m c main_arg0 :=
  ((Norm.dat (E1 m) c).arrAt_in 0 rfl _).trans ((Norm.A_eq (E1 m) c 0).trans (X7_of m c main_arg0 (by decide)).symm)
theorem hF1_1 (c : Dev nD) : (Norm.dat (E1 m) c).arrAt 1 cfg1.N = X7 m c main_arg1 :=
  ((Norm.dat (E1 m) c).arrAt_in 1 rfl _).trans ((Norm.A_eq (E1 m) c 1).trans (X7_of m c main_arg1 (by decide)).symm)
theorem hF1_2 (c : Dev nD) : (Norm.dat (E1 m) c).arrAt 2 cfg1.N = X7 m c main_v43 :=
  ((Norm.dat (E1 m) c).arrAt_in 2 rfl _).trans ((Norm.A_eq (E1 m) c 2).trans (X7_of m c main_v43 (by decide)).symm)
theorem hF1_3 (c : Dev nD) : (Norm.dat (E1 m) c).arrAt 3 cfg1.N = X7 m c main_v44 :=
  ((Norm.dat (E1 m) c).arrAt_in 3 rfl _).trans ((Norm.A_eq (E1 m) c 3).trans (X7_of m c main_v44 (by decide)).symm)
theorem hF1_4 (c : Dev nD) : (Norm.dat (E1 m) c).arrAt 4 cfg1.N = X7 m c main_v45 :=
  ((Norm.dat (E1 m) c).arrAt_in 4 rfl _).trans ((Norm.A_eq (E1 m) c 4).trans (X7_of m c main_v45 (by decide)).symm)
theorem hF1_5 (c : Dev nD) : (Norm.dat (E1 m) c).arrAt 5 cfg1.N = X7 m c main_v46 :=
  ((Norm.dat (E1 m) c).arrAt_in 5 rfl _).trans ((Norm.A_eq (E1 m) c 5).trans (X7_of m c main_v46 (by decide)).symm)
/-- and the result's array the write-backs folded. -/
theorem hF1_6 (c : Dev nD) : (Norm.dat (E1 m) c).arrAt 6 cfg1.N = X7 m c main_v47 := by
  show left47 m c = V7 m (outs m) c main_v47
  unfold V7
  rw [Function.update_self, outs_v47]

/-- After the second launch each of its arrays holds what the pipeline leaves. -/
theorem hF1 (c : Dev nD) (w : Fin cfg1.W) : (pdats m 1 c).arrAt w cfg1.N = X7 m c (Pipeline.arrRef spec1 w) := by
  match w with
  | ⟨0, _⟩ => exact hF1_0 m c
  | ⟨1, _⟩ => exact hF1_1 m c
  | ⟨2, _⟩ => exact hF1_2 m c
  | ⟨3, _⟩ => exact hF1_3 m c
  | ⟨4, _⟩ => exact hF1_4 m c
  | ⟨5, _⟩ => exact hF1_5 m c
  | ⟨6, _⟩ => exact hF1_6 m c

/-- Every other buffer it leaves as it found it. -/
theorem hrest1 (c : Dev nD) : ∀ b, b ∉ Finset.univ.image (Pipeline.arrRef spec1) → X7 m c b = E1 m c b :=
  fun b hb => X7_of m c b (by
    intro h
    rcases List.mem_cons.mp h with h | h
    · exact hb (Finset.mem_image.mpr ⟨6, Finset.mem_univ _, h.symm⟩)
    · exact absurd h (List.not_mem_nil))

theorem phiA_join1 (c : Dev nD) :
    (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
  unfold Pipeline.ΦA
  iintro ⟨Hp, -, Hr⟩
  isplitl [Hr]; · iexact Hr
  iexact Hp

theorem phiA_split1 (c : Dev nD) :
    (Pipeline.ΦA spec1 c : sProp 𝕄) ⊢ iprop((∃ r, prngReg c r) ∗ BI.emp ∗ Pipeline.scopedRest (Pipeline.pin (pcfgs (F := F)) adm 1).spec c) := by
  unfold Pipeline.ΦA
  iintro ⟨Hr, Hp⟩
  isplitl [Hp]; · iexact Hp
  isplitr; · iempintro
  iexact Hr

set_option backward.isDefEq.respectTransparency.types false in
/-- THE SECOND LAUNCH over the thread state: entered from every unscoped buffer at what the host operations between the
    launches left, left with its result at the folded write-backs; the class's invariant in and out; nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Norm.body_obligation (E1 m) c).loose
  hwaits := Pipeline.hwaits_of_owed_zero _ _ _ _ L lv 1 fun _ _ => rfl
  pre c := iprop(StableHlo.held (c : Thread nD τ) (Pipeline.ucRefs τ sig) (V6 m (outs m) c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, V6_outs]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phiA_join1 c
  hout c := by
    rw [Pipeline.ownSems0_none]
    exact phiA_split1 c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- At launch each core's semaphores, dues and generator register make the rest state that rides beside the buffers. -/
theorem core_rest (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄) ⊢ R c := by
  iintro ⟨-, HO, -, Hp, -⟩
  isplitl [Hp]; · iexists _; iexact Hp
  iexists ∅; iexact HO

/-- The launch's ghost state is the pipelines' cells and tokens. -/
theorem ghost0 :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The rest states at launch, on every core at once. -/
theorem rest0 :
    (iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv) : sProp 𝕄)
      ⊢ |={Set.univ}=> bigSep Finset.univ (E (F := F) 0) := by
  have h : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (E (F := F) 0) : sProp 𝕄) := bigSep_mono fun c _ => core_rest ρ c
  iintro ⟨H, -⟩
  imodintro
  iapply h
  iexact H

set_option backward.isDefEq.respectTransparency.types false in
/-- THE FRAME of the kernel program: from any memory with zero counters every weakly fair execution of @main terminates,
    nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_cond m emb₁ () 𝒱₀ L lv (fun _ _ => rfl) ρ (outs m) (pdats m) 0 (fun _ => (BI.emp : sProp 𝕄))
    (initOf (Pipeline.cells cfgs cellOf_inj) (Pipeline.launchToks cfgs cellOf_inj)) ghost0
    E (rest0 ρ) (fun c => by iintro ⟨-, HO⟩; iexact HO)
    (reg0 m) (fun _ => .rfl) (fun _ => .rfl) (reg1 m) (fun _ => .rfl) (fun _ => .rfl)

/-- Two families held on every core are their pairs held on every core. -/
theorem join_all (A B : Dev nD → sProp 𝕄) :
    (iprop(bigSep Finset.univ A ∗ bigSep Finset.univ B) : sProp 𝕄) ⊢ bigSep Finset.univ fun c => iprop(A c ∗ B c) := by
  rw [bigSep_sep']

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN with every buffer named: from any memory with zero counters every weakly fair execution of @main terminates,
    nothing faulting, and every unscoped buffer of every core ends at what the last host operations leave of what the
    second launch left. -/
theorem run_all : θ_run defs (onTc (τ := τ) (main (F := F))) ⟨m, fun _ => 0, ρ⟩
    (fun r => ∀ c : Dev nD, ∀ b ∈ Pipeline.ucRefs τ sig, r.2.mem ((c : Thread nD τ).1, b) = V8 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Pipeline.Seg.run_eq_chain,
        show (segs m (outs m) 𝒱₀ L lv E () (pdats m) (reg0 m) (reg1 m) c).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    0 (fun _ _ => rfl) (fun _ => (BI.emp : sProp 𝕄))
    (initOf (Pipeline.cells cfgs cellOf_inj) (Pipeline.launchToks cfgs cellOf_inj)) ghost0
    (T₀ := fun c => iprop(StableHlo.held (c : Thread nD τ) (Pipeline.ucRefs τ sig) (V0 m c) ∗ E 0 c))
    (Tₙ := fun c => StableHlo.held (c : Thread nD τ) (Pipeline.ucRefs τ sig) (V8 m (outs m) c))
    (hch := fun c => ⟨.rfl, .rfl, .rfl, .rfl, .rfl, .rfl, .rfl, .rfl, sep_mono .rfl (by iintro ⟨-, HO⟩; iexact HO)⟩)
    (hinit := ?_) (QY := fun c s => ∀ b ∈ Pipeline.ucRefs τ sig, s.mem ((c : Thread nD τ).1, b) = V8 m (outs m) c b)
    (hfin := fun c s' => ?_) (hQ := fun _ h => h)
  · -- the launch: the unscoped buffers are held at the launch memory; the rest makes the rest state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅
                ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (rest0 (F := F) ρ) $$ [Hr Hla] with HE
    · isplitl [Hr]; · iexact Hr
      iexact Hla
    imodintro
    iapply (join_all (fun c : Dev nD => StableHlo.held (c : Thread nD τ) (Pipeline.ucRefs τ sig) (V0 m c)) (E (F := F) 0))
    isplitl [Hh]; · iexact Hh
    iexact HE
  · -- the end: every buffer read off the last valuation
    unfold StableHlo.held
    iintro ⟨Hh, HSI⟩
    imodintro
    iapply (pointsTo_read_all (Pipeline.ucRefs τ sig) (fun b => ((c : Thread nD τ).1, b)) (V8 m (outs m) c) s')
    isplitl [Hh] <;> iassumption

/-- The run with the two results and the arguments named. -/
theorem run_res : θ_run defs (onTc (τ := τ) (main (F := F))) ⟨m, fun _ => 0, ρ⟩ (fun r => ∀ c : Dev nD,
      r.2.mem ((c.tc : Thread nD τ).loc main_v47) = V8 m (outs m) c main_v47
      ∧ r.2.mem ((c.tc : Thread nD τ).loc main_v49) = V8 m (outs m) c main_v49
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨h c _ (mem_uc main_v47 (by decide)), h c _ (mem_uc main_v49 (by decide)),
      (h c _ (mem_uc main_arg0 (by decide))).trans (V8_main_arg0 m (outs m) c),
      (h c _ (mem_uc main_arg1 (by decide))).trans (V8_main_arg1 m (outs m) c),
      (h c _ (mem_uc main_arg2 (by decide))).trans (V8_main_arg2 m (outs m) c),
      (h c _ (mem_uc main_arg3 (by decide))).trans (V8_main_arg3 m (outs m) c),
      (h c _ (mem_uc main_arg4 (by decide))).trans (V8_main_arg4 m (outs m) c),
      (h c _ (mem_uc main_arg5 (by decide))).trans (V8_main_arg5 m (outs m) c),
      (h c _ (mem_uc main_arg6 (by decide))).trans (V8_main_arg6 m (outs m) c),
      (h c _ (mem_uc main_arg7 (by decide))).trans (V8_main_arg7 m (outs m) c),
      (h c _ (mem_uc main_arg8 (by decide))).trans (V8_main_arg8 m (outs m) c),
      (h c _ (mem_uc main_arg9 (by decide))).trans (V8_main_arg9 m (outs m) c),
      (h c _ (mem_uc main_arg10 (by decide))).trans (V8_main_arg10 m (outs m) c),
      (h c _ (mem_uc main_arg11 (by decide))).trans (V8_main_arg11 m (outs m) c),
      (h c _ (mem_uc main_arg12 (by decide))).trans (V8_main_arg12 m (outs m) c),
      (h c _ (mem_uc main_arg13 (by decide))).trans (V8_main_arg13 m (outs m) c),
      (h c _ (mem_uc main_arg14 (by decide))).trans (V8_main_arg14 m (outs m) c),
      (h c _ (mem_uc main_arg15 (by decide))).trans (V8_main_arg15 m (outs m) c)⟩) (run_all m ρ)

end Cert.Kernel.Run

end
-- ==== Proof.PoolFrame.lean ====
/-
  The first launch of the kernel program pools its two inputs over the sequence axis: a grid of 4 × 16 points, each
  point reading a block of 2 batches × 256 rows × 2048 features of either input, adding the block's column sums into
  two scratch rows, which the point with l = 0 first clears and the point with l = 15 scales by 2⁻¹² and stores into
  the two results. This module states, at the buffer contents `V` the launch is entered from, what each point leaves:
  the two running sums (`acc`), the invariant that carries them from point to point, and the pipeline's proof data.
-/
import proofs.«140230_j55336358642849_1_alg».proof.Proof.Gen.KernelIdeal.Launch
import proofs.«140230_j55336358642849_1_alg».proof.Proof.Gen.KernelIdeal.Skeleton
import proofs.«140230_j55336358642849_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions; loads and stores through the whole-shape rectangle -/

/-- The condition of the body's first `scf.if` (the scratch rows are cleared), from the grid coordinates. -/
abbrev cond0 (i : grid0.Coords) : Prop := (Scalar.cmpi .ne (Scalar.extui (Scalar.cmpi .eq (BitVec.ofNat 32 (i 1).val) 0#32)) 0#32) = 1#1
/-- The condition of its second (the results are stored). -/
abbrev cond1 (i : grid0.Coords) : Prop := k0_cond2 i = 1#1

theorem hz3 : (![0, 0, 0] : Fin 3 → Nat) = fun _ => 0 := funext fun a => by fin_cases a <;> rfl

/-- A buffer whose last store went through the whole-shape rectangle reads as that store's payload. -/
theorem read_writes_unit {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon _ _ _ (fun y => ⟨_, List.mem_cons_self, View.mem_set_unit_zero h inb y⟩), View.canon_cons_unit_zero h]

/-- A load through the whole-shape rectangle reads the buffer's contents. -/
theorem readAt_unit {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

/-! ## The body's triple, case by case

On whole memrefs, the two inputs' at read contents `x0`, `x1`: the body leaves the inputs as they were and the two scratch
rows at the column sums of `x0`, `x1` added to what the rows held (`s0`, `s1`), or, where the first condition holds, to
the cleared rows; where the second condition holds it also leaves the two results' buffers at the scaled new sums, and
elsewhere it does not touch them. A load of a scratch row right after its whole store reads the stored row back. -/

set_option maxHeartbeats 1000000 in
/-- The first condition holds, the second does not: the rows are cleared, then the sums added. -/
theorem run_reset (c : Dev nD) (E : Set ℕ) (i : grid0.Coords)
    (arg2 : Memref sig .tc .vmem S2x256x2048 .f32) (harg2 : arg2.IsWhole) (arg3 : Memref sig .tc .vmem S2x256x2048 .f32) (harg3 : arg3.IsWhole)
    (arg4 : Memref sig .tc .vmem S2x1x2048 .f32) (harg4 : arg4.IsWhole) (arg5 : Memref sig .tc .vmem S2x1x2048 .f32) (harg5 : arg5.IsWhole)
    (arg6 : Memref sig .tc .vmem S2x1x2048 .f32) (harg6 : arg6.IsWhole) (arg7 : Memref sig .tc .vmem S2x1x2048 .f32) (harg7 : arg7.IsWhole)
    (hc0 : cond0 i) (hc1 : ¬cond1 i)
    (x0 x1 : Vec F S2x256x2048 .f32) (K : PUnit → sProp 𝕄) :
    iprop(owns (c : Thread nD τ) arg2 fullShare x0 ∗ owns (c : Thread nD τ) arg3 fullShare x1
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg6 fullShare (k0_pay3 (k0_pay1 (F := F)) x0) ∗ owns (c : Thread nD τ) arg7 fullShare (k0_pay4 (k0_pay2 (F := F)) x1)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%d0, %g0, -, HS0⟩, ⟨%d1, %g1, -, HS1⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    sl_unfold_run_names
    rw [read_writes_unit _ _ hz3, readAt_unit _ _ hz3, View.readCov_unit_zero _ hz3]
  · iexists _; isplitr
    swap; · iexact HS1
    ipureintro
    sl_unfold_run_names
    rw [read_writes_unit _ _ hz3, readAt_unit _ _ hz3, View.readCov_unit_zero _ hz3]

set_option maxHeartbeats 1000000 in
/-- Neither condition holds: the sums are added to what the rows held. -/
theorem run_add (c : Dev nD) (E : Set ℕ) (i : grid0.Coords)
    (arg2 : Memref sig .tc .vmem S2x256x2048 .f32) (harg2 : arg2.IsWhole) (arg3 : Memref sig .tc .vmem S2x256x2048 .f32) (harg3 : arg3.IsWhole)
    (arg4 : Memref sig .tc .vmem S2x1x2048 .f32) (harg4 : arg4.IsWhole) (arg5 : Memref sig .tc .vmem S2x1x2048 .f32) (harg5 : arg5.IsWhole)
    (arg6 : Memref sig .tc .vmem S2x1x2048 .f32) (harg6 : arg6.IsWhole) (arg7 : Memref sig .tc .vmem S2x1x2048 .f32) (harg7 : arg7.IsWhole)
    (hc0 : ¬cond0 i) (hc1 : ¬cond1 i)
    (x0 x1 : Vec F S2x256x2048 .f32) (s0 s1 : Vec F S2x1x2048 .f32) (K : PUnit → sProp 𝕄) :
    iprop(owns (c : Thread nD τ) arg2 fullShare x0 ∗ owns (c : Thread nD τ) arg3 fullShare x1
        ∗ owns (c : Thread nD τ) arg6 fullShare s0 ∗ owns (c : Thread nD τ) arg7 fullShare s1
        ∗ (iprop(owns (c : Thread nD τ) arg2 fullShare x0 ∗ owns (c : Thread nD τ) arg3 fullShare x1
            ∗ owns (c : Thread nD τ) arg6 fullShare (k0_pay3 s0 x0) ∗ owns (c : Thread nD τ) arg7 fullShare (k0_pay4 s1 x1)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%g0, %hg0, HS0⟩, ⟨%g1, %hg1, HS1⟩, Hk⟩
  subst hf0; subst hf1; subst hg0; subst hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    rw [read_writes_unit _ _ hz3, readAt_unit _ _ hz3, readAt_unit _ _ hz3]
  · iexists _; isplitr
    swap; · iexact HS1
    ipureintro
    rw [read_writes_unit _ _ hz3, readAt_unit _ _ hz3, readAt_unit _ _ hz3]

set_option maxHeartbeats 1000000 in
/-- The second condition holds, the first does not: the sums are added, then the scaled new sums stored into the results' buffers. -/
theorem run_store (c : Dev nD) (E : Set ℕ) (i : grid0.Coords)
    (arg2 : Memref sig .tc .vmem S2x256x2048 .f32) (harg2 : arg2.IsWhole) (arg3 : Memref sig .tc .vmem S2x256x2048 .f32) (harg3 : arg3.IsWhole)
    (arg4 : Memref sig .tc .vmem S2x1x2048 .f32) (harg4 : arg4.IsWhole) (arg5 : Memref sig .tc .vmem S2x1x2048 .f32) (harg5 : arg5.IsWhole)
    (arg6 : Memref sig .tc .vmem S2x1x2048 .f32) (harg6 : arg6.IsWhole) (arg7 : Memref sig .tc .vmem S2x1x2048 .f32) (harg7 : arg7.IsWhole)
    (hc0 : ¬cond0 i) (hc1 : cond1 i)
    (x0 x1 : Vec F S2x256x2048 .f32) (s0 s1 : Vec F S2x1x2048 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg2 fullShare x0 ∗ owns (c : Thread nD τ) arg3 fullShare x1
            ∗ owns (c : Thread nD τ) arg4 fullShare (k0_pay5 (k0_pay3 s0 x0)) ∗ owns (c : Thread nD τ) arg5 fullShare (k0_pay6 (k0_pay4 s1 x1))
            ∗ owns (c : Thread nD τ) arg6 fullShare (k0_pay3 s0 x0) ∗ owns (c : Thread nD τ) arg7 fullShare (k0_pay4 s1 x1)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%d2, %f2, -, H2⟩, ⟨%d3, %f3, -, H3⟩, ⟨%g0, %hg0, HS0⟩, ⟨%g1, %hg1, HS1⟩, Hk⟩
  subst hf0; subst hf1; subst hg0; subst hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_unit _ _ hz3, View.readCov_unit_zero _ hz3, readAt_unit _ _ hz3, readAt_unit _ _ hz3]
  isplitl [H3]
  · iexists _; isplitr
    swap; · iexact H3
    ipureintro
    sl_unfold_run_names
    rw [read_writes_unit _ _ hz3, View.readCov_unit_zero _ hz3, readAt_unit _ _ hz3, readAt_unit _ _ hz3]
  isplitl [HS0]
  · iexists _; isplitr
    swap; · iexact HS0
    ipureintro
    sl_unfold_run_names
    rw [read_writes_unit _ _ hz3, readAt_unit _ _ hz3, readAt_unit _ _ hz3]
  · iexists _; isplitr
    swap; · iexact HS1
    ipureintro
    sl_unfold_run_names
    rw [read_writes_unit _ _ hz3, readAt_unit _ _ hz3, readAt_unit _ _ hz3]

/-! ## The running sums, the invariant and the proof data, at the entry contents `V` -/

variable (V : (c : Dev nD) → (b : Ref sig .tc) → Buf (Elt F) ((c : Thread nD τ).loc b))

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch rows after point `n`: at a point with l = 0 (n ≡ 0 mod 16) the column sums of the point's two
    blocks added to the cleared rows, at any other point added to what the point before left. -/
def acc (c : Dev nD) : (n : ℕ) → n < cfg0.N → Vec F S2x1x2048 .f32 × Vec F S2x1x2048 .f32
  | 0, hn => (k0_pay3 (k0_pay1 (F := F)) (iblk V c 0 ⟨0, hn⟩), k0_pay4 (k0_pay2 (F := F)) (iblk V c 1 ⟨0, hn⟩))
  | n + 1, hn =>
    if (n + 1) % 16 = 0 then
      (k0_pay3 (k0_pay1 (F := F)) (iblk V c 0 ⟨n + 1, hn⟩), k0_pay4 (k0_pay2 (F := F)) (iblk V c 1 ⟨n + 1, hn⟩))
    else
      (k0_pay3 (acc c n (Nat.lt_of_succ_lt hn)).1 (iblk V c 0 ⟨n + 1, hn⟩),
       k0_pay4 (acc c n (Nat.lt_of_succ_lt hn)).2 (iblk V c 1 ⟨n + 1, hn⟩))

/-- The two scratch rows as whole memrefs. -/
abbrev scL : Memref sig .tc .vmem S2x1x2048 .f32 := Memref.whole cc0_scratch0
abbrev scR : Memref sig .tc .vmem S2x1x2048 .f32 := Memref.whole cc0_scratch1

/-- The launch's invariant before position `n`: before the first point every scoped buffer that is no staging buffer
    at anything and the generator register at some state; afterwards the two scratch rows at the running sums the
    point before left, every other such buffer at anything, the register at some state. -/
def PhiS (c : Dev nD) : (n : ℕ) → n ≤ cfg0.N → sProp 𝕄
  | 0, _ => Pipeline.ΦA spec0 c
  | n + 1, hn => iprop(owns (c : Thread nD τ) scL fullShare (acc V c n hn).1 ∗ owns (c : Thread nD τ) scR fullShare (acc V c n hn).2
      ∗ Pipeline.scopedRestBut (Ix := Unit) (Name := ℕ) (U := UR sig nD τ) (Lvl := ℕ) (Val := Elt F) spec0 c [cc0_scratch0, cc0_scratch1]
      ∗ (∃ r, prngReg c r))

/-- The pipeline's proof data on core `c`: the arrays as the launch finds them; after the body each input's buffer at
    its block, each result's at the scaled running sum; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay5 (acc V c t.val t.isLt).1
    | ⟨3, _⟩ => k0_pay6 (acc V c t.val t.isLt).2
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = k0_pay5 (acc V c t.val t.isLt).1 := by dsimp only [dat]
theorem after_3 (c : Dev nD) (t : Fin cfg0.N) : (dat V c).after 3 t = k0_pay6 (acc V c t.val t.isLt).2 := by dsimp only [dat]

/-! ## The conditions in closed form, decided over the grid's 64 points -/

/-- The first condition holds at the points ≡ 0 (mod 16), -/
theorem hcond0 : ∀ t : Fin cfg0.N, cond0 (grid0.coords t) ↔ t.val % 16 = 0 :=
  (by decide +kernel : ∀ t : Fin grid0.N, cond0 (grid0.coords t) ↔ t.val % 16 = 0)
/-- the second at the points ≡ 15 (mod 16). -/
theorem hcond1 : ∀ t : Fin cfg0.N, cond1 (grid0.coords t) ↔ t.val % 16 = 15 :=
  (by decide +kernel : ∀ t : Fin grid0.N, cond1 (grid0.coords t) ↔ t.val % 16 = 15)

/-- The inputs are never idle. -/
theorem liveAt0 : ∀ t : Fin cfg0.N, cfg0.idle 0 (grid0.coords t) = false := by decide +kernel
theorem liveAt1 : ∀ t : Fin cfg0.N, cfg0.idle 1 (grid0.coords t) = false := by decide +kernel
/-- The results are idle, and not written back, exactly where the second condition fails. -/
theorem idleAt2 : ∀ t : Fin cfg0.N, ¬cond1 (grid0.coords t) → cfg0.idle 2 (grid0.coords t) = true := by decide +kernel
theorem idleAt3 : ∀ t : Fin cfg0.N, ¬cond1 (grid0.coords t) → cfg0.idle 3 (grid0.coords t) = true := by decide +kernel
theorem noFlush2 : ∀ t : Fin cfg0.N, ¬cond1 (grid0.coords t) → (cfg0.win 2).flush t = false := by decide +kernel
theorem noFlush3 : ∀ t : Fin cfg0.N, ¬cond1 (grid0.coords t) → (cfg0.win 3).flush t = false := by decide +kernel
theorem liveAt2 : ∀ t : Fin cfg0.N, cond1 (grid0.coords t) → cfg0.idle 2 (grid0.coords t) = false := by decide +kernel
theorem liveAt3 : ∀ t : Fin cfg0.N, cond1 (grid0.coords t) → cfg0.idle 3 (grid0.coords t) = false := by decide +kernel

/-! ## The running sums, point by point -/

/-- At a point ≡ 0 (mod 16) the sums start afresh from the cleared rows. -/
theorem acc_reset (c : Dev nD) (t : Fin cfg0.N) (h : t.val % 16 = 0) :
    acc V c t.val t.isLt = (k0_pay3 (k0_pay1 (F := F)) (iblk V c 0 t), k0_pay4 (k0_pay2 (F := F)) (iblk V c 1 t)) := by
  obtain ⟨n, hn⟩ := t
  cases n with
  | zero => rfl
  | succ n => exact if_pos h

/-- At any other point they are the point's column sums added to what the point before left. -/
theorem acc_step (c : Dev nD) (t : Fin cfg0.N) (h : ¬t.val % 16 = 0) :
    acc V c t.val t.isLt
      = (k0_pay3 (acc V c (t.val - 1) (Nat.lt_of_le_of_lt (Nat.sub_le _ _) t.isLt)).1 (iblk V c 0 t),
         k0_pay4 (acc V c (t.val - 1) (Nat.lt_of_le_of_lt (Nat.sub_le _ _) t.isLt)).2 (iblk V c 1 t)) := by
  obtain ⟨n, hn⟩ := t
  cases n with
  | zero => exact absurd (Nat.zero_mod _) h
  | succ n => exact if_neg h

/-! ## The invariant, position by position -/

theorem PhiS_zero (c : Dev nD) (n : ℕ) (h : n ≤ cfg0.N) (hz : n = 0) : PhiS V c n h = Pipeline.ΦA spec0 c := by
  subst hz; rfl

/-- After point `n`: the two scratch rows at that point's sums. -/
theorem PhiS_succ (c : Dev nD) (n : ℕ) (hn : n < cfg0.N) :
    PhiS V c (n + 1) hn = iprop(owns (c : Thread nD τ) scL fullShare (acc V c n hn).1 ∗ owns (c : Thread nD τ) scR fullShare (acc V c n hn).2
      ∗ Pipeline.scopedRestBut (Ix := Unit) (Name := ℕ) (U := UR sig nD τ) (Lvl := ℕ) (Val := Elt F) spec0 c [cc0_scratch0, cc0_scratch1]
      ∗ (∃ r, prngReg c r)) := rfl

/-- Before a point that is not the first: the two scratch rows at what the point before left. -/
theorem PhiS_pos (c : Dev nD) (n : ℕ) (h : n ≤ cfg0.N) (hz : n ≠ 0) :
    PhiS V c n h = iprop(owns (c : Thread nD τ) scL fullShare (acc V c (n - 1) (by omega)).1 ∗ owns (c : Thread nD τ) scR fullShare (acc V c (n - 1) (by omega)).2
      ∗ Pipeline.scopedRestBut (Ix := Unit) (Name := ℕ) (U := UR sig nD τ) (Lvl := ℕ) (Val := Elt F) spec0 c [cc0_scratch0, cc0_scratch1]
      ∗ (∃ r, prngReg c r)) := by
  cases n with
  | zero => exact absurd rfl hz
  | succ n => rfl

/-- The invariant at a point's start, restated at `t.val`. -/
theorem PhiS_castSucc (c : Dev nD) (t : Fin cfg0.N) :
    (dat V c).Φ t.castSucc = PhiS V c t.val (Nat.le_of_lt t.isLt) := by
  dsimp only [dat]; simp only [Fin.coe_castSucc]

/-- The class's invariant with the two scratch rows taken out of the scoped rest as memrefs owned at some contents. -/
theorem PhiA_eq (c : Dev nD) :
    (Pipeline.ΦA spec0 c : sProp 𝕄)
      = iprop((((∃ d, owns (c : Thread nD τ) scL fullShare d) ∗ (∃ d, owns (c : Thread nD τ) scR fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA
  rw [Pipeline.scopedRest_split_of_list spec0 c [cc0_scratch0, cc0_scratch1] (by decide) (by decide)]
  simp only [bigSepL_cons_cons, bigSepL_singleton, scL, scR, owns_whole]
  try rfl

/-! ## What the body finds in the inputs' buffers -/

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation, at a generic point -/

/-- Each window's current staging memref at point `t`, spelled as the pipeline passes it to the body. -/
abbrev ms0 (t : Fin cfg0.N) : Memref sig .tc .vmem S2x256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x256x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x1x2048 .f32 := win0_3.stage (cfg0.slots t 3)
abbrev hs3 (t : Fin cfg0.N) : (ms3 t).IsWhole := hstage0_3 ((cfg0.slots t 3).cast nbuf0_3)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the closed forms say which case the point is in; the
    invariant hands the body the two scratch rows at what the point before left (at anything before the first point,
    where the body clears them) and takes them back at this point's sums; the results' buffers are handed back
    untouched where the second condition fails and at the scaled sums where it holds; the rest of the invariant and
    what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [liveAt0 t], after_0]
  rw [show (dat V c).leavesExact 1 t = owns (c : Thread nD τ) (ms1 t) fullShare ((dat V c).after 1 t) from by
    unfold Dat.leavesExact; rw [liveAt1 t], after_1]
  have hN : t.val < 64 := lt_of_lt_of_eq t.isLt (show cfg0.N = 64 from N_0)
  by_cases h0 : t.val % 16 = 0
  · have h1 : ¬t.val % 16 = 15 := by omega
    have hc0 : cond0 (grid0.coords t) := (hcond0 t).mpr h0
    have hc1 : ¬cond1 (grid0.coords t) := fun h => h1 ((hcond1 t).mp h)
    rw [Dat.leavesExact_idle (dat V c) 2 t (idleAt2 t hc1) (noFlush2 t hc1),
      Dat.leavesExact_idle (dat V c) 3 t (idleAt3 t hc1) (noFlush3 t hc1)]
    rw [acc_reset V c t h0]; dsimp only
    by_cases hz : t.val = 0
    · rw [PhiS_castSucc V c t, PhiS_zero V c _ _ hz, PhiA_eq]
      iintro ⟨⟨⟨⟨HL, HR⟩, Hrest⟩, Hg⟩, Ho, ⟨%d0, H0⟩, ⟨%d1, H1⟩, H2, H3⟩
      iapply (run_reset c Set.univ (grid0.coords t) _ _ _ _ _ _ _ _ _ _ _ _ hc0 hc1 (iblk V c 0 t) (iblk V c 1 t) _)
      isplitl [H0]; · iexact H0
      isplitl [H1]; · iexact H1
      isplitl [HL]; · iexact HL
      isplitl [HR]; · iexact HR
      iintro ⟨H0, H1, HL, HR⟩
      isplitl [HL HR Hrest Hg]
      · isplitl [HL]; · iexact HL
        isplitl [HR]; · iexact HR
        isplitl [Hrest]; · iexact Hrest
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨HL, HR, Hrest, Hg⟩, Ho, ⟨%d0, H0⟩, ⟨%d1, H1⟩, H2, H3⟩
      iapply (run_reset c Set.univ (grid0.coords t) _ _ _ _ _ _ _ _ _ _ _ _ hc0 hc1 (iblk V c 0 t) (iblk V c 1 t) _)
      isplitl [H0]; · iexact H0
      isplitl [H1]; · iexact H1
      isplitl [HL]; · iexists _; iexact HL
      isplitl [HR]; · iexists _; iexact HR
      iintro ⟨H0, H1, HL, HR⟩
      isplitl [HL HR Hrest Hg]
      · isplitl [HL]; · iexact HL
        isplitl [HR]; · iexact HR
        isplitl [Hrest]; · iexact Hrest
        iexact Hg
      isplitl [Ho]; · iexact Ho
      isplitl [H0]; · iexact H0
      isplitl [H1]; · iexact H1
      isplitl [H2]; · iexact H2
      iexact H3
  · have hz : t.val ≠ 0 := fun e => h0 (by rw [e])
    have hc0 : ¬cond0 (grid0.coords t) := fun h => h0 ((hcond0 t).mp h)
    rw [acc_step V c t h0]; dsimp only
    rw [PhiS_castSucc V c t, PhiS_pos V c _ _ hz]
    by_cases h1 : t.val % 16 = 15
    · have hc1 : cond1 (grid0.coords t) := (hcond1 t).mpr h1
      rw [show (dat V c).leavesExact 2 t = owns (c : Thread nD τ) (ms2 t) fullShare ((dat V c).after 2 t) from by
        unfold Dat.leavesExact; rw [liveAt2 t hc1], after_2]
      rw [show (dat V c).leavesExact 3 t = owns (c : Thread nD τ) (ms3 t) fullShare ((dat V c).after 3 t) from by
        unfold Dat.leavesExact; rw [liveAt3 t hc1], after_3]
      rw [acc_step V c t h0]; dsimp only
      iintro ⟨⟨HL, HR, Hrest, Hg⟩, Ho, ⟨%d0, H0⟩, ⟨%d1, H1⟩, ⟨%d2, H2⟩, ⟨%d3, H3⟩⟩
      iapply (run_store c Set.univ (grid0.coords t) _ _ _ _ _ _ _ _ _ _ _ _ hc0 hc1 (iblk V c 0 t) (iblk V c 1 t) _ _ _)
      isplitl [H0]; · iexact H0
      isplitl [H1]; · iexact H1
      isplitl [H2]; · iexists _; iexact H2
      isplitl [H3]; · iexists _; iexact H3
      isplitl [HL]; · iexact HL
      isplitl [HR]; · iexact HR
      iintro ⟨H0, H1, H2, H3, HL, HR⟩
      isplitl [HL HR Hrest Hg]
      · isplitl [HL]; · iexact HL
        isplitl [HR]; · iexact HR
        isplitl [Hrest]; · iexact Hrest
        iexact Hg
      isplitl [Ho]; · iexact Ho
      isplitl [H0]; · iexact H0
      isplitl [H1]; · iexact H1
      isplitl [H2]; · iexact H2
      iexact H3
    · have hc1 : ¬cond1 (grid0.coords t) := fun h => h1 ((hcond1 t).mp h)
      rw [Dat.leavesExact_idle (dat V c) 2 t (idleAt2 t hc1) (noFlush2 t hc1),
        Dat.leavesExact_idle (dat V c) 3 t (idleAt3 t hc1) (noFlush3 t hc1)]
      iintro ⟨⟨HL, HR, Hrest, Hg⟩, Ho, ⟨%d0, H0⟩, ⟨%d1, H1⟩, H2, H3⟩
      iapply (run_add c Set.univ (grid0.coords t) _ _ _ _ _ _ _ _ _ _ _ _ hc0 hc1 (iblk V c 0 t) (iblk V c 1 t) _ _ _)
      isplitl [H0]; · iexact H0
      isplitl [H1]; · iexact H1
      isplitl [HL]; · iexact HL
      isplitl [HR]; · iexact HR
      iintro ⟨H0, H1, HL, HR⟩
      isplitl [HL HR Hrest Hg]
      · isplitl [HL]; · iexact HL
        isplitl [HR]; · iexact HR
        isplitl [Hrest]; · iexact Hrest
        iexact Hg
      isplitl [Ho]; · iexact Ho
      isplitl [H0]; · iexact H0
      isplitl [H1]; · iexact H1
      isplitl [H2]; · iexact H2
      iexact H3

/-- The body at every point meets the pipeline's obligation. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]

/-- After the last point the invariant gives the class's back: the named sums are forgotten. -/
theorem hout (c : Dev nD) : (dat V c).Φ (Fin.last cfg0.N) ⊢ Pipeline.ΦA spec0 c := by
  have hN : cfg0.N ≠ 0 := by rw [show cfg0.N = 64 from N_0]; omega
  rw [show (dat V c).Φ (Fin.last cfg0.N) = PhiS V c cfg0.N (Nat.le_refl _) from rfl, PhiS_pos V c _ _ hN, PhiA_eq]
  iintro ⟨HL, HR, Hrest, Hg⟩
  isplitl [HL HR Hrest]
  · isplitl [HL HR]
    · isplitl [HL]
      · iexists _; iexact HL
      iexists _; iexact HR
    iexact Hrest
  iexact Hg

end Cert.KernelIdeal.Pool

end
-- ==== Proof.NormFrame.lean ====
/-
  The second launch of the kernel program mixes the two inputs by the gate, adds the bias and normalises each row over
  its 2048 features: a grid of 4 × 32 points, each point reading a block of 2 batches × 128 rows of either input, the
  two batches' gate and bias rows, the scale and shift rows, and storing the normalised block whole. Nothing is kept
  between points. This module states, at the buffer contents `V` the launch is entered from, what each point stores
  (`out`, the body's arithmetic applied to the point's blocks) and the pipeline's proof data.
-/
import proofs.«140230_j55336358642849_1_alg».proof.Proof.Gen.KernelIdeal.Launch
import proofs.«140230_j55336358642849_1_alg».proof.Proof.Gen.KernelIdeal.Skeleton
import proofs.«140230_j55336358642849_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What a point stores: the body's arithmetic on the two input blocks, the gate and bias rows, the scale row, then
    the shift row added. -/
def out (xl xr : Vec F S2x128x2048 .f32) (a b : Vec F S2x1x2048 .f32) (g be : Vec F S1x1x2048 .f32) : Vec F S2x128x2048 .f32 :=
  k1_pay1 (k1_pay2 xl xr a b g) be

/-! ## The body's triple -/

/-- The offsets of every access of the body are zero: each load and the store go through the whole buffer. -/
theorem offsets_zero : (![0, 0, 0] : Fin 3 → Nat) = fun _ => 0 := funext fun a => by fin_cases a <;> rfl

set_option maxHeartbeats 1000000 in
/-- The body on whole staging memrefs, the six inputs' at read contents and the result's at anything, runs to the
    continuation holding the inputs' as they were and the result's at `out` of the inputs: six whole loads, then one
    whole store whose payload is the body's arithmetic on what was loaded. The one store covers the buffer, so what
    it leaves reads as its payload; each whole load reads the contents. -/
theorem sound_kernel (c : Dev nD) (E : Set ℕ) (i : grid1.Coords)
    (arg2 : Memref sig .tc .vmem S2x128x2048 .f32) (harg2 : arg2.IsWhole) (arg3 : Memref sig .tc .vmem S2x128x2048 .f32) (harg3 : arg3.IsWhole)
    (arg4 : Memref sig .tc .vmem S2x1x2048 .f32) (harg4 : arg4.IsWhole) (arg5 : Memref sig .tc .vmem S2x1x2048 .f32) (harg5 : arg5.IsWhole)
    (arg6 : Memref sig .tc .vmem S1x1x2048 .f32) (harg6 : arg6.IsWhole) (arg7 : Memref sig .tc .vmem S1x1x2048 .f32) (harg7 : arg7.IsWhole)
    (arg8 : Memref sig .tc .vmem S2x128x2048 .f32) (harg8 : arg8.IsWhole)
    (xl xr : Vec F S2x128x2048 .f32) (a b : Vec F S2x1x2048 .f32) (g be : Vec F S1x1x2048 .f32) (K : PUnit → sProp 𝕄) :
    iprop(owns (c : Thread nD τ) arg2 fullShare xl ∗ owns (c : Thread nD τ) arg3 fullShare xr
        ∗ owns (c : Thread nD τ) arg4 fullShare a ∗ owns (c : Thread nD τ) arg5 fullShare b
        ∗ owns (c : Thread nD τ) arg6 fullShare g ∗ owns (c : Thread nD τ) arg7 fullShare be
        ∗ (∃ d, owns (c : Thread nD τ) arg8 fullShare d)
        ∗ (iprop(owns (c : Thread nD τ) arg2 fullShare xl ∗ owns (c : Thread nD τ) arg3 fullShare xr
            ∗ owns (c : Thread nD τ) arg4 fullShare a ∗ owns (c : Thread nD τ) arg5 fullShare b
            ∗ owns (c : Thread nD τ) arg6 fullShare g ∗ owns (c : Thread nD τ) arg7 fullShare be
            ∗ owns (c : Thread nD τ) arg8 fullShare (out xl xr a b g be)) -∗ K ⟨⟩))
      ⊢ wp frame (wpE (defs₀ (F := F)) Variants.none c none) E
          (cc1_kernel i arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf2 hf3 hf4 hf5 hf6 hf7
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (fun y => ⟨_, List.mem_singleton_self _, View.mem_set_unit_zero offsets_zero inb_S2x128x2048_S2x128x2048_0_0_0 y⟩)]
  rw [View.canon_unit_zero offsets_zero]
  simp only [View.readAt_eq_ld, View.ld_unit_zero (S := S2x128x2048) offsets_zero,
    View.ld_unit_zero (S := S2x1x2048) offsets_zero, View.ld_unit_zero (S := S1x1x2048) offsets_zero]
  rfl

/-- The pipeline's proof data on core `c`: the arrays as the launch finds them; after the body each input's buffer at
    its block and the result's at `out` of the blocks; the class's invariant; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out (iblk V c 0 t) (iblk V c 1 t) (iblk V c 2 t) (iblk V c 3 t) (iblk V c 4 t) (iblk V c 5 t)
  Φ _ := Pipeline.ΦA spec1 c
  q _ := fullShare
  owed _ := 0

theorem A_eq (c : Dev nD) (w : Fin cfg1.W) : (dat V c).A w = V c (Pipeline.arrRef spec1 w) := by
  dsimp only [dat]

theorem after_6 (c : Dev nD) (t : Fin cfg1.N) :
    (dat V c).after 6 t = out (iblk V c 0 t) (iblk V c 1 t) (iblk V c 2 t) (iblk V c 3 t) (iblk V c 4 t) (iblk V c 5 t) := by
  dsimp only [dat]

/-! ## What the body finds and leaves, window by window -/

/-- The body leaves each input's buffer at its block. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]

/-- The left input's buffer holds its block at every point: it is fetched at every point, and a fetch of an uncut window
    fills the buffer with the block. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- The right input's likewise. -/
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- The gate rows' buffer holds its block at every point, fetched there or not: the block index depends on the first grid
    coordinate only, so where the window is not fetched the index has not moved and the buffer, which the body leaves
    as it found it, still holds the block. -/
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- The bias rows' likewise. -/
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
/-- The scale row's buffer holds the one block of its array at every point: fetched at the first point, never moved. -/
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- The shift row's likewise. -/
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body obligation, at a generic point -/

/-- What the body is called with at point `t`: the invariant, what the core owes, and each window's current buffer at
    what it then holds. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- What it returns: the same invariant and debts, each buffer at what the body leaves. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: every input's buffer holds its block, so the body's triple applies at the blocks; the
    invariant and the core's debts pass through unread, and the result's buffer may hold anything beforehand. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at every point meets the pipeline's obligation. -/
theorem body_obligation (c : Dev nD) : BodyObligation (dat (F := F) V c) (defs₀ (F := F)) Variants.none () Set.univ := fun t => by
  rw [bigSep_W1, bigSep_W1]
  exact sound_body V c t

end Cert.KernelIdeal.Norm

end
-- ==== Proof.Launch.lean ====
/-
  The kernel program's run as a whole: the first launch (the pooled sums) entered from the launch memory, the host
  operations between, the second launch (the gated mix and the normalisation) entered from what those leave, the host
  operations after. What each launch leaves in its result arrays is what its pipeline's write-backs fold to
  (`left0`, `left1`, `left47`); every other buffer it leaves as it found it. The two launches enter the program's
  run as segment records over the thread state "every unscoped buffer at the boundary's contents, the generator
  register at some state, nothing owed"; the run then ends with every argument array as launched.
-/
import proofs.«140230_j55336358642849_1_alg».proof.Proof.Gen.KernelIdeal.Regions
import proofs.«140230_j55336358642849_1_alg».proof.Proof.PoolFrame
import proofs.«140230_j55336358642849_1_alg».proof.Proof.NormFrame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the launches are entered from, and what they leave -/

/-- The first launch is entered from the launch memory. -/
abbrev E0 : (c : Dev nD) → (b : Ref sig .tc) → Buf (Elt F) ((c : Thread nD τ).loc b) := fun c b => V0 m c b

/-- What the first launch leaves in its two result arrays: its write-backs folded. -/
def left0 (c : Dev nD) : Buf (Elt F) ((c : Thread nD τ).loc main_v0_0) := (Pool.dat (E0 m) c).arrAt 2 cfg0.N
def left1 (c : Dev nD) : Buf (Elt F) ((c : Thread nD τ).loc main_v0_1) := (Pool.dat (E0 m) c).arrAt 3 cfg0.N

/-- The contents the launches leave, the first launch's only. -/
def outsA : Outs (F := F) := fun _ r c =>
  if h : r = main_v0_0 then h ▸ left0 m c else if h : r = main_v0_1 then h ▸ left1 m c else V0 m c r

/-- The second launch is entered from what the host operations between the launches leave. -/
abbrev E1 : (c : Dev nD) → (b : Ref sig .tc) → Buf (Elt F) ((c : Thread nD τ).loc b) := fun c b => V6 m (outsA m) c b

/-- What the second launch leaves in its result array. -/
def left47 (c : Dev nD) : Buf (Elt F) ((c : Thread nD τ).loc main_v47) := (Norm.dat (E1 m) c).arrAt 6 cfg1.N

/-- The contents the launches leave. -/
def outs : Outs (F := F) := fun J r c => if h : r = main_v47 then h ▸ left47 m c else outsA m J r c

theorem outs_v0_0 (J : ℕ) (c : Dev nD) : outs m J main_v0_0 c = left0 m c := by
  unfold outs outsA; rw [dif_neg (by decide), dif_pos rfl]
theorem outs_v0_1 (J : ℕ) (c : Dev nD) : outs m J main_v0_1 c = left1 m c := by
  unfold outs outsA; rw [dif_neg (by decide), dif_neg (by decide), dif_pos rfl]
theorem outs_v47 (J : ℕ) (c : Dev nD) : outs m J main_v47 c = left47 m c := by
  unfold outs; rw [dif_pos rfl]
theorem outsA_v0_0 (J : ℕ) (c : Dev nD) : outsA m J main_v0_0 c = left0 m c := by
  unfold outsA; rw [dif_pos rfl]
theorem outsA_v0_1 (J : ℕ) (c : Dev nD) : outsA m J main_v0_1 c = left1 m c := by
  unfold outsA; rw [dif_neg (by decide), dif_pos rfl]

/-- Between the launches only the first launch's results matter. -/
theorem V1_outs (c : Dev nD) : V1 m (outs m) c = V1 m (outsA m) c := by
  unfold V1; rw [outs_v0_0, outs_v0_1, outsA_v0_0, outsA_v0_1]

theorem V6_outs (c : Dev nD) : V6 m (outs m) c = V6 m (outsA m) c := by
  unfold V6 V5 V4 V3 V2; rw [V1_outs]

/-! ## The proof data family and the thread state -/

/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => Pool.dat (E0 m) c
  | ⟨1, _⟩ => fun c => Norm.dat (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-- The buffers after the first launch, read at the TensorCore's references. -/
abbrev X1 : (c : Dev nD) → (b : Ref sig .tc) → Buf (Elt F) ((c : Thread nD τ).loc b) := fun c b => V1 m (outs m) c b
/-- The buffers before and after the second launch, read at the TensorCore's references. -/
abbrev X6 : (c : Dev nD) → (b : Ref sig .tc) → Buf (Elt F) ((c : Thread nD τ).loc b) := fun c b => V6 m (outs m) c b
abbrev X7 : (c : Dev nD) → (b : Ref sig .tc) → Buf (Elt F) ((c : Thread nD τ).loc b) := fun c b => V7 m (outs m) c b

/-- After the first launch each of its arrays holds what the pipeline leaves: an input what it held, a result its
    write-backs folded. -/
theorem hF0 (c : Dev nD) (w : Fin cfg0.W) : (pdats m 0 c).arrAt w cfg0.N = X1 m c (Pipeline.arrRef spec0 w) := by
  match w with
  | ⟨0, _⟩ => exact ((Pool.dat (E0 m) c).arrAt_in 0 rfl _).trans ((Pool.A_eq (E0 m) c 0).trans (V1_of m (outs m) c main_arg0 (by decide)).symm)
  | ⟨1, _⟩ => exact ((Pool.dat (E0 m) c).arrAt_in 1 rfl _).trans ((Pool.A_eq (E0 m) c 1).trans (V1_of m (outs m) c main_arg1 (by decide)).symm)
  | ⟨2, _⟩ =>
    show left0 m c = V1 m (outs m) c main_v0_0
    unfold V1
    rw [Function.update_of_ne (StableHlo.devRef_ne_of_ne (by decide) : (Proc.devRef .tc main_v0_0 : DevRef τ sig) ≠ Proc.devRef .tc main_v0_1),
      Function.update_self, outs_v0_0]
  | ⟨3, _⟩ =>
    show left1 m c = V1 m (outs m) c main_v0_1
    unfold V1
    rw [Function.update_self, outs_v0_1]

/-- Every other buffer it leaves as it found it. -/
theorem hrest0 (c : Dev nD) : ∀ b, b ∉ Finset.univ.image (Pipeline.arrRef spec0) → X1 m c b = E0 m c b :=
  fun b hb => V1_of m (outs m) c b (by
    intro h
    rcases List.mem_cons.mp h with h | h
    · exact hb (Finset.mem_image.mpr ⟨2, Finset.mem_univ _, h.symm⟩)
    · rcases List.mem_cons.mp h with h | h
      · exact hb (Finset.mem_image.mpr ⟨3, Finset.mem_univ _, h.symm⟩)
      · exact absurd h (List.not_mem_nil))

/-! ## The launches as segments -/

/-- The generator register and the scoped buffers no window stages make the class's invariant, -/
theorem phiA_join0 (c : Dev nD) :
    (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ Pipeline.ΦA spec0 c := by
  unfold Pipeline.ΦA
  iintro ⟨Hp, -, Hr⟩
  isplitl [Hr]; · iexact Hr
  iexact Hp

/-- and the class's invariant gives them back. -/
theorem phiA_split0 (c : Dev nD) :
    (Pipeline.ΦA spec0 c : sProp 𝕄) ⊢ iprop((∃ r, prngReg c r) ∗ BI.emp ∗ Pipeline.scopedRest (Pipeline.pin (pcfgs (F := F)) adm 0).spec c) := by
  unfold Pipeline.ΦA
  iintro ⟨Hr, Hp⟩
  isplitl [Hp]; · iexact Hp
  isplitr; · iempintro
  iexact Hr

set_option backward.isDefEq.respectTransparency.types false in
/-- THE FIRST LAUNCH over the thread state: entered from every unscoped buffer at the launch memory, left with its two
    results at the folded write-backs. Its arrays are split out of the unscoped buffers and put back at the exit contents;
    the generator register and the scoped buffers no window stages enter the pipeline's invariant (which then names the
    two scratch rows point by point) and come back out with the names forgotten; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pool.body_obligation (E0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_join0 c).trans (Pool.hin (E0 m) c)
  hout c := by
    rw [Pipeline.ownSems0_none]
    exact (Pool.hout (E0 m) c).trans (phiA_split0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- A buffer the second launch does not write keeps, across it, what the host operations before it left. -/
theorem X7_of (c : Dev nD) (b : Ref sig .tc) (h : b ∉ ([main_v47] : List (Ref sig .tc))) : X7 m c b = E1 m c b := by
  show V7 m (outs m) c b = V6 m (outsA m) c b
  rw [V7_of m (outs m) c b h, V6_outs]

/-- After the second launch an operand's array holds what it held before it, -/
theorem hF1_0 (c : Dev nD) : (Norm.dat (E1 m) c).arrAt 0 cfg1.N = X7 m c main_arg0 :=
  ((Norm.dat (E1 m) c).arrAt_in 0 rfl _).trans ((Norm.A_eq (E1 m) c 0).trans (X7_of m c main_arg0 (by decide)).symm)
theorem hF1_1 (c : Dev nD) : (Norm.dat (E1 m) c).arrAt 1 cfg1.N = X7 m c main_arg1 :=
  ((Norm.dat (E1 m) c).arrAt_in 1 rfl _).trans ((Norm.A_eq (E1 m) c 1).trans (X7_of m c main_arg1 (by decide)).symm)
theorem hF1_2 (c : Dev nD) : (Norm.dat (E1 m) c).arrAt 2 cfg1.N = X7 m c main_v43 :=
  ((Norm.dat (E1 m) c).arrAt_in 2 rfl _).trans ((Norm.A_eq (E1 m) c 2).trans (X7_of m c main_v43 (by decide)).symm)
theorem hF1_3 (c : Dev nD) : (Norm.dat (E1 m) c).arrAt 3 cfg1.N = X7 m c main_v44 :=
  ((Norm.dat (E1 m) c).arrAt_in 3 rfl _).trans ((Norm.A_eq (E1 m) c 3).trans (X7_of m c main_v44 (by decide)).symm)
theorem hF1_4 (c : Dev nD) : (Norm.dat (E1 m) c).arrAt 4 cfg1.N = X7 m c main_v45 :=
  ((Norm.dat (E1 m) c).arrAt_in 4 rfl _).trans ((Norm.A_eq (E1 m) c 4).trans (X7_of m c main_v45 (by decide)).symm)
theorem hF1_5 (c : Dev nD) : (Norm.dat (E1 m) c).arrAt 5 cfg1.N = X7 m c main_v46 :=
  ((Norm.dat (E1 m) c).arrAt_in 5 rfl _).trans ((Norm.A_eq (E1 m) c 5).trans (X7_of m c main_v46 (by decide)).symm)
/-- and the result's array the write-backs folded. -/
theorem hF1_6 (c : Dev nD) : (Norm.dat (E1 m) c).arrAt 6 cfg1.N = X7 m c main_v47 := by
  show left47 m c = V7 m (outs m) c main_v47
  unfold V7
  rw [Function.update_self, outs_v47]

/-- After the second launch each of its arrays holds what the pipeline leaves. -/
theorem hF1 (c : Dev nD) (w : Fin cfg1.W) : (pdats m 1 c).arrAt w cfg1.N = X7 m c (Pipeline.arrRef spec1 w) := by
  match w with
  | ⟨0, _⟩ => exact hF1_0 m c
  | ⟨1, _⟩ => exact hF1_1 m c
  | ⟨2, _⟩ => exact hF1_2 m c
  | ⟨3, _⟩ => exact hF1_3 m c
  | ⟨4, _⟩ => exact hF1_4 m c
  | ⟨5, _⟩ => exact hF1_5 m c
  | ⟨6, _⟩ => exact hF1_6 m c

/-- Every other buffer it leaves as it found it. -/
theorem hrest1 (c : Dev nD) : ∀ b, b ∉ Finset.univ.image (Pipeline.arrRef spec1) → X7 m c b = E1 m c b :=
  fun b hb => X7_of m c b (by
    intro h
    rcases List.mem_cons.mp h with h | h
    · exact hb (Finset.mem_image.mpr ⟨6, Finset.mem_univ _, h.symm⟩)
    · exact absurd h (List.not_mem_nil))

theorem phiA_join1 (c : Dev nD) :
    (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
  unfold Pipeline.ΦA
  iintro ⟨Hp, -, Hr⟩
  isplitl [Hr]; · iexact Hr
  iexact Hp

theorem phiA_split1 (c : Dev nD) :
    (Pipeline.ΦA spec1 c : sProp 𝕄) ⊢ iprop((∃ r, prngReg c r) ∗ BI.emp ∗ Pipeline.scopedRest (Pipeline.pin (pcfgs (F := F)) adm 1).spec c) := by
  unfold Pipeline.ΦA
  iintro ⟨Hr, Hp⟩
  isplitl [Hp]; · iexact Hp
  isplitr; · iempintro
  iexact Hr

set_option backward.isDefEq.respectTransparency.types false in
/-- THE SECOND LAUNCH over the thread state: entered from every unscoped buffer at what the host operations between the
    launches left, left with its result at the folded write-backs; the class's invariant in and out; nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Norm.body_obligation (E1 m) c).loose
  hwaits := Pipeline.hwaits_of_owed_zero _ _ _ _ L lv 1 fun _ _ => rfl
  pre c := iprop(StableHlo.held (c : Thread nD τ) (Pipeline.ucRefs τ sig) (V6 m (outs m) c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, V6_outs]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phiA_join1 c
  hout c := by
    rw [Pipeline.ownSems0_none]
    exact phiA_split1 c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- At launch each core's semaphores, dues and generator register make the rest state that rides beside the buffers. -/
theorem core_rest (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄) ⊢ R c := by
  iintro ⟨-, HO, -, Hp, -⟩
  isplitl [Hp]; · iexists _; iexact Hp
  iexists ∅; iexact HO

/-- The launch's ghost state is the pipelines' cells and tokens. -/
theorem ghost0 :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The rest states at launch, on every core at once. -/
theorem rest0 :
    (iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv) : sProp 𝕄)
      ⊢ |={Set.univ}=> bigSep Finset.univ (E (F := F) 0) := by
  have h : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (E (F := F) 0) : sProp 𝕄) := bigSep_mono fun c _ => core_rest ρ c
  iintro ⟨H, -⟩
  imodintro
  iapply h
  iexact H

set_option backward.isDefEq.respectTransparency.types false in
/-- THE FRAME of the kernel program: from any memory with zero counters every weakly fair execution of @main terminates,
    nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_cond m emb₁ () 𝒱₀ L lv (fun _ _ => rfl) ρ (outs m) (pdats m) 0 (fun _ => (BI.emp : sProp 𝕄))
    (initOf (Pipeline.cells cfgs cellOf_inj) (Pipeline.launchToks cfgs cellOf_inj)) ghost0
    E (rest0 ρ) (fun c => by iintro ⟨-, HO⟩; iexact HO)
    (reg0 m) (fun _ => .rfl) (fun _ => .rfl) (reg1 m) (fun _ => .rfl) (fun _ => .rfl)

/-- Two families held on every core are their pairs held on every core. -/
theorem join_all (A B : Dev nD → sProp 𝕄) :
    (iprop(bigSep Finset.univ A ∗ bigSep Finset.univ B) : sProp 𝕄) ⊢ bigSep Finset.univ fun c => iprop(A c ∗ B c) := by
  rw [bigSep_sep']

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN with every buffer named: from any memory with zero counters every weakly fair execution of @main terminates,
    nothing faulting, and every unscoped buffer of every core ends at what the last host operations leave of what the
    second launch left. -/
theorem run_all : θ_run defs (onTc (τ := τ) (main (F := F))) ⟨m, fun _ => 0, ρ⟩
    (fun r => ∀ c : Dev nD, ∀ b ∈ Pipeline.ucRefs τ sig, r.2.mem ((c : Thread nD τ).1, b) = V8 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Pipeline.Seg.run_eq_chain,
        show (segs m (outs m) 𝒱₀ L lv E () (pdats m) (reg0 m) (reg1 m) c).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    0 (fun _ _ => rfl) (fun _ => (BI.emp : sProp 𝕄))
    (initOf (Pipeline.cells cfgs cellOf_inj) (Pipeline.launchToks cfgs cellOf_inj)) ghost0
    (T₀ := fun c => iprop(StableHlo.held (c : Thread nD τ) (Pipeline.ucRefs τ sig) (V0 m c) ∗ E 0 c))
    (Tₙ := fun c => StableHlo.held (c : Thread nD τ) (Pipeline.ucRefs τ sig) (V8 m (outs m) c))
    (hch := fun c => ⟨.rfl, .rfl, .rfl, .rfl, .rfl, .rfl, .rfl, .rfl, sep_mono .rfl (by iintro ⟨-, HO⟩; iexact HO)⟩)
    (hinit := ?_) (QY := fun c s => ∀ b ∈ Pipeline.ucRefs τ sig, s.mem ((c : Thread nD τ).1, b) = V8 m (outs m) c b)
    (hfin := fun c s' => ?_) (hQ := fun _ h => h)
  · -- the launch: the unscoped buffers are held at the launch memory; the rest makes the rest state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅
                ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (rest0 (F := F) ρ) $$ [Hr Hla] with HE
    · isplitl [Hr]; · iexact Hr
      iexact Hla
    imodintro
    iapply (join_all (fun c : Dev nD => StableHlo.held (c : Thread nD τ) (Pipeline.ucRefs τ sig) (V0 m c)) (E (F := F) 0))
    isplitl [Hh]; · iexact Hh
    iexact HE
  · -- the end: every buffer read off the last valuation
    unfold StableHlo.held
    iintro ⟨Hh, HSI⟩
    imodintro
    iapply (pointsTo_read_all (Pipeline.ucRefs τ sig) (fun b => ((c : Thread nD τ).1, b)) (V8 m (outs m) c) s')
    isplitl [Hh] <;> iassumption

/-- The run with the two results and the arguments named. -/
theorem run_res : θ_run defs (onTc (τ := τ) (main (F := F))) ⟨m, fun _ => 0, ρ⟩ (fun r => ∀ c : Dev nD,
      r.2.mem ((c.tc : Thread nD τ).loc main_v47) = V8 m (outs m) c main_v47
      ∧ r.2.mem ((c.tc : Thread nD τ).loc main_v49) = V8 m (outs m) c main_v49
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨h c _ (mem_uc main_v47 (by decide)), h c _ (mem_uc main_v49 (by decide)),
      (h c _ (mem_uc main_arg0 (by decide))).trans (V8_main_arg0 m (outs m) c),
      (h c _ (mem_uc main_arg1 (by decide))).trans (V8_main_arg1 m (outs m) c),
      (h c _ (mem_uc main_arg2 (by decide))).trans (V8_main_arg2 m (outs m) c),
      (h c _ (mem_uc main_arg3 (by decide))).trans (V8_main_arg3 m (outs m) c),
      (h c _ (mem_uc main_arg4 (by decide))).trans (V8_main_arg4 m (outs m) c),
      (h c _ (mem_uc main_arg5 (by decide))).trans (V8_main_arg5 m (outs m) c),
      (h c _ (mem_uc main_arg6 (by decide))).trans (V8_main_arg6 m (outs m) c),
      (h c _ (mem_uc main_arg7 (by decide))).trans (V8_main_arg7 m (outs m) c),
      (h c _ (mem_uc main_arg8 (by decide))).trans (V8_main_arg8 m (outs m) c),
      (h c _ (mem_uc main_arg9 (by decide))).trans (V8_main_arg9 m (outs m) c),
      (h c _ (mem_uc main_arg10 (by decide))).trans (V8_main_arg10 m (outs m) c),
      (h c _ (mem_uc main_arg11 (by decide))).trans (V8_main_arg11 m (outs m) c),
      (h c _ (mem_uc main_arg12 (by decide))).trans (V8_main_arg12 m (outs m) c),
      (h c _ (mem_uc main_arg13 (by decide))).trans (V8_main_arg13 m (outs m) c),
      (h c _ (mem_uc main_arg14 (by decide))).trans (V8_main_arg14 m (outs m) c),
      (h c _ (mem_uc main_arg15 (by decide))).trans (V8_main_arg15 m (outs m) c)⟩) (run_all m ρ)

end Cert.KernelIdeal.Run

end
-- ==== Proof.RefRun.lean ====
/-
  The run of the reference program's @main, read as ONE straight line of host operations.

  @main is two windows of statements with three calls among them: the two sigmoid-weighted units
  (x ↦ x · 1/(1 + exp(−x)), at the two widths of the fusion network) and the variance along the last
  axis, which itself calls the selection that guards a non-positive divisor. A call executes its
  callee's body on the operands, so the line below lists, at each call site, the callee's operations
  over the buffers that call names (the call's record), the nested selection's three inside the
  variance's twenty. With every call opened the program is `seq ops`; `run_seq` then gives that every
  weakly fair execution terminates with each buffer at the fold of the operations over the launch
  contents, and the arguments, which no operation writes, keep their contents.
-/
import proofs.«140230_j55336358642849_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 130 operations in order, the calls opened: statements 1 … 40 (the two pooled means, their
    concatenation, the gate's affine map and logistic, the gated mix, the first fusion layer's affine
    map); the first unit's nine over `main_call0`; the second layer's affine map; the second unit's nine over
    `main_call1`; the third layer, the reflex branch and the two scaled corrections added to the mix; the mean
    along the last axis; the variance's twenty over `main_call2` with the selection's three over
    `main_call2.call0` last; the normalisation, scale and shift; the gate's overall mean. -/
abbrev ops : List (HloOp τ sig (Elt F)) :=
  [ StableHlo.nullary main_cst (constant S_ .f32 0x00000000#32),
    StableHlo.binary main_arg0 main_cst main_v0 ((fun x v => Host.reduceAdd x v reducesTo_S8x4096x2048_S8x2048_d1 h_S_) : (⟨S8x4096x2048, .f32⟩ : BufTy).Contents (Elt F) → (⟨S_, .f32⟩ : BufTy).Contents (Elt F) → (⟨S8x2048, .f32⟩ : BufTy).Contents (Elt F)),
    StableHlo.nullary main_cst_0 (constant S_ .f32 0x45800000#32),
    StableHlo.unary main_cst_0 main_v1 (broadcastInDim S8x2048 ![] bcast_S_S8x2048 : (⟨S_, .f32⟩ : BufTy).Contents (Elt F) → (⟨S8x2048, .f32⟩ : BufTy).Contents (Elt F)),
    StableHlo.binary main_v0 main_v1 main_v2 (Host.divf : (⟨S8x2048, .f32⟩ : BufTy).Contents (Elt F) → (⟨S8x2048, .f32⟩ : BufTy).Contents (Elt F) → (⟨S8x2048, .f32⟩ : BufTy).Contents (Elt F)),
    StableHlo.nullary main_cst_1 (constant S_ .f32 0x00000000#32),
    StableHlo.binary main_arg1 main_cst_1 main_v3 ((fun x v => Host.reduceAdd x v reducesTo_S8x4096x2048_S8x2048_d1 h_S_) : (⟨S8x4096x2048, .f32⟩ : BufTy).Contents (Elt F) → (⟨S_, .f32⟩ : BufTy).Contents (Elt F) → (⟨S8x2048, .f32⟩ : BufTy).Contents (Elt F)),
    StableHlo.nullary main_cst_2 (constant S_ .f32 0x45800000#32),
    StableHlo.unary main_cst_2 main_v4 (broadcastInDim S8x2048 ![] bcast_S_S8x2048 : (⟨S_, .f32⟩ : BufTy).Contents (Elt F) → (⟨S8x2048, .f32⟩ : BufTy).Contents (Elt F)),
    StableHlo.binary main_v3 main_v4 main_v5 (Host.divf : (⟨S8x2048, .f32⟩ : BufTy).Contents (Elt F) → (⟨S8x2048, .f32⟩ : BufTy).Contents (Elt F) → (⟨S8x2048, .f32⟩ : BufTy).Contents (Elt F)),
    StableHlo.binary main_v2 main_v5 main_v6 ((fun a b => concatenate S8x4096 1 [⟨S8x2048, a⟩, ⟨S8x2048, b⟩] concatenates_S8x2048_S8x2048_S8x4096_d1) : (⟨S8x2048, .f32⟩ : BufTy).Contents (Elt F) → (⟨S8x2048, .f32⟩ : BufTy).Contents (Elt F) → (⟨S8x4096, .f32⟩ : BufTy).Contents (Elt F)),
    StableHlo.unary main_arg2 main_v7 ((transpose S4096x2048 [1, 0] · transposes_S2048x4096_S4096x2048_1_0) : (⟨S2048x4096, .f32⟩ : BufTy).Contents (Elt F) → (⟨S4096x2048, .f32⟩ : BufTy).Contents (Elt F)),
    StableHlo.binary main_v6 main_v7 main_v8 ((fun l r => Host.dotGeneral dot_S8x4096_S4096x2048_S8x2048_1_0_0_1_n_n none l r) : (⟨S8x4096, .f32⟩ : BufTy).Contents (Elt F) → (⟨S4096x2048, .f32⟩ : BufTy).Contents (Elt F) → (⟨S8x2048, .f32⟩ : BufTy).Contents (Elt F)),
    StableHlo.unary main_arg3 main_v9 (broadcastInDim S1x2048 ![1] bcast_S2048_S1x2048_1 : (⟨S2048, .f32⟩ : BufTy).Contents (Elt F) → (⟨S1x2048, .f32⟩ : BufTy).Contents (Elt F)),
    StableHlo.unary main_v9 main_v10 (broadcastInDim S8x2048 ![0, 1] bcast_S1x2048_S8x2048_0_1 : (⟨S1x2048, .f32⟩ : BufTy).Contents (Elt F) → (⟨S8x2048, .f32⟩ : BufTy).Contents (Elt F)),
    StableHlo.binary main_v8 main_v10 main_v11 (addf : (⟨S8x2048, .f32⟩ : BufTy).Contents (Elt F) → (⟨S8x2048, .f32⟩ : BufTy).Contents (Elt F) → (⟨S8x2048, .f32⟩ : BufTy).Contents (Elt F)),
    StableHlo.unary main_v11 main_v12 (Host.negf : (⟨S8x2048, .f32⟩ : BufTy).Contents (Elt F) → (⟨S8x2048, .f32⟩ : BufTy).Contents (Elt F)),
    StableHlo.unary main_v12 main_v13 (Host.exp : (⟨S8x2048, .f32⟩ : BufTy).Contents (Elt F) → (⟨S8x2048, .f32⟩ : BufTy).Contents (Elt F)),
    StableHlo.nullary main_cst_3 (constant S_ .f32 0x3F800000#32),
    StableHlo.unary main_cst_3 main_v14 (broadcastInDim S8x2048 ![] bcast_S_S8x2048 : (⟨S_, .f32⟩ : BufTy).Contents (Elt F) → (⟨S8x2048, .f32⟩ : BufTy).Contents (Elt F)),
    StableHlo.binary main_v14 main_v13 main_v15 (addf : (⟨S8x2048, .f32⟩ : BufTy).Contents (Elt F) → (⟨S8x2048, .f32⟩ : BufTy).Contents (Elt F) → (⟨S8x2048, .f32⟩ : BufTy).Contents (Elt F)),
    StableHlo.nullary main_cst_4 (constant S_ .f32 0x3F800000#32),
    StableHlo.unary main_cst_4 main_v16 (broadcastInDim S8x2048 ![] bcast_S_S8x2048 : (⟨S_, .f32⟩ : BufTy).Contents (Elt F) → (⟨S8x2048, .f32⟩ : BufTy).Contents (Elt F)),
    StableHlo.binary main_v16 main_v15 main_v17 (Host.divf : (⟨S8x2048, .f32⟩ : BufTy).Contents (Elt F) → (⟨S8x2048, .f32⟩ : BufTy).Contents (Elt F) → (⟨S8x2048, .f32⟩ : BufTy).Contents (Elt F)),
    StableHlo.unary main_v17 main_v18 (broadcastInDim S8x1x2048 ![0, 2] bcast_S8x2048_S8x1x2048_0_2 : (⟨S8x2048, .f32⟩ : BufTy).Contents (Elt F) → (⟨S8x1x2048, .f32⟩ : BufTy).Contents (Elt F)),
    StableHlo.nullary main_cst_5 (constant S_ .f32 0x3F800000#32),
    StableHlo.unary main_cst_5 main_v19 (broadcastInDim S8x1x2048 ![] bcast_S_S8x1x2048 : (⟨S_, .f32⟩ : BufTy).Contents (Elt F) → (⟨S8x1x2048, .f32⟩ : BufTy).Contents (Elt F)),
    StableHlo.binary main_v19 main_v18 main_v20 (subf : (⟨S8x1x2048, .f32⟩ : BufTy).Contents (Elt F) → (⟨S8x1x2048, .f32⟩ : BufTy).Contents (Elt F) → (⟨S8x1x2048, .f32⟩ : BufTy).Contents (Elt F)),
    StableHlo.unary main_v20 main_v21 (broadcastInDim S8x4096x2048 ![0, 1, 2] bcast_S8x1x2048_S8x4096x2048_0_1_2 : (⟨S8x1x2048, .f32⟩ : BufTy).Contents (Elt F) → (⟨S8x4096x2048, .f32⟩ : BufTy).Contents (Elt F)),
    StableHlo.binary main_v21 main_arg0 main_v22 (mulf : (⟨S8x4096x2048, .f32⟩ : BufTy).Contents (Elt F) → (⟨S8x4096x2048, .f32⟩ : BufTy).Contents (Elt F) → (⟨S8x4096x2048, .f32⟩ : BufTy).Contents (Elt F)),
    StableHlo.unary main_v18 main_v23 (broadcastInDim S8x4096x2048 ![0, 1, 2] bcast_S8x1x2048_S8x4096x2048_0_1_2 : (⟨S8x1x2048, .f32⟩ : BufTy).Contents (Elt F) → (⟨S8x4096x2048, .f32⟩ : BufTy).Contents (Elt F)),
    StableHlo.binary main_v23 main_arg1 main_v24 (mulf : (⟨S8x4096x2048, .f32⟩ : BufTy).Contents (Elt F) → (⟨S8x4096x2048, .f32⟩ : BufTy).Contents (Elt F) → (⟨S8x4096x2048, .f32⟩ : BufTy).Contents (Elt F)),
    StableHlo.binary main_v22 main_v24 main_v25 (addf : (⟨S8x4096x2048, .f32⟩ : BufTy).Contents (Elt F) → (⟨S8x4096x2048, .f32⟩ : BufTy).Contents (Elt F) → (⟨S8x4096x2048, .f32⟩ : BufTy).Contents (Elt F)),
    StableHlo.unary main_arg4 main_v26 ((transpose S4096x4096 [1, 0] · transposes_S4096x4096_S4096x4096_1_0) : (⟨S4096x4096, .f32⟩ : BufTy).Contents (Elt F) → (⟨S4096x4096, .f32⟩ : BufTy).Contents (Elt F)),
    StableHlo.binary main_v6 main_v26 main_v27 ((fun l r => Host.dotGeneral dot_S8x4096_S4096x4096_S8x4096_1_0_0_1_n_n none l r) : (⟨S8x4096, .f32⟩ : BufTy).Contents (Elt F) → (⟨S4096x4096, .f32⟩ : BufTy).Contents (Elt F) → (⟨S8x4096, .f32⟩ : BufTy).Contents (Elt F)),
    StableHlo.unary main_arg5 main_v28 (broadcastInDim S1x4096 ![1] bcast_S4096_S1x4096_1 : (⟨S4096, .f32⟩ : BufTy).Contents (Elt F) → (⟨S1x4096, .f32⟩ : BufTy).Contents (Elt F)),
    StableHlo.unary main_v28 main_v29 (broadcastInDim S8x4096 ![0, 1] bcast_S1x4096_S8x4096_0_1 : (⟨S1x4096, .f32⟩ : BufTy).Contents (Elt F) → (⟨S8x4096, .f32⟩ : BufTy).Contents (Elt F)),
    StableHlo.binary main_v27 main_v29 main_v30 (addf : (⟨S8x4096, .f32⟩ : BufTy).Contents (Elt F) → (⟨S8x4096, .f32⟩ : BufTy).Contents (Elt F) → (⟨S8x4096, .f32⟩ : BufTy).Contents (Elt F)),
    TRef.unary (.of main_v30 : TRef sig ⟨S8x4096, .f32⟩) main_call0.v0 Host.negf,
    TRef.unary main_call0.v0 main_call0.v1 Host.exp,
    TRef.nullary main_call0.cst (constant S_ .f32 0x3F800000#32),
    TRef.unary main_call0.cst main_call0.v2 (broadcastInDim S8x4096 ![] bcast_S_S8x4096),
    TRef.binary main_call0.v2 main_call0.v1 main_call0.v3 addf,
    TRef.nullary main_call0.cst_0 (constant S_ .f32 0x3F800000#32),
    TRef.unary main_call0.cst_0 main_call0.v4 (broadcastInDim S8x4096 ![] bcast_S_S8x4096),
    TRef.binary main_call0.v4 main_call0.v3 main_call0.v5 Host.divf,
    TRef.binary (.of main_v30 : TRef sig ⟨S8x4096, .f32⟩) main_call0.v5 main_call0.v6 mulf,
    StableHlo.unary main_arg6 main_v32 ((transpose S4096x2048 [1, 0] · transposes_S2048x4096_S4096x2048_1_0) : (⟨S2048x4096, .f32⟩ : BufTy).Contents (Elt F) → (⟨S4096x2048, .f32⟩ : BufTy).Contents (Elt F)),
    StableHlo.binary main_v31 main_v32 main_v33 ((fun l r => Host.dotGeneral dot_S8x4096_S4096x2048_S8x2048_1_0_0_1_n_n none l r) : (⟨S8x4096, .f32⟩ : BufTy).Contents (Elt F) → (⟨S4096x2048, .f32⟩ : BufTy).Contents (Elt F) → (⟨S8x2048, .f32⟩ : BufTy).Contents (Elt F)),
    StableHlo.unary main_arg7 main_v34 (broadcastInDim S1x2048 ![1] bcast_S2048_S1x2048_1 : (⟨S2048, .f32⟩ : BufTy).Contents (Elt F) → (⟨S1x2048, .f32⟩ : BufTy).Contents (Elt F)),
    StableHlo.unary main_v34 main_v35 (broadcastInDim S8x2048 ![0, 1] bcast_S1x2048_S8x2048_0_1 : (⟨S1x2048, .f32⟩ : BufTy).Contents (Elt F) → (⟨S8x2048, .f32⟩ : BufTy).Contents (Elt F)),
    StableHlo.binary main_v33 main_v35 main_v36 (addf : (⟨S8x2048, .f32⟩ : BufTy).Contents (Elt F) → (⟨S8x2048, .f32⟩ : BufTy).Contents (Elt F) → (⟨S8x2048, .f32⟩ : BufTy).Contents (Elt F)),
    TRef.unary (.of main_v36 : TRef sig ⟨S8x2048, .f32⟩) main_call1.v0 Host.negf,
    TRef.unary main_call1.v0 main_call1.v1 Host.exp,
    TRef.nullary main_call1.cst (constant S_ .f32 0x3F800000#32),
    TRef.unary main_call1.cst main_call1.v2 (broadcastInDim S8x2048 ![] bcast_S_S8x2048),
    TRef.binary main_call1.v2 main_call1.v1 main_call1.v3 addf,
    TRef.nullary main_call1.cst_0 (constant S_ .f32 0x3F800000#32),
    TRef.unary main_call1.cst_0 main_call1.v4 (broadcastInDim S8x2048 ![] bcast_S_S8x2048),
    TRef.binary main_call1.v4 main_call1.v3 main_call1.v5 Host.divf,
    TRef.binary (.of main_v36 : TRef sig ⟨S8x2048, .f32⟩) main_call1.v5 main_call1.v6 mulf,
    StableHlo.unary main_arg8 main_v38 ((transpose S2048x2048 [1, 0] · transposes_S2048x2048_S2048x2048_1_0) : (⟨S2048x2048, .f32⟩ : BufTy).Contents (Elt F) → (⟨S2048x2048, .f32⟩ : BufTy).Contents (Elt F)),
    StableHlo.binary main_v37 main_v38 main_v39 ((fun l r => Host.dotGeneral dot_S8x2048_S2048x2048_S8x2048_1_0_0_1_n_n none l r) : (⟨S8x2048, .f32⟩ : BufTy).Contents (Elt F) → (⟨S2048x2048, .f32⟩ : BufTy).Contents (Elt F) → (⟨S8x2048, .f32⟩ : BufTy).Contents (Elt F)),
    StableHlo.unary main_arg9 main_v40 (broadcastInDim S1x2048 ![1] bcast_S2048_S1x2048_1 : (⟨S2048, .f32⟩ : BufTy).Contents (Elt F) → (⟨S1x2048, .f32⟩ : BufTy).Contents (Elt F)),
    StableHlo.unary main_v40 main_v41 (broadcastInDim S8x2048 ![0, 1] bcast_S1x2048_S8x2048_0_1 : (⟨S1x2048, .f32⟩ : BufTy).Contents (Elt F) → (⟨S8x2048, .f32⟩ : BufTy).Contents (Elt F)),
    StableHlo.binary main_v39 main_v41 main_v42 (addf : (⟨S8x2048, .f32⟩ : BufTy).Contents (Elt F) → (⟨S8x2048, .f32⟩ : BufTy).Contents (Elt F) → (⟨S8x2048, .f32⟩ : BufTy).Contents (Elt F)),
    StableHlo.unary main_arg10 main_v43 ((transpose S4096x2048 [1, 0] · transposes_S2048x4096_S4096x2048_1_0) : (⟨S2048x4096, .f32⟩ : BufTy).Contents (Elt F) → (⟨S4096x2048, .f32⟩ : BufTy).Contents (Elt F)),
    StableHlo.binary main_v6 main_v43 main_v44 ((fun l r => Host.dotGeneral dot_S8x4096_S4096x2048_S8x2048_1_0_0_1_n_n none l r) : (⟨S8x4096, .f32⟩ : BufTy).Contents (Elt F) → (⟨S4096x2048, .f32⟩ : BufTy).Contents (Elt F) → (⟨S8x2048, .f32⟩ : BufTy).Contents (Elt F)),
    StableHlo.unary main_arg11 main_v45 (broadcastInDim S1x2048 ![1] bcast_S2048_S1x2048_1 : (⟨S2048, .f32⟩ : BufTy).Contents (Elt F) → (⟨S1x2048, .f32⟩ : BufTy).Contents (Elt F)),
    StableHlo.unary main_v45 main_v46 (broadcastInDim S8x2048 ![0, 1] bcast_S1x2048_S8x2048_0_1 : (⟨S1x2048, .f32⟩ : BufTy).Contents (Elt F) → (⟨S8x2048, .f32⟩ : BufTy).Contents (Elt F)),
    StableHlo.binary main_v44 main_v46 main_v47 (addf : (⟨S8x2048, .f32⟩ : BufTy).Contents (Elt F) → (⟨S8x2048, .f32⟩ : BufTy).Contents (Elt F) → (⟨S8x2048, .f32⟩ : BufTy).Contents (Elt F)),
    StableHlo.unary main_v47 main_v48 (Host.tanh : (⟨S8x2048, .f32⟩ : BufTy).Contents (Elt F) → (⟨S8x2048, .f32⟩ : BufTy).Contents (Elt F)),
    StableHlo.unary main_v42 main_v49 (broadcastInDim S8x1x2048 ![0, 2] bcast_S8x2048_S8x1x2048_0_2 : (⟨S8x2048, .f32⟩ : BufTy).Contents (Elt F) → (⟨S8x1x2048, .f32⟩ : BufTy).Contents (Elt F)),
    StableHlo.unary main_arg14 main_v50 (broadcastInDim S8x1x2048 ![] bcast_S_S8x1x2048 : (⟨S_, .f32⟩ : BufTy).Contents (Elt F) → (⟨S8x1x2048, .f32⟩ : BufTy).Contents (Elt F)),
    StableHlo.binary main_v50 main_v49 main_v51 (mulf : (⟨S8x1x2048, .f32⟩ : BufTy).Contents (Elt F) → (⟨S8x1x2048, .f32⟩ : BufTy).Contents (Elt F) → (⟨S8x1x2048, .f32⟩ : BufTy).Contents (Elt F)),
    StableHlo.unary main_v51 main_v52 (broadcastInDim S8x4096x2048 ![0, 1, 2] bcast_S8x1x2048_S8x4096x2048_0_1_2 : (⟨S8x1x2048, .f32⟩ : BufTy).Contents (Elt F) → (⟨S8x4096x2048, .f32⟩ : BufTy).Contents (Elt F)),
    StableHlo.binary main_v25 main_v52 main_v53 (addf : (⟨S8x4096x2048, .f32⟩ : BufTy).Contents (Elt F) → (⟨S8x4096x2048, .f32⟩ : BufTy).Contents (Elt F) → (⟨S8x4096x2048, .f32⟩ : BufTy).Contents (Elt F)),
    StableHlo.unary main_v48 main_v54 (broadcastInDim S8x1x2048 ![0, 2] bcast_S8x2048_S8x1x2048_0_2 : (⟨S8x2048, .f32⟩ : BufTy).Contents (Elt F) → (⟨S8x1x2048, .f32⟩ : BufTy).Contents (Elt F)),
    StableHlo.unary main_arg15 main_v55 (broadcastInDim S8x1x2048 ![] bcast_S_S8x1x2048 : (⟨S_, .f32⟩ : BufTy).Contents (Elt F) → (⟨S8x1x2048, .f32⟩ : BufTy).Contents (Elt F)),
    StableHlo.binary main_v55 main_v54 main_v56 (mulf : (⟨S8x1x2048, .f32⟩ : BufTy).Contents (Elt F) → (⟨S8x1x2048, .f32⟩ : BufTy).Contents (Elt F) → (⟨S8x1x2048, .f32⟩ : BufTy).Contents (Elt F)),
    StableHlo.unary main_v56 main_v57 (broadcastInDim S8x4096x2048 ![0, 1, 2] bcast_S8x1x2048_S8x4096x2048_0_1_2 : (⟨S8x1x2048, .f32⟩ : BufTy).Contents (Elt F) → (⟨S8x4096x2048, .f32⟩ : BufTy).Contents (Elt F)),
    StableHlo.binary main_v53 main_v57 main_v58 (addf : (⟨S8x4096x2048, .f32⟩ : BufTy).Contents (Elt F) → (⟨S8x4096x2048, .f32⟩ : BufTy).Contents (Elt F) → (⟨S8x4096x2048, .f32⟩ : BufTy).Contents (Elt F)),
    StableHlo.nullary main_cst_6 (constant S_ .f32 0x00000000#32),
    StableHlo.binary main_v58 main_cst_6 main_v59 ((fun x v => Host.reduceAdd x v reducesTo_S8x4096x2048_S8x4096_d2 h_S_) : (⟨S8x4096x2048, .f32⟩ : BufTy).Contents (Elt F) → (⟨S_, .f32⟩ : BufTy).Contents (Elt F) → (⟨S8x4096, .f32⟩ : BufTy).Contents (Elt F)),
    StableHlo.unary main_v59 main_v60 (broadcastInDim S8x4096x1 ![0, 1] bcast_S8x4096_S8x4096x1_0_1 : (⟨S8x4096, .f32⟩ : BufTy).Contents (Elt F) → (⟨S8x4096x1, .f32⟩ : BufTy).Contents (Elt F)),
    StableHlo.nullary main_cst_7 (constant S_ .f32 0x45000000#32),
    StableHlo.unary main_cst_7 main_v61 (broadcastInDim S8x4096x1 ![] bcast_S_S8x4096x1 : (⟨S_, .f32⟩ : BufTy).Contents (Elt F) → (⟨S8x4096x1, .f32⟩ : BufTy).Contents (Elt F)),
    StableHlo.binary main_v60 main_v61 main_v62 (Host.divf : (⟨S8x4096x1, .f32⟩ : BufTy).Contents (Elt F) → (⟨S8x4096x1, .f32⟩ : BufTy).Contents (Elt F) → (⟨S8x4096x1, .f32⟩ : BufTy).Contents (Elt F)),
    StableHlo.nullary main_c (constantI S_ 32 0#32),
    TRef.nullary main_call2.cst (constant S_ .f32 0x00000000#32),
    TRef.binary (.of main_v58 : TRef sig ⟨S8x4096x2048, .f32⟩) main_call2.cst main_call2.v0 (fun x v => Host.reduceAdd x v reducesTo_S8x4096x2048_S8x4096_d2 h_S_),
    TRef.unary main_call2.v0 main_call2.v1 (broadcastInDim S8x4096x1 ![0, 1] bcast_S8x4096_S8x4096x1_0_1),
    TRef.nullary main_call2.cst_0 (constant S_ .f32 0x45000000#32),
    TRef.unary main_call2.cst_0 main_call2.v2 (broadcastInDim S8x4096x1 ![] bcast_S_S8x4096x1),
    TRef.binary main_call2.v1 main_call2.v2 main_call2.v3 Host.divf,
    TRef.unary main_call2.v3 main_call2.v4 (broadcastInDim S8x4096x2048 ![0, 1, 2] bcast_S8x4096x1_S8x4096x2048_0_1_2),
    TRef.binary (.of main_v58 : TRef sig ⟨S8x4096x2048, .f32⟩) main_call2.v4 main_call2.v5 subf,
    TRef.binary main_call2.v5 main_call2.v5 main_call2.v6 mulf,
    TRef.unary (.of main_c : TRef sig ⟨S_, .i32⟩) main_call2.v7 (sitofp .f32),
    TRef.nullary main_call2.cst_1 (constant S_ .f32 0x45000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S8x4096x2048_S8x4096_d2 h_S_),
    TRef.unary main_call2.v9 main_call2.v10 (broadcastInDim S8x4096x1 ![0, 1] bcast_S8x4096_S8x4096x1_0_1),
    TRef.unary main_call2.v8 main_call2.v11 (broadcastInDim S8x4096x1 ![] bcast_S_S8x4096x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S8x4096x1 ![] bcast_S_S8x4096x1),
    TRef.ternary main_call2.v13 main_call2.v12 main_call2.call0.v1 main_call2.call0.v2 (fun p a b => select (broadcastInDim S8x4096x1 ![] bcast_S_S8x4096x1 p) a b),
    StableHlo.unary main_v62 main_v64 (broadcastInDim S8x4096x2048 ![0, 1, 2] bcast_S8x4096x1_S8x4096x2048_0_1_2 : (⟨S8x4096x1, .f32⟩ : BufTy).Contents (Elt F) → (⟨S8x4096x2048, .f32⟩ : BufTy).Contents (Elt F)),
    StableHlo.binary main_v58 main_v64 main_v65 (subf : (⟨S8x4096x2048, .f32⟩ : BufTy).Contents (Elt F) → (⟨S8x4096x2048, .f32⟩ : BufTy).Contents (Elt F) → (⟨S8x4096x2048, .f32⟩ : BufTy).Contents (Elt F)),
    StableHlo.nullary main_cst_8 (constant S_ .f32 0x3727C5AC#32),
    StableHlo.unary main_cst_8 main_v66 (broadcastInDim S8x4096x1 ![] bcast_S_S8x4096x1 : (⟨S_, .f32⟩ : BufTy).Contents (Elt F) → (⟨S8x4096x1, .f32⟩ : BufTy).Contents (Elt F)),
    StableHlo.binary main_v63 main_v66 main_v67 (addf : (⟨S8x4096x1, .f32⟩ : BufTy).Contents (Elt F) → (⟨S8x4096x1, .f32⟩ : BufTy).Contents (Elt F) → (⟨S8x4096x1, .f32⟩ : BufTy).Contents (Elt F)),
    StableHlo.unary main_v67 main_v68 (Host.rsqrt : (⟨S8x4096x1, .f32⟩ : BufTy).Contents (Elt F) → (⟨S8x4096x1, .f32⟩ : BufTy).Contents (Elt F)),
    StableHlo.unary main_v68 main_v69 (broadcastInDim S8x4096x2048 ![0, 1, 2] bcast_S8x4096x1_S8x4096x2048_0_1_2 : (⟨S8x4096x1, .f32⟩ : BufTy).Contents (Elt F) → (⟨S8x4096x2048, .f32⟩ : BufTy).Contents (Elt F)),
    StableHlo.binary main_v65 main_v69 main_v70 (mulf : (⟨S8x4096x2048, .f32⟩ : BufTy).Contents (Elt F) → (⟨S8x4096x2048, .f32⟩ : BufTy).Contents (Elt F) → (⟨S8x4096x2048, .f32⟩ : BufTy).Contents (Elt F)),
    StableHlo.unary main_arg12 main_v71 (broadcastInDim S1x1x2048 ![2] bcast_S2048_S1x1x2048_2 : (⟨S2048, .f32⟩ : BufTy).Contents (Elt F) → (⟨S1x1x2048, .f32⟩ : BufTy).Contents (Elt F)),
    StableHlo.unary main_v71 main_v72 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    StableHlo.binary main_v70 main_v72 main_v73 (mulf : (⟨S8x4096x2048, .f32⟩ : BufTy).Contents (Elt F) → (⟨S8x4096x2048, .f32⟩ : BufTy).Contents (Elt F) → (⟨S8x4096x2048, .f32⟩ : BufTy).Contents (Elt F)),
    StableHlo.unary main_arg13 main_v74 (broadcastInDim S1x1x2048 ![2] bcast_S2048_S1x1x2048_2 : (⟨S2048, .f32⟩ : BufTy).Contents (Elt F) → (⟨S1x1x2048, .f32⟩ : BufTy).Contents (Elt F)),
    StableHlo.unary main_v74 main_v75 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    StableHlo.binary main_v73 main_v75 main_v76 (addf : (⟨S8x4096x2048, .f32⟩ : BufTy).Contents (Elt F) → (⟨S8x4096x2048, .f32⟩ : BufTy).Contents (Elt F) → (⟨S8x4096x2048, .f32⟩ : BufTy).Contents (Elt F)),
    StableHlo.nullary main_cst_9 (constant S_ .f32 0x00000000#32),
    StableHlo.binary main_v17 main_cst_9 main_v77 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    StableHlo.nullary main_cst_10 (constant S_ .f32 0x46800000#32),
    StableHlo.binary main_v77 main_cst_10 main_v78 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is that straight line: the two windows and the callees' bodies unfolded at their calls (the records at
    their fields are literal references), both sides are one chain of `hlo` steps once sequencing is
    re-associated (`bind_assoc`, `pure_bind`). -/
theorem main_eq (c : Dev nD) : main (F := F) c = seq ops := by
  simp only [main, main_part0, main_part1, fn_silu.body, fn_silu_0.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: each builder's buffers are literal references. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub ..,
    binary_bufs_sub .., nullary_bufs_sub .., unary_bufs_sub .., binary_bufs_sub .., binary_bufs_sub .., unary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    unary_bufs_sub .., nullary_bufs_sub .., unary_bufs_sub .., binary_bufs_sub .., unary_bufs_sub .., binary_bufs_sub ..,
    unary_bufs_sub .., binary_bufs_sub .., binary_bufs_sub .., unary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., unary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., unary_bufs_sub .., binary_bufs_sub .., unary_bufs_sub .., unary_bufs_sub .., binary_bufs_sub ..,
    unary_bufs_sub .., binary_bufs_sub .., unary_bufs_sub .., unary_bufs_sub .., binary_bufs_sub .., unary_bufs_sub ..,
    unary_bufs_sub .., unary_bufs_sub .., binary_bufs_sub .., unary_bufs_sub .., binary_bufs_sub .., unary_bufs_sub ..,
    unary_bufs_sub .., binary_bufs_sub .., unary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., binary_bufs_sub .., nullary_bufs_sub .., binary_bufs_sub ..⟩

/-- On every device, for any float values, from any memory with zero counters: every weakly fair execution of
    @main terminates, and every final state has each TensorCore buffer at the fold of the operations over the
    core's launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after (ops (F := F)) (launchContents m c) (Proc.devRef .tc b) :=
  run_seq scopedRefs_eq scopedSems_eq defs main (fun _ => ops) main_eq (fun _ => ops_sub) m ρ

/-- The buffers the line writes, in order: one per operation, its result's. No argument is among them. -/
abbrev written : List (Ref sig .tc) :=
  [ main_cst, main_v0, main_cst_0, main_v1, main_v2, main_cst_1, main_v3, main_cst_2,
    main_v4, main_v5, main_v6, main_v7, main_v8, main_v9, main_v10, main_v11,
    main_v12, main_v13, main_cst_3, main_v14, main_v15, main_cst_4, main_v16, main_v17,
    main_v18, main_cst_5, main_v19, main_v20, main_v21, main_v22, main_v23, main_v24,
    main_v25, main_v26, main_v27, main_v28, main_v29, main_v30, main_call0_v0, main_call0_v1,
    main_call0_cst, main_call0_v2, main_call0_v3, main_call0_cst_0, main_call0_v4, main_call0_v5, main_v31, main_v32,
    main_v33, main_v34, main_v35, main_v36, main_call1_v0, main_call1_v1, main_call1_cst, main_call1_v2,
    main_call1_v3, main_call1_cst_0, main_call1_v4, main_call1_v5, main_v37, main_v38, main_v39, main_v40,
    main_v41, main_v42, main_v43, main_v44, main_v45, main_v46, main_v47, main_v48,
    main_v49, main_v50, main_v51, main_v52, main_v53, main_v54, main_v55, main_v56,
    main_v57, main_v58, main_cst_6, main_v59, main_v60, main_cst_7, main_v61, main_v62,
    main_c, main_call2_cst, main_call2_v0, main_call2_v1, main_call2_cst_0, main_call2_v2, main_call2_v3, main_call2_v4,
    main_call2_v5, main_call2_v6, main_call2_v7, main_call2_cst_1, main_call2_v8, main_call2_cst_2, main_call2_v9, main_call2_v10,
    main_call2_v11, main_call2_v12, main_call2_cst_3, main_call2_v13, main_call2_cst_4, main_call2_call0_v0, main_call2_call0_v1, main_v63,
    main_v64, main_v65, main_cst_8, main_v66, main_v67, main_v68, main_v69, main_v70,
    main_v71, main_v72, main_v73, main_v74, main_v75, main_v76, main_cst_9, main_v77,
    main_cst_10, main_v78 ]

/-- A reference of that list, as a one-element set of device buffers, lies in the list's image. -/
theorem mem_written {y : Ref sig .tc} (h : y ∈ written) :
    ({Proc.devRef .tc y} : Finset (DevRef τ sig)) ⊆ (written.map (Proc.devRef (τ := τ) .tc)).toFinset :=
  Finset.singleton_subset_iff.mpr (List.mem_toFinset.mpr (List.mem_map_of_mem h))

/-- Each operation writes its own result buffer only, and that buffer is listed. -/
theorem writes_sub :
    (ops : List (HloOp τ sig (Elt F))).Forall fun op => op.writes ⊆ (written.map (Proc.devRef (τ := τ) .tc)).toFinset :=
  ⟨mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide),
    mem_written (by decide), mem_written (by decide), mem_written (by decide), mem_written (by decide), mem_written (by decide)⟩

/-- A buffer the line does not write keeps its contents through it. -/
theorem after_keep {r : Ref sig .tc} (hr : r ∉ written) (V : Valuation τ sig (Elt F)) :
    after (ops (F := F)) V (Proc.devRef .tc r) = V (Proc.devRef .tc r) :=
  after_of_writes_sub ops V writes_sub hr

/-- The arguments are read, never written: each ends at its launch contents. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_arg0).trans (after_keep (by decide) _),
      (h c main_arg1).trans (after_keep (by decide) _),
      (h c main_arg2).trans (after_keep (by decide) _),
      (h c main_arg3).trans (after_keep (by decide) _),
      (h c main_arg4).trans (after_keep (by decide) _),
      (h c main_arg5).trans (after_keep (by decide) _),
      (h c main_arg6).trans (after_keep (by decide) _),
      (h c main_arg7).trans (after_keep (by decide) _),
      (h c main_arg8).trans (after_keep (by decide) _),
      (h c main_arg9).trans (after_keep (by decide) _),
      (h c main_arg10).trans (after_keep (by decide) _),
      (h c main_arg11).trans (after_keep (by decide) _),
      (h c main_arg12).trans (after_keep (by decide) _),
      (h c main_arg13).trans (after_keep (by decide) _),
      (h c main_arg14).trans (after_keep (by decide) _),
      (h c main_arg15).trans (after_keep (by decide) _)⟩)
    (run m ρ)

end Cert.ReferenceIdeal.RefRun

end
-- ==== Proof.HostTerms.lean ====
/-
  The host operations of the kernel program, read as functions of whole arrays.

  Between its two launches the program computes, per batch, from the two pooled results hl, hr (batch × 1 × feature):
  the concatenation h = [hl | hr] (batch × 4096); the gate 1 / (1 + exp (−(h · Wgᵀ + bg))); the fusion value, three
  affine maps a ↦ a · Wᵀ + b with the unit x ↦ x · (1 / (1 + exp (−x))) after the first and after the second; the reflex
  value tanh (h · Wrᵀ + br); the bias fs · fusion + rs · reflex, fs and rs one number each. It hands the second launch the
  gate and the bias as batch × 1 × feature and the normalisation's scale and shift as 1 × 1 × feature. After the second
  launch it returns the gate's mean: its sum over batch and feature, from zero, divided by 16384 = 8 · 2048.

  Each of these is named below by a definition that applies exactly the program's operations to whole arrays. Then,
  stretch of host operations by stretch, the buffer a stretch writes is shown to hold the definition at what the stretch
  reads; and following the contents from the launch through both launches' results, the buffers the second launch reads and
  the program's two results are these definitions at the first launch's results and at the parameters as launched.
-/
import proofs.«140230_j55336358642849_1_alg».proof.Proof.Gen.KernelIdeal.Regions
import Idealize.ShloMosaic.Lib.StableHlo.Run

noncomputable section

namespace Cert.KernelIdeal.HostTerms

open Idealize.ShloMosaic Idealize.ShloMosaic.TcCoe Idealize.SL.Sem Idealize.ShloMosaic.StableHlo
open Cert.KernelIdeal Cert.KernelIdeal.Gen

variable {F : FTy → Type} [FloatOps F]

/-! ## The host operations, as functions of whole arrays -/

/-- The two pooled results, each read as batch × feature, laid side by side along the features. -/
def hcat (hl hr : Vec F S8x1x2048 .f32) : Vec F S8x4096 .f32 :=
  concatenate S8x4096 1 [⟨S8x2048, shapeCast S8x2048 hl shapeCasts_S8x1x2048_S8x2048⟩, ⟨S8x2048, shapeCast S8x2048 hr shapeCasts_S8x1x2048_S8x2048⟩] concatenates_S8x2048_S8x2048_S8x4096_d1

/-- The gate: 1 / (1 + exp (−z)) entry by entry, where z = h · Wgᵀ + bg, the bias repeated along the batch. -/
def gate (h : Vec F S8x4096 .f32) (Wg : Vec F S2048x4096 .f32) (bg : Vec F S2048 .f32) : Vec F S8x2048 .f32 :=
  Host.divf (F := F) (broadcastInDim S8x2048 ![] bcast_S_S8x2048 (constant (F := F) S_ .f32 0x3F800000#32))
    (addf (broadcastInDim S8x2048 ![] bcast_S_S8x2048 (constant (F := F) S_ .f32 0x3F800000#32))
      (Host.exp (F := F) (Host.negf (F := F)
        (addf (Host.dotGeneral dot_S8x4096_S4096x2048_S8x2048_1_0_0_1_n_n none h (transpose S4096x2048 [1, 0] Wg transposes_S2048x4096_S4096x2048_1_0))
          (broadcastInDim S8x2048 ![0, 1] bcast_S1x2048_S8x2048_0_1 (broadcastInDim S1x2048 ![1] bcast_S2048_S1x2048_1 bg))))))

/-- The fusion network's first affine map: h · W1ᵀ + b1. -/
def layer1 (h : Vec F S8x4096 .f32) (W1 : Vec F S4096x4096 .f32) (b1 : Vec F S4096 .f32) : Vec F S8x4096 .f32 :=
  addf (Host.dotGeneral dot_S8x4096_S4096x4096_S8x4096_1_0_0_1_n_n none h (transpose S4096x4096 [1, 0] W1 transposes_S4096x4096_S4096x4096_1_0))
    (broadcastInDim S8x4096 ![0, 1] bcast_S1x4096_S8x4096_0_1 (broadcastInDim S1x4096 ![1] bcast_S4096_S1x4096_1 b1))

/-- The first sigmoid-weighted unit, x · (1 / (1 + exp (−x))) entry by entry, at width 4096. -/
def silu1 (x : Vec F S8x4096 .f32) : Vec F S8x4096 .f32 :=
  mulf x (Host.divf (F := F) (broadcastInDim S8x4096 ![] bcast_S_S8x4096 (constant (F := F) S_ .f32 0x3F800000#32))
    (addf (broadcastInDim S8x4096 ![] bcast_S_S8x4096 (constant (F := F) S_ .f32 0x3F800000#32)) (Host.exp (F := F) (Host.negf (F := F) x))))

/-- The fusion network's second affine map: a · W2ᵀ + b2. -/
def layer2 (a : Vec F S8x4096 .f32) (W2 : Vec F S2048x4096 .f32) (b2 : Vec F S2048 .f32) : Vec F S8x2048 .f32 :=
  addf (Host.dotGeneral dot_S8x4096_S4096x2048_S8x2048_1_0_0_1_n_n none a (transpose S4096x2048 [1, 0] W2 transposes_S2048x4096_S4096x2048_1_0))
    (broadcastInDim S8x2048 ![0, 1] bcast_S1x2048_S8x2048_0_1 (broadcastInDim S1x2048 ![1] bcast_S2048_S1x2048_1 b2))

/-- The second sigmoid-weighted unit, at width 2048. -/
def silu2 (x : Vec F S8x2048 .f32) : Vec F S8x2048 .f32 :=
  mulf x (Host.divf (F := F) (broadcastInDim S8x2048 ![] bcast_S_S8x2048 (constant (F := F) S_ .f32 0x3F800000#32))
    (addf (broadcastInDim S8x2048 ![] bcast_S_S8x2048 (constant (F := F) S_ .f32 0x3F800000#32)) (Host.exp (F := F) (Host.negf (F := F) x))))

/-- The fusion network's third affine map: a · W3ᵀ + b3. -/
def layer3 (a : Vec F S8x2048 .f32) (W3 : Vec F S2048x2048 .f32) (b3 : Vec F S2048 .f32) : Vec F S8x2048 .f32 :=
  addf (Host.dotGeneral dot_S8x2048_S2048x2048_S8x2048_1_0_0_1_n_n none a (transpose S2048x2048 [1, 0] W3 transposes_S2048x2048_S2048x2048_1_0))
    (broadcastInDim S8x2048 ![0, 1] bcast_S1x2048_S8x2048_0_1 (broadcastInDim S1x2048 ![1] bcast_S2048_S1x2048_1 b3))

/-- The fusion network: three affine maps with a sigmoid-weighted unit after the first and after the second. -/
def fusion (h : Vec F S8x4096 .f32) (W1 : Vec F S4096x4096 .f32) (b1 : Vec F S4096 .f32) (W2 : Vec F S2048x4096 .f32) (b2 : Vec F S2048 .f32)
    (W3 : Vec F S2048x2048 .f32) (b3 : Vec F S2048 .f32) : Vec F S8x2048 .f32 :=
  layer3 (silu2 (layer2 (silu1 (layer1 h W1 b1)) W2 b2)) W3 b3

/-- The reflex branch: tanh (h · Wrᵀ + br) entry by entry. -/
def reflex (h : Vec F S8x4096 .f32) (Wr : Vec F S2048x4096 .f32) (br : Vec F S2048 .f32) : Vec F S8x2048 .f32 :=
  Host.tanh (F := F) (addf (Host.dotGeneral dot_S8x4096_S4096x2048_S8x2048_1_0_0_1_n_n none h (transpose S4096x2048 [1, 0] Wr transposes_S2048x4096_S4096x2048_1_0))
    (broadcastInDim S8x2048 ![0, 1] bcast_S1x2048_S8x2048_0_1 (broadcastInDim S1x2048 ![1] bcast_S2048_S1x2048_1 br)))

/-- The bias: the fusion value times its scale plus the reflex value times its scale, each scale one number repeated. -/
def bias (fusionVal reflexVal : Vec F S8x2048 .f32) (fs rs : Vec F S_ .f32) : Vec F S8x2048 .f32 :=
  addf (mulf (broadcastInDim S8x2048 ![] bcast_S_S8x2048 fs) fusionVal) (mulf (broadcastInDim S8x2048 ![] bcast_S_S8x2048 rs) reflexVal)

/-- The gate with a unit position axis put in: batch × 1 × feature. -/
def gate3 (g : Vec F S8x2048 .f32) : Vec F S8x1x2048 .f32 :=
  broadcastInDim S8x1x2048 ![0, 2] bcast_S8x2048_S8x1x2048_0_2 g

/-- The bias with a unit position axis put in: batch × 1 × feature. -/
def bias3 (b : Vec F S8x2048 .f32) : Vec F S8x1x2048 .f32 :=
  broadcastInDim S8x1x2048 ![0, 2] bcast_S8x2048_S8x1x2048_0_2 b

/-- The normalisation's scale read as 1 × 1 × feature. -/
def gamma3 (γ : Vec F S2048 .f32) : Vec F S1x1x2048 .f32 :=
  shapeCast S1x1x2048 γ shapeCasts_S2048_S1x1x2048

/-- The normalisation's shift read as 1 × 1 × feature. -/
def beta3 (β : Vec F S2048 .f32) : Vec F S1x1x2048 .f32 :=
  shapeCast S1x1x2048 β shapeCasts_S2048_S1x1x2048

/-- The gate's mean: its sum over batch and feature, from zero, divided by 16384 = 8 · 2048. -/
def gateMean (g : Vec F S8x2048 .f32) : Vec F S_ .f32 :=
  Host.divf (F := F) (Host.reduceAdd g (constant (F := F) S_ .f32 0x00000000#32) reducesTo_S8x2048_S_d0_1 h_S_) (constant (F := F) S_ .f32 0x46800000#32)

/-! ## What each stretch of host operations writes, from what it reads

Each statement is about the fold of one stretch over ANY contents `W` of the buffers: the buffer named holds the
stretch's operations applied to what `W` holds at the buffers the stretch reads. -/

/-- After the first stretch the concatenation's buffer holds the two pooled results side by side. -/
theorem s1_v3 (W : Valuation τ sig (Elt F)) :
    StableHlo.after hostOps1 W (Proc.devRef .tc main_v3) = hcat (W (Proc.devRef .tc main_v0_0)) (W (Proc.devRef .tc main_v0_1)) := by
  dsimp only [hostOps1]
  after_results
  rfl

/-- After the first stretch the gate's buffer holds the gate of the concatenation. -/
theorem s1_v14 (W : Valuation τ sig (Elt F)) :
    StableHlo.after hostOps1 W (Proc.devRef .tc main_v14)
      = gate (hcat (W (Proc.devRef .tc main_v0_0)) (W (Proc.devRef .tc main_v0_1))) (W (Proc.devRef .tc main_arg2)) (W (Proc.devRef .tc main_arg3)) := by
  dsimp only [hostOps1]
  after_results
  rfl

/-- After the first stretch the first affine map's buffer holds it at the concatenation. The two reshapes sit inside
    the concatenation's operand list, where they are rewritten one at a time. -/
theorem s1_v19 (W : Valuation τ sig (Elt F)) :
    StableHlo.after hostOps1 W (Proc.devRef .tc main_v19)
      = layer1 (hcat (W (Proc.devRef .tc main_v0_0)) (W (Proc.devRef .tc main_v0_1))) (W (Proc.devRef .tc main_arg4)) (W (Proc.devRef .tc main_arg5)) := by
  dsimp only [hostOps1]
  after_results_simp
  repeat (first | rw [reshape_result] | (rw [reshape_result_ne]; rotate_left; decide))
  rfl

/-- The first unit's stretch leaves the unit of what the first affine map's buffer held. -/
theorem s2_v20 (W : Valuation τ sig (Elt F)) :
    StableHlo.after hostOps1_1 W (Proc.devRef .tc main_v20) = silu1 (W (Proc.devRef .tc main_v19)) := by
  dsimp only [hostOps1_1]
  after_results_simp
  try simp only [TRef.ofBuf, TRef.toBuf, cast_eq]
  rfl

/-- The third stretch leaves the second affine map of what the first unit's buffer held. -/
theorem s3_v25 (W : Valuation τ sig (Elt F)) :
    StableHlo.after hostOps1_2 W (Proc.devRef .tc main_v25)
      = layer2 (W (Proc.devRef .tc main_v20)) (W (Proc.devRef .tc main_arg6)) (W (Proc.devRef .tc main_arg7)) := by
  dsimp only [hostOps1_2]
  after_results_simp
  rfl

/-- The second unit's stretch leaves the unit of what the second affine map's buffer held. -/
theorem s4_v26 (W : Valuation τ sig (Elt F)) :
    StableHlo.after hostOps1_3 W (Proc.devRef .tc main_v26) = silu2 (W (Proc.devRef .tc main_v25)) := by
  dsimp only [hostOps1_3]
  after_results_simp
  try simp only [TRef.ofBuf, TRef.toBuf, cast_eq]
  rfl

/-- The last stretch before the second launch leaves the gate with its unit axis. -/
theorem s5_v43 (W : Valuation τ sig (Elt F)) :
    StableHlo.after hostOps1_4 W (Proc.devRef .tc main_v43) = gate3 (W (Proc.devRef .tc main_v14)) := by
  dsimp only [hostOps1_4]
  after_results_simp
  rfl

/-- It leaves the bias with its unit axis: the third affine map of the second unit's value and the reflex of the
    concatenation, each times its scale, added. -/
theorem s5_v44 (W : Valuation τ sig (Elt F)) :
    StableHlo.after hostOps1_4 W (Proc.devRef .tc main_v44)
      = bias3 (bias (layer3 (W (Proc.devRef .tc main_v26)) (W (Proc.devRef .tc main_arg8)) (W (Proc.devRef .tc main_arg9)))
          (reflex (W (Proc.devRef .tc main_v3)) (W (Proc.devRef .tc main_arg10)) (W (Proc.devRef .tc main_arg11)))
          (W (Proc.devRef .tc main_arg14)) (W (Proc.devRef .tc main_arg15))) := by
  dsimp only [hostOps1_4]
  after_results_simp
  rfl

/-- It leaves the scale as 1 × 1 × feature. -/
theorem s5_v45 (W : Valuation τ sig (Elt F)) :
    StableHlo.after hostOps1_4 W (Proc.devRef .tc main_v45) = gamma3 (W (Proc.devRef .tc main_arg12)) := by
  dsimp only [hostOps1_4]
  after_results_simp
  rfl

/-- It leaves the shift as 1 × 1 × feature. -/
theorem s5_v46 (W : Valuation τ sig (Elt F)) :
    StableHlo.after hostOps1_4 W (Proc.devRef .tc main_v46) = beta3 (W (Proc.devRef .tc main_arg13)) := by
  dsimp only [hostOps1_4]
  after_results_simp
  rfl

/-- The stretch after the second launch leaves the mean of what the gate's buffer held. -/
theorem s7_v49 (W : Valuation τ sig (Elt F)) :
    StableHlo.after hostOps2 W (Proc.devRef .tc main_v49) = gateMean (W (Proc.devRef .tc main_v14)) := by
  dsimp only [hostOps2]
  after_results_simp
  rfl

/-! ## The buffers between the program's items

The contents are followed from the launch through the first launch's two results, the five stretches before the second
launch, the second launch's result and the last stretch: a buffer a stretch writes is read by its statement above at
the contents before it, a buffer it does not write keeps what it held. -/

section Chain

variable (m : (ℓ : Loc nD τ sig) → Buf (Elt F) ℓ) (outs : Gen.Outs (F := F)) (c : Dev nD)

/-- The first launch's two result buffers hold what it leaves there. -/
theorem V1_v0_0 : V1 m outs c main_v0_0 = outs 1 main_v0_0 c := by
  simp only [V1, Function.update_of_ne (StableHlo.devRef_ne_of_ne (show main_v0_0 ≠ main_v0_1 by decide) : (Proc.devRef .tc main_v0_0 : DevRef τ sig) ≠ Proc.devRef .tc main_v0_1), Function.update_self]
theorem V1_v0_1 : V1 m outs c main_v0_1 = outs 1 main_v0_1 c := by
  simp only [V1, Function.update_self]

/-- A buffer that neither launch's results nor any stretch so far touches holds its launch contents. -/
theorem V1_in (r : Ref sig .tc) (h1 : r ∉ ([main_v0_0, main_v0_1] : List (Ref sig .tc))) :
    V1 m outs c r = m ((c.tc : Thread nD τ).loc r) :=
  (V1_of m outs c r h1).trans rfl
theorem V2_in (r : Ref sig .tc) (h1 : r ∉ ([main_v0_0, main_v0_1] : List (Ref sig .tc))) (h2 : r ∉ hostOps1_W) :
    V2 m outs c r = m ((c.tc : Thread nD τ).loc r) :=
  (V2_of m outs c r h2).trans (V1_in m outs c r h1)
theorem V3_in (r : Ref sig .tc) (h1 : r ∉ ([main_v0_0, main_v0_1] : List (Ref sig .tc))) (h2 : r ∉ hostOps1_W) (h3 : r ∉ hostOps1_1_W) :
    V3 m outs c r = m ((c.tc : Thread nD τ).loc r) :=
  (V3_of m outs c r h3).trans (V2_in m outs c r h1 h2)
theorem V4_in (r : Ref sig .tc) (h1 : r ∉ ([main_v0_0, main_v0_1] : List (Ref sig .tc))) (h2 : r ∉ hostOps1_W) (h3 : r ∉ hostOps1_1_W)
    (h4 : r ∉ hostOps1_2_W) : V4 m outs c r = m ((c.tc : Thread nD τ).loc r) :=
  (V4_of m outs c r h4).trans (V3_in m outs c r h1 h2 h3)
theorem V5_in (r : Ref sig .tc) (h1 : r ∉ ([main_v0_0, main_v0_1] : List (Ref sig .tc))) (h2 : r ∉ hostOps1_W) (h3 : r ∉ hostOps1_1_W)
    (h4 : r ∉ hostOps1_2_W) (h5 : r ∉ hostOps1_3_W) : V5 m outs c r = m ((c.tc : Thread nD τ).loc r) :=
  (V5_of m outs c r h5).trans (V4_in m outs c r h1 h2 h3 h4)
theorem V6_in (r : Ref sig .tc) (h1 : r ∉ ([main_v0_0, main_v0_1] : List (Ref sig .tc))) (h2 : r ∉ hostOps1_W) (h3 : r ∉ hostOps1_1_W)
    (h4 : r ∉ hostOps1_2_W) (h5 : r ∉ hostOps1_3_W) (h6 : r ∉ hostOps1_4_W) : V6 m outs c r = m ((c.tc : Thread nD τ).loc r) :=
  (V6_of m outs c r h6).trans (V5_in m outs c r h1 h2 h3 h4 h5)

/-- The concatenation of the two pooled results, once written, stays. -/
theorem V2_v3 : V2 m outs c main_v3 = hcat (outs 1 main_v0_0 c) (outs 1 main_v0_1 c) := by
  have h := s1_v3 (V1 m outs c)
  rw [V1_v0_0 m outs c, V1_v0_1 m outs c] at h
  exact h
theorem V5_v3 : V5 m outs c main_v3 = hcat (outs 1 main_v0_0 c) (outs 1 main_v0_1 c) :=
  (V5_of m outs c main_v3 (by decide)).trans <| (V4_of m outs c main_v3 (by decide)).trans <|
    (V3_of m outs c main_v3 (by decide)).trans (V2_v3 m outs c)

/-- The gate, once written, stays to the end. -/
theorem V2_v14 : V2 m outs c main_v14
    = gate (hcat (outs 1 main_v0_0 c) (outs 1 main_v0_1 c)) (m ((c.tc : Thread nD τ).loc main_arg2)) (m ((c.tc : Thread nD τ).loc main_arg3)) := by
  have h := s1_v14 (V1 m outs c)
  rw [V1_v0_0 m outs c, V1_v0_1 m outs c, V1_in m outs c main_arg2 (by decide), V1_in m outs c main_arg3 (by decide)] at h
  exact h
theorem V5_v14 : V5 m outs c main_v14
    = gate (hcat (outs 1 main_v0_0 c) (outs 1 main_v0_1 c)) (m ((c.tc : Thread nD τ).loc main_arg2)) (m ((c.tc : Thread nD τ).loc main_arg3)) :=
  (V5_of m outs c main_v14 (by decide)).trans <| (V4_of m outs c main_v14 (by decide)).trans <|
    (V3_of m outs c main_v14 (by decide)).trans (V2_v14 m outs c)
theorem V7_v14 : V7 m outs c main_v14
    = gate (hcat (outs 1 main_v0_0 c) (outs 1 main_v0_1 c)) (m ((c.tc : Thread nD τ).loc main_arg2)) (m ((c.tc : Thread nD τ).loc main_arg3)) :=
  (V7_of m outs c main_v14 (by decide)).trans <| (V6_of m outs c main_v14 (by decide)).trans (V5_v14 m outs c)

/-- The fusion network, layer by layer. -/
theorem V2_v19 : V2 m outs c main_v19
    = layer1 (hcat (outs 1 main_v0_0 c) (outs 1 main_v0_1 c)) (m ((c.tc : Thread nD τ).loc main_arg4)) (m ((c.tc : Thread nD τ).loc main_arg5)) := by
  have h := s1_v19 (V1 m outs c)
  rw [V1_v0_0 m outs c, V1_v0_1 m outs c, V1_in m outs c main_arg4 (by decide), V1_in m outs c main_arg5 (by decide)] at h
  exact h
theorem V3_v20 : V3 m outs c main_v20
    = silu1 (layer1 (hcat (outs 1 main_v0_0 c) (outs 1 main_v0_1 c)) (m ((c.tc : Thread nD τ).loc main_arg4)) (m ((c.tc : Thread nD τ).loc main_arg5))) := by
  have h := s2_v20 (V2 m outs c)
  rw [V2_v19 m outs c] at h
  exact h
theorem V4_v25 : V4 m outs c main_v25
    = layer2 (silu1 (layer1 (hcat (outs 1 main_v0_0 c) (outs 1 main_v0_1 c)) (m ((c.tc : Thread nD τ).loc main_arg4)) (m ((c.tc : Thread nD τ).loc main_arg5))))
        (m ((c.tc : Thread nD τ).loc main_arg6)) (m ((c.tc : Thread nD τ).loc main_arg7)) := by
  have h := s3_v25 (V3 m outs c)
  rw [V3_v20 m outs c, V3_in m outs c main_arg6 (by decide) (by decide) (by decide), V3_in m outs c main_arg7 (by decide) (by decide) (by decide)] at h
  exact h
theorem V5_v26 : V5 m outs c main_v26
    = silu2 (layer2 (silu1 (layer1 (hcat (outs 1 main_v0_0 c) (outs 1 main_v0_1 c)) (m ((c.tc : Thread nD τ).loc main_arg4)) (m ((c.tc : Thread nD τ).loc main_arg5))))
        (m ((c.tc : Thread nD τ).loc main_arg6)) (m ((c.tc : Thread nD τ).loc main_arg7))) := by
  have h := s4_v26 (V4 m outs c)
  rw [V4_v25 m outs c] at h
  exact h

/-! ### What the second launch reads, and what the program returns -/

/-- The second launch's gate operand: the gate of the two pooled results, batch × 1 × feature. -/
theorem V6_main_v43 : V6 m outs c main_v43
    = gate3 (gate (hcat (outs 1 main_v0_0 c) (outs 1 main_v0_1 c)) (m ((c.tc : Thread nD τ).loc main_arg2)) (m ((c.tc : Thread nD τ).loc main_arg3))) := by
  have h := s5_v43 (V5 m outs c)
  rw [V5_v14 m outs c] at h
  exact h

/-- The second launch's bias operand: the scaled fusion value plus the scaled reflex value, batch × 1 × feature. -/
theorem V6_main_v44 : V6 m outs c main_v44
    = bias3 (bias
        (fusion (hcat (outs 1 main_v0_0 c) (outs 1 main_v0_1 c)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)))
        (reflex (hcat (outs 1 main_v0_0 c) (outs 1 main_v0_1 c)) (m ((c.tc : Thread nD τ).loc main_arg10)) (m ((c.tc : Thread nD τ).loc main_arg11)))
        (m ((c.tc : Thread nD τ).loc main_arg14)) (m ((c.tc : Thread nD τ).loc main_arg15))) := by
  have h := s5_v44 (V5 m outs c)
  rw [V5_v26 m outs c, V5_v3 m outs c,
    V5_in m outs c main_arg8 (by decide) (by decide) (by decide) (by decide) (by decide),
    V5_in m outs c main_arg9 (by decide) (by decide) (by decide) (by decide) (by decide),
    V5_in m outs c main_arg10 (by decide) (by decide) (by decide) (by decide) (by decide),
    V5_in m outs c main_arg11 (by decide) (by decide) (by decide) (by decide) (by decide),
    V5_in m outs c main_arg14 (by decide) (by decide) (by decide) (by decide) (by decide),
    V5_in m outs c main_arg15 (by decide) (by decide) (by decide) (by decide) (by decide)] at h
  unfold fusion
  exact h

/-- The second launch's scale and shift operands: the two feature vectors as 1 × 1 × feature. -/
theorem V6_main_v45 : V6 m outs c main_v45 = gamma3 (m ((c.tc : Thread nD τ).loc main_arg12)) := by
  have h := s5_v45 (V5 m outs c)
  rw [V5_in m outs c main_arg12 (by decide) (by decide) (by decide) (by decide) (by decide)] at h
  exact h
theorem V6_main_v46 : V6 m outs c main_v46 = beta3 (m ((c.tc : Thread nD τ).loc main_arg13)) := by
  have h := s5_v46 (V5 m outs c)
  rw [V5_in m outs c main_arg13 (by decide) (by decide) (by decide) (by decide) (by decide)] at h
  exact h

/-- The two inputs reach the second launch as launched. -/
theorem V6_main_arg0 : V6 m outs c main_arg0 = m ((c.tc : Thread nD τ).loc main_arg0) :=
  V6_in m outs c main_arg0 (by decide) (by decide) (by decide) (by decide) (by decide) (by decide)
theorem V6_main_arg1 : V6 m outs c main_arg1 = m ((c.tc : Thread nD τ).loc main_arg1) :=
  V6_in m outs c main_arg1 (by decide) (by decide) (by decide) (by decide) (by decide) (by decide)

/-- The program's first result: what the second launch leaves, which the last stretch does not write. -/
theorem V8_main_v47 : V8 m outs c main_v47 = outs 7 main_v47 c := by
  refine (V8_of m outs c main_v47 (by decide)).trans ?_
  simp only [V7, Function.update_self]

/-- The program's second result: the mean of the gate of the two pooled results. -/
theorem V8_main_v49 : V8 m outs c main_v49
    = gateMean (gate (hcat (outs 1 main_v0_0 c) (outs 1 main_v0_1 c)) (m ((c.tc : Thread nD τ).loc main_arg2)) (m ((c.tc : Thread nD τ).loc main_arg3))) := by
  have h := s7_v49 (V7 m outs c)
  rw [V7_v14 m outs c] at h
  exact h

end Chain

end Cert.KernelIdeal.HostTerms

end
-- ==== Proof.HostValue.lean ====
/-
  The layout definitions of the host operations, read at one index, on the extended reals.

  A batch × feature array handed to the second launch as batch × 1 × feature reads, at (b, 0, j), its entry (b, j); a
  feature vector handed over as 1 × 1 × feature reads, at (0, 0, j), its entry j; the bias at (b, j) is the fusion
  value times its one-number scale plus the reflex value times its one-number scale; and the concatenation of the two
  pooled results along the features reads the first at a feature k < 2048 and the second, at k − 2048, from 2048 on.
  Each is one index computation: a broadcast reads its operand at the coordinates its axes name, a reshape at the
  index with the same row-major position, a two-piece concatenation at the piece its axis coordinate falls in.
-/
import proofs.«140230_j55336358642849_1_alg».proof.Proof.HostTerms
import Idealize.ShloMosaic.Lib.ValueIdx
import Idealize.ShloMosaic.Lib.ValueLayout
import Idealize.ShloMosaic.Lib.Pipeline.Value

noncomputable section

namespace Cert.KernelIdeal.HostValue

open Idealize.ShloMosaic Idealize.ShloMosaic.ValueIdx
open Cert.KernelIdeal Cert.KernelIdeal.Gen

/-- The gate with its unit axis, read at (b, 0, j): the gate at (b, j). -/
theorem gate3_apply (g : Vec Ideal S8x2048 .f32) (b : Fin 8) (j : Fin 2048) :
    HostTerms.gate3 (F := Ideal) g (ix3 b 0 j) = g (ix2 b j) := by
  unfold HostTerms.gate3
  exact broadcastInDim_apply _ _ g (ix3 b 0 j) (ix2 b j) fun a => match a with | ⟨0, _⟩ => rfl | ⟨1, _⟩ => rfl

/-- The bias with its unit axis, read at (b, 0, j): the bias at (b, j). -/
theorem bias3_apply (g : Vec Ideal S8x2048 .f32) (b : Fin 8) (j : Fin 2048) :
    HostTerms.bias3 (F := Ideal) g (ix3 b 0 j) = g (ix2 b j) := by
  unfold HostTerms.bias3
  exact broadcastInDim_apply _ _ g (ix3 b 0 j) (ix2 b j) fun a => match a with | ⟨0, _⟩ => rfl | ⟨1, _⟩ => rfl

/-- The bias at (b, j): each value times its one-number scale, added. -/
theorem bias_apply (fu re : Vec Ideal S8x2048 .f32) (fs rs : Vec Ideal S_ .f32) (b : Fin 8) (j : Fin 2048) :
    HostTerms.bias (F := Ideal) fu re fs rs (ix2 b j) = fs ix0 * fu (ix2 b j) + rs ix0 * re (ix2 b j) := by
  unfold HostTerms.bias
  rw [addf_apply, mulf_apply, mulf_apply,
    broadcastInDim_apply _ _ fs (ix2 b j) ix0 (fun a => a.elim0),
    broadcastInDim_apply _ _ rs (ix2 b j) ix0 (fun a => a.elim0)]

/-- The scale as 1 × 1 × feature, read at (0, 0, j): the scale at j. -/
theorem gamma3_apply (γ : Vec Ideal S2048 .f32) (j : Fin 2048) :
    HostTerms.gamma3 (F := Ideal) γ (ix3 0 0 j) = γ (ix1 j) := by
  unfold HostTerms.gamma3
  refine shapeCast_apply γ _ (ix3 0 0 j) (ix1 j) ?_
  rw [Shape.rowMajor_val_three, Shape.rowMajor_val_one]
  show j.val = (0 * 1 + 0) * 2048 + j.val
  omega

/-- The shift as 1 × 1 × feature, read at (0, 0, j): the shift at j. -/
theorem beta3_apply (β : Vec Ideal S2048 .f32) (j : Fin 2048) :
    HostTerms.beta3 (F := Ideal) β (ix3 0 0 j) = β (ix1 j) := by
  unfold HostTerms.beta3
  refine shapeCast_apply β _ (ix3 0 0 j) (ix1 j) ?_
  rw [Shape.rowMajor_val_three, Shape.rowMajor_val_one]
  show j.val = (0 * 1 + 0) * 2048 + j.val
  omega

/-- A pooled result read as batch × feature at (b, k): the result at (b, 0, k). -/
theorem pooled2_apply (h : Vec Ideal S8x1x2048 .f32) (b : Fin 8) (k : Fin 2048) :
    shapeCast S8x2048 h shapeCasts_S8x1x2048_S8x2048 (ix2 b k) = h (ix3 b 0 k) := by
  refine shapeCast_apply h _ (ix2 b k) (ix3 b 0 k) ?_
  rw [Shape.rowMajor_val_three, Shape.rowMajor_val_two]
  show (b.val * 1 + 0) * 2048 + k.val = b.val * 2048 + k.val
  omega

/-- The concatenation at a feature below 2048: the first pooled result there. -/
theorem hcat_left (hl hr : Vec Ideal S8x1x2048 .f32) (b : Fin 8) (k : Fin 4096) (hk : k.val < 2048) :
    HostTerms.hcat (F := Ideal) hl hr (ix2 b k) = hl (ix3 b 0 ⟨k.val, hk⟩) := by
  unfold HostTerms.hcat
  refine (concatenate_pair_apply_left (1 : Fin S8x4096.rank) _ _ concatenates_S8x2048_S8x2048_S8x4096_d1 (ix2 b k) rfl (ix2 b ⟨k.val, hk⟩)
    fun a => match a with | ⟨0, _⟩ => rfl | ⟨1, _⟩ => rfl).trans ?_
  exact pooled2_apply hl b ⟨k.val, hk⟩

/-- The concatenation at a feature from 2048 on: the second pooled result at that feature less 2048. -/
theorem hcat_right (hl hr : Vec Ideal S8x1x2048 .f32) (b : Fin 8) (k : Fin 4096) (hk : 2048 ≤ k.val) :
    HostTerms.hcat (F := Ideal) hl hr (ix2 b k) = hr (ix3 b 0 ⟨k.val - 2048, by omega⟩) := by
  unfold HostTerms.hcat
  refine (concatenate_pair_apply_right (1 : Fin S8x4096.rank) _ _ concatenates_S8x2048_S8x2048_S8x4096_d1 (ix2 b k) rfl rfl (ix2 b ⟨k.val - 2048, by omega⟩)
    (fun a => match a with | ⟨0, _⟩ => fun _ => rfl | ⟨1, _⟩ => fun h => absurd rfl h) ?_).trans ?_
  · show k.val - 2048 + 2048 = k.val
    omega
  · exact pooled2_apply hr b ⟨k.val - 2048, by omega⟩

end Cert.KernelIdeal.HostValue

end
-- ==== Proof.Spec.lean ====
/-
  The mathematics both programs compute, on the extended reals, over plain coordinates: batch b < 8, position
  l < 4096, feature j < 2048.
  * `pooled κ x b j` is the sum of x over the positions, times κ: a mean when κ is the reciprocal of 4096.
  * `mixed one xl xr a bias b l j` is the gate's convex mix (one − a) · xl + a · xr of the two inputs plus a bias,
    gate and bias depending on batch and feature only.
  * `layerNorm n ε x γ β` normalises each row (b, l) over its features: the row's mean and its mean squared
    deviation (divisor n), the deviation times the reciprocal square root of the variance plus ε, scaled by γ and
    shifted by β.
  Two laws join the programs' two spellings: a product with the reciprocal of a nonzero real is the quotient by it,
  and a bias that is a sum of two terms may be added one term after the other (addition of extended reals is
  associative, infinities included).
-/
import Idealize.ShloMosaic.PureOps.Ideal
import Idealize.ShloMosaic.PureOps.Ideal.Laws

noncomputable section

namespace Cert.Spec

open Idealize.ShloMosaic
open scoped BigOperators

/-- An input or the result: batch × position × feature. -/
abbrev Arr3 : Type := Fin 8 → Fin 4096 → Fin 2048 → EReal
/-- A quantity per batch and feature. -/
abbrev Arr2 : Type := Fin 8 → Fin 2048 → EReal

/-- The sum over the positions, times `κ`. -/
def pooled (κ : EReal) (x : Arr3) : Arr2 :=
  fun b j => (∑ l : Fin 4096, x b l j) * κ

/-- The sum over the positions, divided by `n`. -/
def pooledDiv (n : EReal) (x : Arr3) : Arr2 :=
  fun b j => Ideal.div (∑ l : Fin 4096, x b l j) n

/-- The gated mix of the two inputs plus the bias. -/
def mixed (one : EReal) (xl xr : Arr3) (a bias : Arr2) : Arr3 :=
  fun b l j => (one - a b j) * xl b l j + a b j * xr b l j + bias b j

/-- The gated mix of the two inputs plus two biases, added one after the other. -/
def mixed2 (one : EReal) (xl xr : Arr3) (a p q : Arr2) : Arr3 :=
  fun b l j => (one - a b j) * xl b l j + a b j * xr b l j + p b j + q b j

/-- The mean of row (b, l) over its features, the divisor `n`. -/
def rowMean (n : EReal) (x : Arr3) (b : Fin 8) (l : Fin 4096) : EReal :=
  Ideal.div (∑ j : Fin 2048, x b l j) n

/-- The mean squared deviation of row (b, l) from its mean, the divisor `n`. -/
def rowVar (n : EReal) (x : Arr3) (b : Fin 8) (l : Fin 4096) : EReal :=
  Ideal.div (∑ j : Fin 2048, (x b l j - rowMean n x b l) * (x b l j - rowMean n x b l)) n

/-- Each row normalised over its features, scaled by `γ` and shifted by `β`. -/
def layerNorm (n ε : EReal) (x : Arr3) (γ β : Fin 2048 → EReal) : Arr3 :=
  fun b l j => (x b l j - rowMean n x b l) * Ideal.rsqrt (rowVar n x b l + ε) * γ j + β j

/-- A bias that is a sum may be added one term after the other. -/
theorem mixed_add (one : EReal) (xl xr : Arr3) (a p q : Arr2) :
    mixed one xl xr a (fun b j => p b j + q b j) = mixed2 one xl xr a p q := by
  funext b l j
  simp only [mixed, mixed2, add_assoc]

/-- The product with the reciprocal of a nonzero real is the quotient by it. -/
theorem pooled_eq_pooledDiv {κ n : EReal} {y : ℝ} (hy : y ≠ 0) (hn : n = (y : EReal)) (hκ : κ = ((1 / y : ℝ) : EReal))
    (x : Arr3) : pooled κ x = pooledDiv n x := by
  funext b j
  simp only [pooled, pooledDiv, hn, hκ, Ideal.div_coe hy]

end Cert.Spec

end
-- ==== Proof.PoolValue.lean ====
/-
  The value of the first launch, over the extended reals. The launch walks a grid of 4 × 16 points; point
  t = 16·bi + l reads, of either input, the block of batches 2·bi, 2·bi + 1 and positions 256·l … 256·l + 255, and adds
  the block's column sums into a scratch row per batch, which the point with l = 0 clears first. So after point
  16·bi + k the row of batch 2·bi + b holds, at feature j, zero plus the sum of x(2·bi + b, ·, j) over the first
  256·(k + 1) positions (induction on the point; the sum over an initial segment of the naturals grows by the next 256
  terms, associativity of + alone — no finiteness is used). At l = 15 that is the sum over all 4096 positions; the point
  scales it by the literal and writes it back as the block of batches 2·bi, 2·bi + 1 of the result. The four
  write-backs cover the eight batches, so either result array ends holding its input pooled over the positions, times
  the literal — which is kept as the word it is printed with and never evaluated; only the zero word is read as 0.
-/
import proofs.«140230_j55336358642849_1_alg».proof.Proof.PoolFrame
import proofs.«140230_j55336358642849_1_alg».proof.Proof.Spec
import Idealize.ShloMosaic.Lib.Pipeline.Value
import Idealize.ShloMosaic.Lib.ValueIdx
import Idealize.ShloMosaic.PureOps.Ideal.Laws
import Mathlib.Data.Fintype.BigOperators
import Mathlib.Algebra.BigOperators.Group.Finset.Basic

set_option maxRecDepth 16384

noncomputable section

namespace Cert.KernelIdeal.PoolValue

open Idealize.ShloMosaic Idealize.ShloMosaic.TcCoe
open Idealize.ShloMosaic.ValueIdx
open Idealize.ShloMosaic.Pipeline (Dat)
open Cert.KernelIdeal Cert.KernelIdeal.Gen
open scoped BigOperators

/-! ## The body's arithmetic at an entry -/

/-- The cleared row: every entry is the real zero. -/
theorem zero_row_apply (b : Fin 2) (r : Fin 1) (j : Fin 2048) :
    (k0_pay1 (F := Ideal)) (ix3 b r j) = 0 := by
  unfold k0_pay1
  rw [shapeCast_self]
  show Ideal.ofBits .f32 0x00000000#32 = 0
  exact Ideal.ofBits_zero_f32

/-- The scaled row at an entry: the entry times the literal. -/
theorem scaled_row_apply (v : Vec Ideal S2x1x2048 .f32) (b : Fin 2) (r : Fin 1) (j : Fin 2048) :
    k0_pay5 v (ix3 b r j) = v (ix3 b r j) * Ideal.ofBits .f32 0x39800000#32 := by
  unfold k0_pay5
  rfl

/-- One accumulation step at an entry: the old entry plus the block's column sum. -/
theorem step_row_apply (v : Vec Ideal S2x1x2048 .f32) (x : Vec Ideal S2x256x2048 .f32) (b : Fin 2) (r : Fin 1) (j : Fin 2048) :
    k0_pay3 v x (ix3 b r j) = v (ix3 b r j) + ∑ k : Fin 256, x (ix3 b k j) := by
  unfold k0_pay3
  rw [shapeCast_self]
  rw [addf_apply]
  congr 1
  refine (shapeCast_apply _ shapeCasts_S2x2048_S2x1x2048 (ix3 b r j) (ix2 b j) ?_).trans ?_
  · rw [Shape.rowMajor_val_two, Shape.rowMajor_val_three]
    have hr : r.val = 0 := by omega
    show b.val * 2048 + j.val = (b.val * 1 + r.val) * 2048 + j.val
    rw [hr]; omega
  · refine (Ideal.multiReduction_add_single x _ reduces_S2x256x2048_S2x2048 _ _ (ix2 b j)).trans ?_
    refine Finset.sum_congr rfl fun k _ => congrArg x ?_
    funext a
    match a with
    | ⟨0, _⟩ => rfl
    | ⟨1, _⟩ => rfl
    | ⟨2, _⟩ => rfl

theorem pay4_eq (v : Vec Ideal S2x1x2048 .f32) (x : Vec Ideal S2x256x2048 .f32) : k0_pay4 v x = k0_pay3 v x := rfl
theorem pay2_eq : (k0_pay2 (F := Ideal)) = k0_pay1 := rfl
theorem pay6_eq (v : Vec Ideal S2x1x2048 .f32) : k0_pay6 v = k0_pay5 v := rfl

/-! ## The input blocks as entries of the input arrays -/

variable (V : (c : Dev nD) → (b : Ref sig .tc) → Buf (Elt Ideal) ((c : Thread nD τ).loc b))

/-- The two input arrays and their blocks at a point, at their literal types. -/
abbrev arrL (c : Dev nD) : Vec Ideal S8x4096x2048 .f32 := V c main_arg0
abbrev arrR (c : Dev nD) : Vec Ideal S8x4096x2048 .f32 := V c main_arg1
abbrev blkL (c : Dev nD) (t : Fin cfg0.N) : Vec Ideal S2x256x2048 .f32 := Pool.iblk (F := Ideal) V c 0 t
abbrev blkR (c : Dev nD) (t : Fin cfg0.N) : Vec Ideal S2x256x2048 .f32 := Pool.iblk (F := Ideal) V c 1 t

/-- Where the windows' blocks sit, decided over the grid: point t = 16·bi + l reads block (bi, l, 0) of either input
    and holds block (bi, 0, 0) of either result. -/
theorem idx_in : ∀ t : Fin cfg0.N, win0_0.index t (0 : Fin 3) = t.val / 16 ∧ win0_0.index t (1 : Fin 3) = t.val % 16
    ∧ win0_0.index t (2 : Fin 3) = 0 ∧ win0_1.index t (0 : Fin 3) = t.val / 16 ∧ win0_1.index t (1 : Fin 3) = t.val % 16
    ∧ win0_1.index t (2 : Fin 3) = 0 :=
  (by decide +kernel : ∀ t : Fin grid0.N, _)

theorem idx_out : ∀ t : Fin cfg0.N, win0_2.index t (0 : Fin 3) = t.val / 16 ∧ win0_2.index t (1 : Fin 3) = 0
    ∧ win0_2.index t (2 : Fin 3) = 0 ∧ win0_3.index t (0 : Fin 3) = t.val / 16 ∧ win0_3.index t (1 : Fin 3) = 0
    ∧ win0_3.index t (2 : Fin 3) = 0 :=
  (by decide +kernel : ∀ t : Fin grid0.N, _)

/-- The left input's block at a point, at an entry: the array at batch 2·bi + b, position 256·l + r. -/
theorem blkL_apply (c : Dev nD) (t : Fin cfg0.N) (b : Fin 2) (r : Fin 256) (j : Fin 2048) (B : Fin 8) (L : Fin 4096)
    (hB : B.val = 2 * (t.val / 16) + b.val) (hL : L.val = 256 * (t.val % 16) + r.val) :
    blkL V c t (ix3 b r j) = arrL V c (ix3 B L j) := by
  obtain ⟨e0, e1, e2, -, -, -⟩ := idx_in t
  show Pool.iblk (F := Ideal) V c 0 t (ix3 b r j) = V c main_arg0 (ix3 B L j)
  unfold Pool.iblk
  rw [View.read_apply]
  show V c main_arg0 _ = V c main_arg0 _
  congr 1
  funext a
  apply Fin.ext
  match a with
  | ⟨0, _⟩ => show win0_0.index t (0 : Fin 3) * 2 + 1 * b.val = B.val; omega
  | ⟨1, _⟩ => show win0_0.index t (1 : Fin 3) * 256 + 1 * r.val = L.val; omega
  | ⟨2, _⟩ => show win0_0.index t (2 : Fin 3) * 2048 + 1 * j.val = j.val; omega

theorem blkR_apply (c : Dev nD) (t : Fin cfg0.N) (b : Fin 2) (r : Fin 256) (j : Fin 2048) (B : Fin 8) (L : Fin 4096)
    (hB : B.val = 2 * (t.val / 16) + b.val) (hL : L.val = 256 * (t.val % 16) + r.val) :
    blkR V c t (ix3 b r j) = arrR V c (ix3 B L j) := by
  obtain ⟨-, -, -, e0, e1, e2⟩ := idx_in t
  show Pool.iblk (F := Ideal) V c 1 t (ix3 b r j) = V c main_arg1 (ix3 B L j)
  unfold Pool.iblk
  rw [View.read_apply]
  show V c main_arg1 _ = V c main_arg1 _
  congr 1
  funext a
  apply Fin.ext
  match a with
  | ⟨0, _⟩ => show win0_1.index t (0 : Fin 3) * 2 + 1 * b.val = B.val; omega
  | ⟨1, _⟩ => show win0_1.index t (1 : Fin 3) * 256 + 1 * r.val = L.val; omega
  | ⟨2, _⟩ => show win0_1.index t (2 : Fin 3) * 2048 + 1 * j.val = j.val; omega

/-! ## The running sums -/

/-- An input as a function of batch, position, feature. -/
abbrev inL (c : Dev nD) : Cert.Spec.Arr3 := fun b l j => arrL V c (ix3 b l j)
abbrev inR (c : Dev nD) : Cert.Spec.Arr3 := fun b l j => arrR V c (ix3 b l j)

/-- A column of an input (batch and feature fixed) as a function of EVERY natural position, wrapped to the 4096
    positions: sums over initial segments of the naturals need no bound proofs. -/
def col (x : Cert.Spec.Arr3) (B : Fin 8) (j : Fin 2048) (l : ℕ) : EReal := x B ⟨l % 4096, Nat.mod_lt _ (by decide)⟩ j

/-- The batch that row b of the scratch stands for at point n: 2·(n / 16) + b (wrapped to the 8 batches). -/
def bat (n : ℕ) (b : Fin 2) : Fin 8 := ⟨(2 * (n / 16) + b.val) % 8, Nat.mod_lt _ (by decide)⟩

theorem bat_val (n : ℕ) (hn : n < cfg0.N) (b : Fin 2) : (bat n b).val = 2 * (n / 16) + b.val := by
  have hN : cfg0.N = 64 := N_0
  show (2 * (n / 16) + b.val) % 8 = _
  omega

/-- The column sum of the left block at point n is the sum of the column over the point's 256 positions. -/
theorem tileL (c : Dev nD) (n : ℕ) (hn : n < cfg0.N) (b : Fin 2) (j : Fin 2048) :
    ∑ k : Fin 256, blkL V c ⟨n, hn⟩ (ix3 b k j)
      = ∑ k ∈ Finset.range 256, col (inL V c) (bat n b) j (256 * (n % 16) + k) := by
  rw [← Fin.sum_univ_eq_sum_range (fun k => col (inL V c) (bat n b) j (256 * (n % 16) + k)) 256]
  refine Finset.sum_congr rfl fun k _ => ?_
  exact blkL_apply V c ⟨n, hn⟩ b k j (bat n b) ⟨(256 * (n % 16) + k.val) % 4096, Nat.mod_lt _ (by decide)⟩
    (bat_val n hn b) (by show (256 * (n % 16) + k.val) % 4096 = 256 * (n % 16) + k.val; omega)

theorem tileR (c : Dev nD) (n : ℕ) (hn : n < cfg0.N) (b : Fin 2) (j : Fin 2048) :
    ∑ k : Fin 256, blkR V c ⟨n, hn⟩ (ix3 b k j)
      = ∑ k ∈ Finset.range 256, col (inR V c) (bat n b) j (256 * (n % 16) + k) := by
  rw [← Fin.sum_univ_eq_sum_range (fun k => col (inR V c) (bat n b) j (256 * (n % 16) + k)) 256]
  refine Finset.sum_congr rfl fun k _ => ?_
  exact blkR_apply V c ⟨n, hn⟩ b k j (bat n b) ⟨(256 * (n % 16) + k.val) % 4096, Nat.mod_lt _ (by decide)⟩
    (bat_val n hn b) (by show (256 * (n % 16) + k.val) % 4096 = 256 * (n % 16) + k.val; omega)

/-- At the first point of a batch pair the rows are the cleared rows plus the point's column sums. -/
theorem accL_reset (c : Dev nD) (n : ℕ) (hn : n < cfg0.N) (h0 : n % 16 = 0) :
    (Pool.acc (F := Ideal) V c n hn).1 = k0_pay3 (k0_pay1 (F := Ideal)) (blkL V c ⟨n, hn⟩) := by
  cases n with
  | zero => rw [Pool.acc]
  | succ m => rw [Pool.acc, if_pos h0]

theorem accR_reset (c : Dev nD) (n : ℕ) (hn : n < cfg0.N) (h0 : n % 16 = 0) :
    (Pool.acc (F := Ideal) V c n hn).2 = k0_pay3 (k0_pay1 (F := Ideal)) (blkR V c ⟨n, hn⟩) := by
  cases n with
  | zero => rw [Pool.acc]; rfl
  | succ m => rw [Pool.acc, if_pos h0]; rfl

/-- At any other point they are the previous point's rows plus the point's column sums. -/
theorem accL_step (c : Dev nD) (n : ℕ) (hn : n + 1 < cfg0.N) (h : ¬(n + 1) % 16 = 0) :
    (Pool.acc (F := Ideal) V c (n + 1) hn).1
      = k0_pay3 (Pool.acc (F := Ideal) V c n (Nat.lt_of_succ_lt hn)).1 (blkL V c ⟨n + 1, hn⟩) := by
  rw [Pool.acc, if_neg h]

theorem accR_step (c : Dev nD) (n : ℕ) (hn : n + 1 < cfg0.N) (h : ¬(n + 1) % 16 = 0) :
    (Pool.acc (F := Ideal) V c (n + 1) hn).2
      = k0_pay3 (Pool.acc (F := Ideal) V c n (Nat.lt_of_succ_lt hn)).2 (blkR V c ⟨n + 1, hn⟩) := by
  rw [Pool.acc, if_neg h]; rfl

/-- THE RUNNING SUM. After point n = 16·bi + k the left scratch row b holds, at feature j, zero plus the sum of the
    left input's column (batch 2·bi + b, feature j) over its first 256·(k + 1) positions. -/
theorem accL_closed (c : Dev nD) : ∀ (n : ℕ) (hn : n < cfg0.N) (b : Fin 2) (r : Fin 1) (j : Fin 2048),
    (Pool.acc (F := Ideal) V c n hn).1 (ix3 b r j)
      = 0 + ∑ l ∈ Finset.range (256 * (n % 16 + 1)), col (inL V c) (bat n b) j l := by
  have reset : ∀ (n : ℕ) (hn : n < cfg0.N), n % 16 = 0 → ∀ (b : Fin 2) (r : Fin 1) (j : Fin 2048),
      (Pool.acc (F := Ideal) V c n hn).1 (ix3 b r j)
        = 0 + ∑ l ∈ Finset.range (256 * (n % 16 + 1)), col (inL V c) (bat n b) j l := by
    intro n hn h0 b r j
    rw [accL_reset V c n hn h0]
    refine (step_row_apply (k0_pay1 (F := Ideal)) (blkL V c ⟨n, hn⟩) b r j).trans ?_
    rw [zero_row_apply, tileL V c n hn b j, h0]
    simp only [Nat.mul_zero, Nat.zero_add, Nat.mul_one]
  intro n
  induction n with
  | zero => exact fun hn => reset 0 hn rfl
  | succ n ih =>
    intro hn b r j
    by_cases h : (n + 1) % 16 = 0
    · exact reset (n + 1) hn h b r j
    · rw [accL_step V c n hn h]
      refine (step_row_apply (Pool.acc (F := Ideal) V c n (Nat.lt_of_succ_lt hn)).1 (blkL V c ⟨n + 1, hn⟩) b r j).trans ?_
      rw [ih (Nat.lt_of_succ_lt hn) b r j, tileL V c (n + 1) hn b j]
      have e1 : (n + 1) % 16 = n % 16 + 1 := by omega
      have e2 : (n + 1) / 16 = n / 16 := by omega
      have eb : bat (n + 1) b = bat n b :=
        Fin.ext (by show (2 * ((n + 1) / 16) + b.val) % 8 = (2 * (n / 16) + b.val) % 8; rw [e2])
      rw [eb, e1, show 256 * (n % 16 + 1 + 1) = 256 * (n % 16 + 1) + 256 by omega, Finset.sum_range_add, add_assoc]

theorem accR_closed (c : Dev nD) : ∀ (n : ℕ) (hn : n < cfg0.N) (b : Fin 2) (r : Fin 1) (j : Fin 2048),
    (Pool.acc (F := Ideal) V c n hn).2 (ix3 b r j)
      = 0 + ∑ l ∈ Finset.range (256 * (n % 16 + 1)), col (inR V c) (bat n b) j l := by
  have reset : ∀ (n : ℕ) (hn : n < cfg0.N), n % 16 = 0 → ∀ (b : Fin 2) (r : Fin 1) (j : Fin 2048),
      (Pool.acc (F := Ideal) V c n hn).2 (ix3 b r j)
        = 0 + ∑ l ∈ Finset.range (256 * (n % 16 + 1)), col (inR V c) (bat n b) j l := by
    intro n hn h0 b r j
    rw [accR_reset V c n hn h0]
    refine (step_row_apply (k0_pay1 (F := Ideal)) (blkR V c ⟨n, hn⟩) b r j).trans ?_
    rw [zero_row_apply, tileR V c n hn b j, h0]
    simp only [Nat.mul_zero, Nat.zero_add, Nat.mul_one]
  intro n
  induction n with
  | zero => exact fun hn => reset 0 hn rfl
  | succ n ih =>
    intro hn b r j
    by_cases h : (n + 1) % 16 = 0
    · exact reset (n + 1) hn h b r j
    · rw [accR_step V c n hn h]
      refine (step_row_apply (Pool.acc (F := Ideal) V c n (Nat.lt_of_succ_lt hn)).2 (blkR V c ⟨n + 1, hn⟩) b r j).trans ?_
      rw [ih (Nat.lt_of_succ_lt hn) b r j, tileR V c (n + 1) hn b j]
      have e1 : (n + 1) % 16 = n % 16 + 1 := by omega
      have e2 : (n + 1) / 16 = n / 16 := by omega
      have eb : bat (n + 1) b = bat n b :=
        Fin.ext (by show (2 * ((n + 1) / 16) + b.val) % 8 = (2 * (n / 16) + b.val) % 8; rw [e2])
      rw [eb, e1, show 256 * (n % 16 + 1 + 1) = 256 * (n % 16 + 1) + 256 by omega, Finset.sum_range_add, add_assoc]

/-! ## From the write-backs to the result arrays -/

/-- The sum of a column over all 4096 naturals below 4096 is the sum over the positions. -/
theorem col_sum_full (x : Cert.Spec.Arr3) (B : Fin 8) (j : Fin 2048) :
    ∑ l ∈ Finset.range 4096, col x B j l = ∑ l : Fin 4096, x B l j := by
  rw [← Fin.sum_univ_eq_sum_range (fun l => col x B j l) 4096]
  refine Finset.sum_congr rfl fun l _ => ?_
  exact congrArg (fun l' => x B l' j) (Fin.ext (Nat.mod_eq_of_lt l.isLt))

/-- What the left result array ends holding: the pooled left input, read at batch and feature. -/
abbrev outL (c : Dev nD) : Buf (Elt Ideal) ((cfg0.win 2).arr.view.loc (c.tc : Thread nD τ)) :=
  fun i => Cert.Spec.pooled (Ideal.ofBits .f32 0x39800000#32) (inL V c) (i 0) (i 2)

abbrev outR (c : Dev nD) : Buf (Elt Ideal) ((cfg0.win 3).arr.view.loc (c.tc : Thread nD τ)) :=
  fun i => Cert.Spec.pooled (Ideal.ofBits .f32 0x39800000#32) (inR V c) (i 0) (i 2)

/-- WHAT A FLUSHING POINT WRITES BACK to the left result: the last point of a batch pair, where the running sum is the
    whole column's, scaled — the block of the pooled input at the pair's two batches. -/
theorem flushedL_eq (c : Dev nD) (t : Fin cfg0.N) (hf : (cfg0.win 2).flush t = true) :
    (Pool.dat (F := Ideal) V c).flushed 2 t = ((cfg0.win 2).blk t).view.read (Elt Ideal) (outL V c) := by
  have h15 : t.val % 16 = 15 := (flush0_2 t).mp hf
  obtain ⟨e0, e1, e2, -, -, -⟩ := idx_out t
  show (cfg0.win 2).cut (cfg0.grid.coords t) ((Pool.dat (F := Ideal) V c).after 2 t) = _
  rw [Pool.after_2]
  show (fun y : S2x1x2048.Idx => k0_pay5 (Pool.acc (F := Ideal) V c t.val t.isLt).1 y)
    = (fun y : S2x1x2048.Idx => outL V c (((cfg0.win 2).blk t).view.emb y))
  funext y
  obtain ⟨b, r, j, rfl⟩ : ∃ (b : Fin 2) (r : Fin 1) (j : Fin 2048), y = ix3 b r j := ⟨y 0, y 1, y 2, eq_ix3 y⟩
  have hemb : ((cfg0.win 2).blk t).view.emb (ix3 b r j) = (ix3 (bat t.val b) 0 j : S8x1x2048.Idx) := by
    funext a
    apply Fin.ext
    match a with
    | ⟨0, _⟩ => show win0_2.index t (0 : Fin 3) * 2 + 1 * b.val = (bat t.val b).val; rw [bat_val t.val t.isLt b]; omega
    | ⟨1, _⟩ => show win0_2.index t (1 : Fin 3) * 1 + 1 * r.val = 0; omega
    | ⟨2, _⟩ => show win0_2.index t (2 : Fin 3) * 2048 + 1 * j.val = j.val; omega
  rw [hemb]
  refine (scaled_row_apply (Pool.acc (F := Ideal) V c t.val t.isLt).1 b r j).trans ?_
  rw [accL_closed V c t.val t.isLt b r j, h15, zero_add]
  show (∑ l ∈ Finset.range 4096, col (inL V c) (bat t.val b) j l) * Ideal.ofBits .f32 0x39800000#32
    = (∑ l : Fin 4096, inL V c (bat t.val b) l j) * Ideal.ofBits .f32 0x39800000#32
  rw [col_sum_full]

theorem flushedR_eq (c : Dev nD) (t : Fin cfg0.N) (hf : (cfg0.win 3).flush t = true) :
    (Pool.dat (F := Ideal) V c).flushed 3 t = ((cfg0.win 3).blk t).view.read (Elt Ideal) (outR V c) := by
  have h15 : t.val % 16 = 15 := (flush0_3 t).mp hf
  obtain ⟨-, -, -, e0, e1, e2⟩ := idx_out t
  show (cfg0.win 3).cut (cfg0.grid.coords t) ((Pool.dat (F := Ideal) V c).after 3 t) = _
  rw [Pool.after_3]
  show (fun y : S2x1x2048.Idx => k0_pay5 (Pool.acc (F := Ideal) V c t.val t.isLt).2 y)
    = (fun y : S2x1x2048.Idx => outR V c (((cfg0.win 3).blk t).view.emb y))
  funext y
  obtain ⟨b, r, j, rfl⟩ : ∃ (b : Fin 2) (r : Fin 1) (j : Fin 2048), y = ix3 b r j := ⟨y 0, y 1, y 2, eq_ix3 y⟩
  have hemb : ((cfg0.win 3).blk t).view.emb (ix3 b r j) = (ix3 (bat t.val b) 0 j : S8x1x2048.Idx) := by
    funext a
    apply Fin.ext
    match a with
    | ⟨0, _⟩ => show win0_3.index t (0 : Fin 3) * 2 + 1 * b.val = (bat t.val b).val; rw [bat_val t.val t.isLt b]; omega
    | ⟨1, _⟩ => show win0_3.index t (1 : Fin 3) * 1 + 1 * r.val = 0; omega
    | ⟨2, _⟩ => show win0_3.index t (2 : Fin 3) * 2048 + 1 * j.val = j.val; omega
  rw [hemb]
  refine (scaled_row_apply (Pool.acc (F := Ideal) V c t.val t.isLt).2 b r j).trans ?_
  rw [accR_closed V c t.val t.isLt b r j, h15, zero_add]
  show (∑ l ∈ Finset.range 4096, col (inR V c) (bat t.val b) j l) * Ideal.ofBits .f32 0x39800000#32
    = (∑ l : Fin 4096, inR V c (bat t.val b) l j) * Ideal.ofBits .f32 0x39800000#32
  rw [col_sum_full]

/-- An index of a result array is in point t's block iff each coordinate is in the block's range on its axis. -/
theorem mem_blkL (t : Fin cfg0.N) (i : S8x1x2048.Idx) :
    i ∈ ((cfg0.win 2).blk t).view.set ↔ ∀ a : Fin 3, win0_2.index t a * S2x1x2048.size a ≤ (i a).val
      ∧ (i a).val < win0_2.index t a * S2x1x2048.size a + S2x1x2048.size a := by
  show i ∈ ((View.whole main_v0_0).slice (win0_2.rect t)).set ↔ _
  rw [View.set_slice_whole, Rect.mem_set_unit]
  exact Iff.rfl

theorem mem_blkR (t : Fin cfg0.N) (i : S8x1x2048.Idx) :
    i ∈ ((cfg0.win 3).blk t).view.set ↔ ∀ a : Fin 3, win0_3.index t a * S2x1x2048.size a ≤ (i a).val
      ∧ (i a).val < win0_3.index t a * S2x1x2048.size a + S2x1x2048.size a := by
  show i ∈ ((View.whole main_v0_1).slice (win0_3.rect t)).set ↔ _
  rw [View.set_slice_whole, Rect.mem_set_unit]
  exact Iff.rfl

/-- THE COVER: batch B of a result array is written by the last point of its batch pair, point 16·(B / 2) + 15. -/
theorem coverL (i : S8x1x2048.Idx) :
    ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 2048 := (i 2).isLt
  have hN : cfg0.N = 64 := N_0
  obtain ⟨t, tv⟩ : ∃ t : Fin cfg0.N, t.val = 16 * ((i 0).val / 2) + 15 := ⟨⟨16 * ((i 0).val / 2) + 15, by omega⟩, rfl⟩
  obtain ⟨e0, e1, e2, -, -, -⟩ := idx_out t
  refine ⟨t, (flush0_2 t).mpr (by omega), ?_⟩
  rw [mem_blkL]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 1 ≤ (i 1).val ∧ (i 1).val < win0_2.index t (1 : Fin 3) * 1 + 1; omega
  | ⟨2, _⟩ => show win0_2.index t (2 : Fin 3) * 2048 ≤ (i 2).val ∧ (i 2).val < win0_2.index t (2 : Fin 3) * 2048 + 2048; omega

theorem coverR (i : S8x1x2048.Idx) :
    ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 2048 := (i 2).isLt
  have hN : cfg0.N = 64 := N_0
  obtain ⟨t, tv⟩ : ∃ t : Fin cfg0.N, t.val = 16 * ((i 0).val / 2) + 15 := ⟨⟨16 * ((i 0).val / 2) + 15, by omega⟩, rfl⟩
  obtain ⟨-, -, -, e0, e1, e2⟩ := idx_out t
  refine ⟨t, (flush0_3 t).mpr (by omega), ?_⟩
  rw [mem_blkR]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 1 ≤ (i 1).val ∧ (i 1).val < win0_3.index t (1 : Fin 3) * 1 + 1; omega
  | ⟨2, _⟩ => show win0_3.index t (2 : Fin 3) * 2048 ≤ (i 2).val ∧ (i 2).val < win0_3.index t (2 : Fin 3) * 2048 + 2048; omega

/-- THE LEFT RESULT after the first launch: the left input summed over its positions, times the literal. -/
theorem pooled_left (c : Dev nD) :
    (Pool.dat (F := Ideal) V c).arrAt 2 cfg0.N
      = fun i => Cert.Spec.pooled (Ideal.ofBits .f32 0x39800000#32) (fun b l j => V c main_arg0 (ix3 b l j)) (i 0) (i 2) :=
  (Pool.dat (F := Ideal) V c).arrAt_eq_of_cover 2 (outL V c) (fun t hf => flushedL_eq V c t hf) coverL

/-- THE RIGHT RESULT after the first launch: the right input summed over its positions, times the literal. -/
theorem pooled_right (c : Dev nD) :
    (Pool.dat (F := Ideal) V c).arrAt 3 cfg0.N
      = fun i => Cert.Spec.pooled (Ideal.ofBits .f32 0x39800000#32) (fun b l j => V c main_arg1 (ix3 b l j)) (i 0) (i 2) :=
  (Pool.dat (F := Ideal) V c).arrAt_eq_of_cover 3 (outR V c) (fun t hf => flushedR_eq V c t hf) coverR

end Cert.KernelIdeal.PoolValue

end
-- ==== Proof.NormValue.lean ====
/-
  The value of the second launch over the extended reals: what it leaves in its result array, as one function of its
  six operand arrays.

  Each of the 4 × 32 points stores a block of 2 batches × 128 rows × 2048 features computed from the same block of the
  two inputs, the two batches' gate and bias rows, and the scale and shift rows. Entry (p, r, j) of what a point stores
  depends only on row (p, r) of the two input blocks and on those rows: x = (1 − a) · xl + a · xr + bias, the row's mean
  μ = (Σ x) / n, the deviation d = x − μ, the mean squared deviation (Σ d · d) / n, and d · rsqrt(var + ε) · γ + β, with
  n and ε the body's literals (kept as words). The module reads the body's arithmetic at an entry (the broadcasts and
  the keep-dimension cast read at coordinates, a lane sum as a plain sum), names the row function `rowOut`, shows the
  specification's `layerNorm ∘ mixed` is the same row function, reads each operand block as the array at the block's
  index times the block's size plus the coordinate inside the block, and covers the array with the 128 blocks. No
  finiteness is used: the statement is an identity of extended-real expressions, the same operations in the same order.
-/
import proofs.«140230_j55336358642849_1_alg».proof.Proof.NormFrame
import proofs.«140230_j55336358642849_1_alg».proof.Proof.Spec
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.NormValue

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

/-! ## Layout operations of this kernel read at an index given by coordinates -/

section Layout
variable {α : Type}

/-- An `[a, 1, c]` array broadcast to `[a, b, c]` reads, at `(p, r, j)`, the operand's one row of batch `p` at `j`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (r : Fin b) (j : Fin c) :
    broadcastTo ⟨3, ![a, b, c]⟩ v h (ix3 p r j) = v (ix3 p (0 : Fin 1) j) := by
  refine broadcastTo_apply v h (ix3 p r j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if c = 1 then 0 else j.val
    split
    · have := j.isLt; omega
    · rfl

/-- A `[1, 1, c]` array broadcast to `[a, b, c]` reads, at `(p, r, j)`, the operand's one row at `j`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (r : Fin b) (j : Fin c) :
    broadcastTo ⟨3, ![a, b, c]⟩ v h (ix3 p r j) = v (ix3 (0 : Fin 1) (0 : Fin 1) j) := by
  refine broadcastTo_apply v h (ix3 p r j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- An `[a, b, 1]` array (one value per row) broadcast to `[a, b, c]` reads, at `(p, r, j)`, row `(p, r)`'s value. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (r : Fin b) (j : Fin c) :
    broadcastTo ⟨3, ![a, b, c]⟩ v h (ix3 p r j) = v (ix3 p r (0 : Fin 1)) := by
  refine broadcastTo_apply v h (ix3 p r j) (ix3 p r (0 : Fin 1)) fun ax => ?_
  match ax with
  | ⟨0, _⟩ =>
    show p.val = if a = 1 then 0 else p.val
    split
    · have := p.isLt; omega
    · rfl
  | ⟨1, _⟩ =>
    show r.val = if b = 1 then 0 else r.val
    split
    · have := r.isLt; omega
    · rfl
  | ⟨2, _⟩ => rfl

/-- An `[a, b]` array cast to `[a, b, 1]` (a trailing unit axis added) reads, at `(p, r, u)`, the operand at `(p, r)`. -/
theorem shapeCast_ab_ab1_apply {a b : ℕ} (x : (⟨2, ![a, b]⟩ : Shape).Idx → α)
    (h : (⟨2, ![a, b]⟩ : Shape).ShapeCasts ⟨3, ![a, b, 1]⟩) (p : Fin a) (r : Fin b) (u : Fin 1) :
    shapeCast ⟨3, ![a, b, 1]⟩ x h (ix3 p r u) = x (ix2 p r) :=
  shapeCast_apply x h _ _ (by
    have hu : u.val = 0 := by omega
    rw [Shape.rowMajor_val_three, Shape.rowMajor_val_two]
    show p.val * b + r.val = (p.val * b + r.val) * 1 + u.val
    rw [hu, Nat.mul_one, Nat.add_zero])

end Layout

/-- Each row's sum over the 2048 features, one value per row `(p, r)` of a block. -/
def rowSumBlk (x : FVec Ideal S2x128x2048 .f32) : FVec Ideal S2x128 .f32 :=
  multiReduction .add [2] S2x128 x 0x00000000#32 reduces_S2x128x2048_S2x128 (.inl rfl) rfl

/-- Read at row `(p, r)` it is the plain sum of the row's entries (the accumulator word is the sum's neutral element). -/
theorem rowSumBlk_apply (x : FVec Ideal S2x128x2048 .f32) (p : Fin 2) (r : Fin 128) :
    rowSumBlk x (ix2 p r) = ∑ k : Fin 2048, x (ix3 p r k) := by
  refine (Ideal.multiReduction_add_single x _ reduces_S2x128x2048_S2x128 (.inl rfl) rfl (ix2 p r)).trans ?_
  refine Finset.sum_congr rfl fun k _ => congrArg x ?_
  funext ax
  match ax with
  | ⟨0, _⟩ => rfl
  | ⟨1, _⟩ => rfl
  | ⟨2, _⟩ => rfl

/-! ## The body's arithmetic at an entry of the block -/

/-- The reciprocal square root of a vector, at an index, is that of the element. -/
theorem rsqrt_apply {s : Shape} {φ : FTy} (x : FVec Ideal s φ) (i : s.Idx) : rsqrt x i = Ideal.rsqrt (x i) := rfl

/-- The gated mix of the two input blocks plus the bias, gate and bias rows spread over the block's 128 rows. -/
def mixBlk (xl xr : Vec Ideal S2x128x2048 .f32) (a b : Vec Ideal S2x1x2048 .f32) : FVec Ideal S2x128x2048 .f32 :=
  addf (addf (mulf (broadcastTo S2x128x2048 (subf (broadcast S2x1x2048 (Scalar.ofBits .f32 0x3F800000#32))
        (shapeCast S2x1x2048 a shapeCasts_S2x1x2048_S2x1x2048)) broadcasts_S2x1x2048_S2x128x2048) xl)
      (mulf (broadcastTo S2x128x2048 (shapeCast S2x1x2048 a shapeCasts_S2x1x2048_S2x1x2048) broadcasts_S2x1x2048_S2x128x2048) xr))
    (broadcastTo S2x128x2048 (shapeCast S2x1x2048 b shapeCasts_S2x1x2048_S2x1x2048) broadcasts_S2x1x2048_S2x128x2048)

/-- The mix at entry `(p, r, j)`: gate and bias of batch `p` at feature `j`. -/
theorem mixBlk_apply (xl xr : Vec Ideal S2x128x2048 .f32) (a b : Vec Ideal S2x1x2048 .f32) (p : Fin 2) (r : Fin 128) (j : Fin 2048) :
    mixBlk xl xr a b (ix3 p r j)
      = (Ideal.ofBits .f32 0x3F800000#32 - a (ix3 p (0 : Fin 1) j)) * xl (ix3 p r j) + a (ix3 p (0 : Fin 1) j) * xr (ix3 p r j)
        + b (ix3 p (0 : Fin 1) j) := by
  unfold mixBlk
  simp only [addf_apply, mulf_apply, subf_apply, broadcast_apply, shapeCast_self, broadcastTo_a1c_abc_apply]
  rfl

/-- Each row's sum over the features divided by the feature count, one value per row. -/
def rowMeanBlk (x : FVec Ideal S2x128x2048 .f32) : FVec Ideal S2x128x1 .f32 :=
  divf (shapeCast S2x128x1 (rowSumBlk x) shapeCasts_S2x128_S2x128x1)
    (broadcast S2x128x1 (Scalar.ofBits .f32 0x45000000#32))

/-- A block less its rows' means. -/
def devBlk (x : FVec Ideal S2x128x2048 .f32) : FVec Ideal S2x128x2048 .f32 :=
  subf x (broadcastTo S2x128x2048 (rowMeanBlk x) broadcasts_S2x128x1_S2x128x2048)

/-- A block normalised row by row and scaled by the scale row. -/
def normBlk (x : FVec Ideal S2x128x2048 .f32) (g : Vec Ideal S1x1x2048 .f32) : FVec Ideal S2x128x2048 .f32 :=
  mulf (mulf (devBlk x)
      (broadcastTo S2x128x2048 (rsqrt (addf (rowMeanBlk (mulf (devBlk x) (devBlk x))) (broadcast S2x128x1 (Scalar.ofBits .f32 0x3727C5AC#32))))
        broadcasts_S2x128x1_S2x128x2048))
    (broadcastTo S2x128x2048 (shapeCast S1x1x2048 g shapeCasts_S1x1x2048_S1x1x2048) broadcasts_S1x1x2048_S2x128x2048)

/-- The body's first payload is the normalised, scaled mix. -/
theorem pay2_eq (xl xr : Vec Ideal S2x128x2048 .f32) (a b : Vec Ideal S2x1x2048 .f32) (g : Vec Ideal S1x1x2048 .f32) :
    k1_pay2 xl xr a b g = normBlk (mixBlk xl xr a b) g := rfl

/-- The body's second payload adds the shift row. -/
theorem pay1_eq (y : FVec Ideal S2x128x2048 .f32) (be : Vec Ideal S1x1x2048 .f32) :
    k1_pay1 y be = addf y (broadcastTo S2x128x2048 (shapeCast S1x1x2048 be shapeCasts_S1x1x2048_S1x1x2048) broadcasts_S1x1x2048_S2x128x2048) := rfl

/-- A row's mean at `(p, r)`. -/
theorem rowMeanBlk_apply (x : FVec Ideal S2x128x2048 .f32) (p : Fin 2) (r : Fin 128) (u : Fin 1) :
    rowMeanBlk x (ix3 p r u) = Ideal.div (∑ k : Fin 2048, x (ix3 p r k)) (Ideal.ofBits .f32 0x45000000#32) := by
  unfold rowMeanBlk
  simp only [divf_apply, broadcast_apply, shapeCast_ab_ab1_apply, rowSumBlk_apply]
  rfl

/-- A deviation at `(p, r, j)`. -/
theorem devBlk_apply (x : FVec Ideal S2x128x2048 .f32) (p : Fin 2) (r : Fin 128) (j : Fin 2048) :
    devBlk x (ix3 p r j) = x (ix3 p r j) - Ideal.div (∑ k : Fin 2048, x (ix3 p r k)) (Ideal.ofBits .f32 0x45000000#32) := by
  unfold devBlk
  simp only [subf_apply, broadcastTo_ab1_abc_apply, rowMeanBlk_apply]

/-- A normalised, scaled entry at `(p, r, j)`: the deviation times the reciprocal square root of the row's mean
    squared deviation plus the literal, times the scale at `j`. -/
theorem normBlk_apply (x : FVec Ideal S2x128x2048 .f32) (g : Vec Ideal S1x1x2048 .f32) (p : Fin 2) (r : Fin 128) (j : Fin 2048) :
    normBlk x g (ix3 p r j)
      = (x (ix3 p r j) - Ideal.div (∑ k : Fin 2048, x (ix3 p r k)) (Ideal.ofBits .f32 0x45000000#32))
          * Ideal.rsqrt (Ideal.div (∑ k : Fin 2048,
                (x (ix3 p r k) - Ideal.div (∑ k' : Fin 2048, x (ix3 p r k')) (Ideal.ofBits .f32 0x45000000#32))
                  * (x (ix3 p r k) - Ideal.div (∑ k' : Fin 2048, x (ix3 p r k')) (Ideal.ofBits .f32 0x45000000#32)))
              (Ideal.ofBits .f32 0x45000000#32) + Ideal.ofBits .f32 0x3727C5AC#32)
          * g (ix3 (0 : Fin 1) (0 : Fin 1) j) := by
  unfold normBlk
  simp only [mulf_apply, addf_apply, rsqrt_apply, broadcast_apply, shapeCast_self, broadcastTo_ab1_abc_apply,
    broadcastTo_11c_abc_apply, rowMeanBlk_apply, devBlk_apply]
  rfl

/-! ## One row of the result as a function of the rows it depends on -/

/-- Entry `j` of a normalised row: from the row's two inputs, its batch's gate and bias rows, and the scale and shift
    rows, the operations in the body's order. -/
def rowOut (xl xr a b g be : Fin 2048 → EReal) (j : Fin 2048) : EReal :=
  ((Ideal.ofBits .f32 0x3F800000#32 - a j) * xl j + a j * xr j + b j
      - Ideal.div (∑ k : Fin 2048, ((Ideal.ofBits .f32 0x3F800000#32 - a k) * xl k + a k * xr k + b k)) (Ideal.ofBits .f32 0x45000000#32))
    * Ideal.rsqrt (Ideal.div (∑ k : Fin 2048,
          ((Ideal.ofBits .f32 0x3F800000#32 - a k) * xl k + a k * xr k + b k
              - Ideal.div (∑ k' : Fin 2048, ((Ideal.ofBits .f32 0x3F800000#32 - a k') * xl k' + a k' * xr k' + b k')) (Ideal.ofBits .f32 0x45000000#32))
            * ((Ideal.ofBits .f32 0x3F800000#32 - a k) * xl k + a k * xr k + b k
              - Ideal.div (∑ k' : Fin 2048, ((Ideal.ofBits .f32 0x3F800000#32 - a k') * xl k' + a k' * xr k' + b k')) (Ideal.ofBits .f32 0x45000000#32)))
        (Ideal.ofBits .f32 0x45000000#32) + Ideal.ofBits .f32 0x3727C5AC#32)
    * g j + be j

/-- What a point stores, at entry `(p, r, j)` of its block: `rowOut` of row `(p, r)` of the two input blocks, row `p`
    of the gate and bias blocks, and the scale and shift rows. -/
theorem out_apply (xl xr : Vec Ideal S2x128x2048 .f32) (a b : Vec Ideal S2x1x2048 .f32) (g be : Vec Ideal S1x1x2048 .f32)
    (p : Fin 2) (r : Fin 128) (j : Fin 2048) :
    Norm.out xl xr a b g be (ix3 p r j)
      = rowOut (fun k => xl (ix3 p r k)) (fun k => xr (ix3 p r k)) (fun k => a (ix3 p (0 : Fin 1) k)) (fun k => b (ix3 p (0 : Fin 1) k))
          (fun k => g (ix3 (0 : Fin 1) (0 : Fin 1) k)) (fun k => be (ix3 (0 : Fin 1) (0 : Fin 1) k)) j := by
  unfold Norm.out
  rw [pay1_eq, pay2_eq]
  simp only [addf_apply, shapeCast_self, broadcastTo_11c_abc_apply, normBlk_apply, mixBlk_apply]
  rfl

/-- The specification's entry `(b, l, j)` is `rowOut` of row `(b, l)` of the inputs, row `b` of gate and bias, and
    the scale and shift rows. -/
theorem layerNorm_mixed_apply (xl xr : Cert.Spec.Arr3) (a bias : Cert.Spec.Arr2) (γ β : Fin 2048 → EReal)
    (b : Fin 8) (l : Fin 4096) (j : Fin 2048) :
    Cert.Spec.layerNorm (Ideal.ofBits .f32 0x45000000#32) (Ideal.ofBits .f32 0x3727C5AC#32)
        (Cert.Spec.mixed (Ideal.ofBits .f32 0x3F800000#32) xl xr a bias) γ β b l j
      = rowOut (fun k => xl b l k) (fun k => xr b l k) (fun k => a b k) (fun k => bias b k) γ β j := rfl

/-! ## From blocks to the array -/

section Blocks

variable (V : (c : Dev nD) → (b : Ref sig .tc) → Buf (Elt Ideal) ((c : Thread nD τ).loc b))

/-- The printed index maps over the 128 points: point `t` is at batch pair `t / 32` and row block `t % 32`; the two
    inputs and the result move with both, gate and bias with the batch pair only, scale and shift not at all. -/
theorem idx_facts : ∀ t : Fin cfg1.N,
    (win1_0.index t (0 : Fin 3) = t.val / 32 ∧ win1_0.index t (1 : Fin 3) = t.val % 32 ∧ win1_0.index t (2 : Fin 3) = 0)
    ∧ (win1_1.index t (0 : Fin 3) = t.val / 32 ∧ win1_1.index t (1 : Fin 3) = t.val % 32 ∧ win1_1.index t (2 : Fin 3) = 0)
    ∧ (win1_2.index t (0 : Fin 3) = t.val / 32 ∧ win1_2.index t (1 : Fin 3) = 0 ∧ win1_2.index t (2 : Fin 3) = 0)
    ∧ (win1_3.index t (0 : Fin 3) = t.val / 32 ∧ win1_3.index t (1 : Fin 3) = 0 ∧ win1_3.index t (2 : Fin 3) = 0)
    ∧ (win1_4.index t (0 : Fin 3) = 0 ∧ win1_4.index t (1 : Fin 3) = 0 ∧ win1_4.index t (2 : Fin 3) = 0)
    ∧ (win1_5.index t (0 : Fin 3) = 0 ∧ win1_5.index t (1 : Fin 3) = 0 ∧ win1_5.index t (2 : Fin 3) = 0)
    ∧ (win1_6.index t (0 : Fin 3) = t.val / 32 ∧ win1_6.index t (1 : Fin 3) = t.val % 32 ∧ win1_6.index t (2 : Fin 3) = 0) :=
  (by decide +kernel : ∀ t : Fin grid1.N, _)

/-- The left input's block at point `t` is the array at rows `(2 (t / 32) + ·, 128 (t % 32) + ·)`. -/
theorem iblk0_apply (c : Dev nD) (t : Fin cfg1.N) (x : S2x128x2048.Idx) (k : S8x4096x2048.Idx)
    (hk0 : (k 0).val = 2 * (t.val / 32) + (x 0).val) (hk1 : (k 1).val = 128 * (t.val % 32) + (x 1).val)
    (hk2 : (k 2).val = (x 2).val) :
    (Norm.iblk V c 0 t : Vec Ideal S2x128x2048 .f32) x = (V c main_arg0 : S8x4096x2048.Idx → EReal) k := by
  obtain ⟨⟨e0, e1, e2⟩, -⟩ := idx_facts t
  unfold Norm.iblk
  rw [View.read_apply]
  show V c main_arg0 _ = V c main_arg0 _
  congr 1
  funext a
  apply Fin.ext
  match a with
  | ⟨0, _⟩ => show win1_0.index t (0 : Fin 3) * 2 + 1 * (x 0).val = (k 0).val; rw [e0, hk0]; omega
  | ⟨1, _⟩ => show win1_0.index t (1 : Fin 3) * 128 + 1 * (x 1).val = (k 1).val; rw [e1, hk1]; omega
  | ⟨2, _⟩ => show win1_0.index t (2 : Fin 3) * 2048 + 1 * (x 2).val = (k 2).val; rw [e2, hk2]; omega

/-- The right input's block likewise. -/
theorem iblk1_apply (c : Dev nD) (t : Fin cfg1.N) (x : S2x128x2048.Idx) (k : S8x4096x2048.Idx)
    (hk0 : (k 0).val = 2 * (t.val / 32) + (x 0).val) (hk1 : (k 1).val = 128 * (t.val % 32) + (x 1).val)
    (hk2 : (k 2).val = (x 2).val) :
    (Norm.iblk V c 1 t : Vec Ideal S2x128x2048 .f32) x = (V c main_arg1 : S8x4096x2048.Idx → EReal) k := by
  obtain ⟨-, ⟨e0, e1, e2⟩, -⟩ := idx_facts t
  unfold Norm.iblk
  rw [View.read_apply]
  show V c main_arg1 _ = V c main_arg1 _
  congr 1
  funext a
  apply Fin.ext
  match a with
  | ⟨0, _⟩ => show win1_1.index t (0 : Fin 3) * 2 + 1 * (x 0).val = (k 0).val; rw [e0, hk0]; omega
  | ⟨1, _⟩ => show win1_1.index t (1 : Fin 3) * 128 + 1 * (x 1).val = (k 1).val; rw [e1, hk1]; omega
  | ⟨2, _⟩ => show win1_1.index t (2 : Fin 3) * 2048 + 1 * (x 2).val = (k 2).val; rw [e2, hk2]; omega

/-- The gate's block at point `t` is the gate array at batches `2 (t / 32) + ·`. -/
theorem iblk2_apply (c : Dev nD) (t : Fin cfg1.N) (x : S2x1x2048.Idx) (k : S8x1x2048.Idx)
    (hk0 : (k 0).val = 2 * (t.val / 32) + (x 0).val) (hk2 : (k 2).val = (x 2).val) :
    (Norm.iblk V c 2 t : Vec Ideal S2x1x2048 .f32) x = (V c main_v43 : S8x1x2048.Idx → EReal) k := by
  obtain ⟨-, -, ⟨e0, e1, e2⟩, -⟩ := idx_facts t
  have hx1 : (x 1).val < 1 := (x 1).isLt
  have hk1 : (k 1).val < 1 := (k 1).isLt
  unfold Norm.iblk
  rw [View.read_apply]
  show V c main_v43 _ = V c main_v43 _
  congr 1
  funext a
  apply Fin.ext
  match a with
  | ⟨0, _⟩ => show win1_2.index t (0 : Fin 3) * 2 + 1 * (x 0).val = (k 0).val; rw [e0, hk0]; omega
  | ⟨1, _⟩ => show win1_2.index t (1 : Fin 3) * 1 + 1 * (x 1).val = (k 1).val; rw [e1]; omega
  | ⟨2, _⟩ => show win1_2.index t (2 : Fin 3) * 2048 + 1 * (x 2).val = (k 2).val; rw [e2, hk2]; omega

/-- The bias's block likewise. -/
theorem iblk3_apply (c : Dev nD) (t : Fin cfg1.N) (x : S2x1x2048.Idx) (k : S8x1x2048.Idx)
    (hk0 : (k 0).val = 2 * (t.val / 32) + (x 0).val) (hk2 : (k 2).val = (x 2).val) :
    (Norm.iblk V c 3 t : Vec Ideal S2x1x2048 .f32) x = (V c main_v44 : S8x1x2048.Idx → EReal) k := by
  obtain ⟨-, -, -, ⟨e0, e1, e2⟩, -⟩ := idx_facts t
  have hx1 : (x 1).val < 1 := (x 1).isLt
  have hk1 : (k 1).val < 1 := (k 1).isLt
  unfold Norm.iblk
  rw [View.read_apply]
  show V c main_v44 _ = V c main_v44 _
  congr 1
  funext a
  apply Fin.ext
  match a with
  | ⟨0, _⟩ => show win1_3.index t (0 : Fin 3) * 2 + 1 * (x 0).val = (k 0).val; rw [e0, hk0]; omega
  | ⟨1, _⟩ => show win1_3.index t (1 : Fin 3) * 1 + 1 * (x 1).val = (k 1).val; rw [e1]; omega
  | ⟨2, _⟩ => show win1_3.index t (2 : Fin 3) * 2048 + 1 * (x 2).val = (k 2).val; rw [e2, hk2]; omega

/-- The scale's block at every point is the whole scale array. -/
theorem iblk4_apply (c : Dev nD) (t : Fin cfg1.N) (x : S1x1x2048.Idx) :
    (Norm.iblk V c 4 t : Vec Ideal S1x1x2048 .f32) x = (V c main_v45 : S1x1x2048.Idx → EReal) x := by
  obtain ⟨-, -, -, -, ⟨e0, e1, e2⟩, -⟩ := idx_facts t
  unfold Norm.iblk
  rw [View.read_apply]
  show V c main_v45 _ = V c main_v45 _
  congr 1
  funext a
  apply Fin.ext
  match a with
  | ⟨0, _⟩ => show win1_4.index t (0 : Fin 3) * 1 + 1 * (x 0).val = (x 0).val; rw [e0]; omega
  | ⟨1, _⟩ => show win1_4.index t (1 : Fin 3) * 1 + 1 * (x 1).val = (x 1).val; rw [e1]; omega
  | ⟨2, _⟩ => show win1_4.index t (2 : Fin 3) * 2048 + 1 * (x 2).val = (x 2).val; rw [e2]; omega

/-- The shift's block likewise. -/
theorem iblk5_apply (c : Dev nD) (t : Fin cfg1.N) (x : S1x1x2048.Idx) :
    (Norm.iblk V c 5 t : Vec Ideal S1x1x2048 .f32) x = (V c main_v46 : S1x1x2048.Idx → EReal) x := by
  obtain ⟨-, -, -, -, -, ⟨e0, e1, e2⟩, -⟩ := idx_facts t
  unfold Norm.iblk
  rw [View.read_apply]
  show V c main_v46 _ = V c main_v46 _
  congr 1
  funext a
  apply Fin.ext
  match a with
  | ⟨0, _⟩ => show win1_5.index t (0 : Fin 3) * 1 + 1 * (x 0).val = (x 0).val; rw [e0]; omega
  | ⟨1, _⟩ => show win1_5.index t (1 : Fin 3) * 1 + 1 * (x 1).val = (x 1).val; rw [e1]; omega
  | ⟨2, _⟩ => show win1_5.index t (2 : Fin 3) * 2048 + 1 * (x 2).val = (x 2).val; rw [e2]; omega

/-- The result array as one function of the six operand arrays: the specification's normalised mix. -/
def result (c : Dev nD) : S8x4096x2048.Idx → EReal := fun i =>
  Cert.Spec.layerNorm (Ideal.ofBits .f32 0x45000000#32) (Ideal.ofBits .f32 0x3727C5AC#32)
    (Cert.Spec.mixed (Ideal.ofBits .f32 0x3F800000#32) (fun b l j => V c main_arg0 (ix3 b l j)) (fun b l j => V c main_arg1 (ix3 b l j))
      (fun b j => V c main_v43 (ix3 b 0 j)) (fun b j => V c main_v44 (ix3 b 0 j)))
    (fun j => V c main_v45 (ix3 0 0 j)) (fun j => V c main_v46 (ix3 0 0 j)) (i 0) (i 1) (i 2)

/-- `rowOut` of equal rows. -/
theorem rowOut_congr {xl xl' xr xr' a a' b b' g g' be be' : Fin 2048 → EReal} (h0 : xl = xl') (h1 : xr = xr') (h2 : a = a')
    (h3 : b = b') (h4 : g = g') (h5 : be = be') (j : Fin 2048) : rowOut xl xr a b g be j = rowOut xl' xr' a' b' g' be' j := by
  subst h0 h1 h2 h3 h4 h5; rfl

/-- What point `t` stores at entry `y` of its block is the result at the array index under it. -/
theorem out_eq_result_at (c : Dev nD) (t : Fin cfg1.N) (y : S2x128x2048.Idx) (i : S8x4096x2048.Idx)
    (hi0 : (i 0).val = 2 * (t.val / 32) + (y 0).val) (hi1 : (i 1).val = 128 * (t.val % 32) + (y 1).val)
    (hi2 : (i 2).val = (y 2).val) :
    Norm.out (Norm.iblk V c 0 t) (Norm.iblk V c 1 t) (Norm.iblk V c 2 t) (Norm.iblk V c 3 t) (Norm.iblk V c 4 t) (Norm.iblk V c 5 t) y
      = result V c i := by
  obtain ⟨p, r, j, rfl⟩ : ∃ (p : Fin 2) (r : Fin 128) (j : Fin 2048), y = ix3 p r j := ⟨y 0, y 1, y 2, eq_ix3 y⟩
  obtain ⟨b, l, j', rfl⟩ : ∃ (b : Fin 8) (l : Fin 4096) (j' : Fin 2048), i = ix3 b l j' := ⟨i 0, i 1, i 2, eq_ix3 i⟩
  obtain rfl : j' = j := Fin.ext hi2
  refine (out_apply (Norm.iblk V c 0 t) (Norm.iblk V c 1 t) (Norm.iblk V c 2 t) (Norm.iblk V c 3 t) (Norm.iblk V c 4 t)
    (Norm.iblk V c 5 t) p r j').trans ?_
  refine Eq.trans ?_ (layerNorm_mixed_apply (fun b l j => V c main_arg0 (ix3 b l j)) (fun b l j => V c main_arg1 (ix3 b l j))
      (fun b j => V c main_v43 (ix3 b 0 j)) (fun b j => V c main_v44 (ix3 b 0 j))
      (fun j => V c main_v45 (ix3 0 0 j)) (fun j => V c main_v46 (ix3 0 0 j)) b l j').symm
  exact rowOut_congr
    (funext fun k => iblk0_apply V c t (ix3 p r k) (ix3 b l k) hi0 hi1 rfl)
    (funext fun k => iblk1_apply V c t (ix3 p r k) (ix3 b l k) hi0 hi1 rfl)
    (funext fun k => iblk2_apply V c t (ix3 p (0 : Fin 1) k) (ix3 b (0 : Fin 1) k) hi0 rfl)
    (funext fun k => iblk3_apply V c t (ix3 p (0 : Fin 1) k) (ix3 b (0 : Fin 1) k) hi0 rfl)
    (funext fun k => iblk4_apply V c t (ix3 (0 : Fin 1) (0 : Fin 1) k))
    (funext fun k => iblk5_apply V c t (ix3 (0 : Fin 1) (0 : Fin 1) k)) j'

/-- What point `t` writes back is block `t` of `result`: an entry of the block sits in the array at the block's index
    times the block's size plus its own coordinate. -/
theorem flushed_eq (c : Dev nD) (t : Fin cfg1.N) :
    (Norm.dat V c).flushed 6 t = ((cfg1.win 6).blk t).view.read (Elt Ideal) (result V c) := by
  obtain ⟨-, -, -, -, -, -, e0, e1, e2⟩ := idx_facts t
  show (cfg1.win 6).cut (grid1.coords t) ((Norm.dat V c).after 6 t) = _
  rw [Norm.after_6]
  funext y
  show Norm.out (Norm.iblk V c 0 t) (Norm.iblk V c 1 t) (Norm.iblk V c 2 t) (Norm.iblk V c 3 t) (Norm.iblk V c 4 t)
      (Norm.iblk V c 5 t) ((cfg1.win 6).xinj (grid1.coords t) y) = result V c (((cfg1.win 6).blk t).view.emb y)
  refine out_eq_result_at V c t ((cfg1.win 6).xinj (grid1.coords t) y) (((cfg1.win 6).blk t).view.emb y) ?_ ?_ ?_
  · show win1_6.index t (0 : Fin 3) * 2 + 1 * (y 0).val = 2 * (t.val / 32) + (y 0).val
    rw [e0]; omega
  · show win1_6.index t (1 : Fin 3) * 128 + 1 * (y 1).val = 128 * (t.val % 32) + (y 1).val
    rw [e1]; omega
  · show win1_6.index t (2 : Fin 3) * 2048 + 1 * (y 2).val = (y 2).val
    rw [e2]; omega

/-- An index of the result array is in point `t`'s block iff each coordinate is in the block's range on its axis. -/
theorem mem_blk (t : Fin cfg1.N) (i : S8x4096x2048.Idx) :
    i ∈ ((cfg1.win 6).blk t).view.set ↔ ∀ a : Fin 3, win1_6.index t a * S2x128x2048.size a ≤ (i a).val
      ∧ (i a).val < win1_6.index t a * S2x128x2048.size a + S2x128x2048.size a := by
  show i ∈ ((View.whole main_v47).slice (win1_6.rect t)).set ↔ _
  rw [View.set_slice_whole, Rect.mem_set_unit]
  exact Iff.rfl

/-- The 128 blocks cover the array: row `(b, l)` is in the block of point `32 (b / 2) + l / 128`. -/
theorem cover (i : S8x4096x2048.Idx) :
    ∃ t : Fin cfg1.N, (cfg1.win 6).flush t = true ∧ i ∈ ((cfg1.win 6).blk t).view.set := by
  have h0 : (i 0).val < 8 := (i 0).isLt
  have h1 : (i 1).val < 4096 := (i 1).isLt
  have h2 : (i 2).val < 2048 := (i 2).isLt
  have hN : cfg1.N = 128 := N_1
  obtain ⟨t, ht⟩ : ∃ t : Fin cfg1.N, t.val = 32 * ((i 0).val / 2) + (i 1).val / 128 :=
    ⟨⟨32 * ((i 0).val / 2) + (i 1).val / 128, by rw [hN]; omega⟩, rfl⟩
  obtain ⟨-, -, -, -, -, -, e0, e1, e2⟩ := idx_facts t
  refine ⟨t, flush1_6 t, ?_⟩
  rw [mem_blk]
  intro a
  match a with
  | ⟨0, _⟩ =>
    show win1_6.index t (0 : Fin 3) * 2 ≤ (i 0).val ∧ (i 0).val < win1_6.index t (0 : Fin 3) * 2 + 2
    rw [e0, ht]; omega
  | ⟨1, _⟩ =>
    show win1_6.index t (1 : Fin 3) * 128 ≤ (i 1).val ∧ (i 1).val < win1_6.index t (1 : Fin 3) * 128 + 128
    rw [e1, ht]; omega
  | ⟨2, _⟩ =>
    show win1_6.index t (2 : Fin 3) * 2048 ≤ (i 2).val ∧ (i 2).val < win1_6.index t (2 : Fin 3) * 2048 + 2048
    rw [e2]; omega

/-- The result array after the second launch is `result` of its six operand arrays. -/
theorem arrAt_eq_result (c : Dev nD) : (Norm.dat (F := Ideal) V c).arrAt 6 cfg1.N = result V c :=
  (Norm.dat V c).arrAt_eq_of_cover 6 (result V c) (fun t _ => flushed_eq V c t) cover

/-- THE VALUE OF THE SECOND LAUNCH: its result array is the specification's normalised gated mix of the operand arrays
    as the launch finds them, entry by entry — the same operations in the same order, over the extended reals. -/
theorem normed (c : Dev nD) :
    (Norm.dat (F := Ideal) V c).arrAt 6 cfg1.N = fun i =>
      Cert.Spec.layerNorm (Ideal.ofBits .f32 0x45000000#32) (Ideal.ofBits .f32 0x3727C5AC#32)
        (Cert.Spec.mixed (Ideal.ofBits .f32 0x3F800000#32) (fun b l j => V c main_arg0 (ix3 b l j)) (fun b l j => V c main_arg1 (ix3 b l j))
          (fun b j => V c main_v43 (ix3 b 0 j)) (fun b j => V c main_v44 (ix3 b 0 j)))
        (fun j => V c main_v45 (ix3 0 0 j)) (fun j => V c main_v46 (ix3 0 0 j)) (i 0) (i 1) (i 2) :=
  arrAt_eq_result V c

end Blocks

end Cert.KernelIdeal.NormValue

end
-- ==== Proof.RefTerms.lean ====
/-
  The reference's two results as terms of its arguments.

  The line of operations of the reference's run, folded at the two result buffers, is a composition of the
  program's pure operations over the sixteen arguments' contents. It is named here step by step after the
  reference's own text — the pooled means, the gate, the fusion network, the reflex branch, the gated mix with its
  two scaled corrections, the layer normalisation — so that the first result reads `xNorm …` and the second
  `meanAll (alpha …)`. Each definition applies the printed operations in the printed order, so the fold equals
  the named term by unfolding both sides.
-/
import proofs.«140230_j55336358642849_1_alg».proof.Proof.RefRun

noncomputable section

namespace Cert.ReferenceIdeal.RefTerms

open Cert.ReferenceIdeal Cert.ReferenceIdeal.Gen Idealize.ShloMosaic Idealize.ShloMosaic.TcCoe Idealize.SL.Sem Idealize.ShloMosaic.StableHlo

variable {F : FTy → Type} [FloatOps F]

/-! ## The reference's mathematics, one definition per step

Each definition applies the program's own operations, in the program's order, to values: the text of
`reference` read over tensors. Shapes: B = 8 sequences of L = 4096 positions of d = 2048 features. -/

/-! The scalars the program writes as literals. -/

/-- 0, the value every sum starts from. -/
def c0 : Vec F S_ .f32 := constant S_ .f32 0x00000000#32
/-- 1. -/
def c1 : Vec F S_ .f32 := constant S_ .f32 0x3F800000#32
/-- L = 4096, the length the pooled sums are divided by. -/
def cL : Vec F S_ .f32 := constant S_ .f32 0x45800000#32
/-- d = 2048, the width the row sums are divided by. -/
def cD : Vec F S_ .f32 := constant S_ .f32 0x45000000#32
/-- B · d = 16384, the count the gate's overall sum is divided by. -/
def cBD : Vec F S_ .f32 := constant S_ .f32 0x46800000#32
/-- The variance's guard ε (the binary32 value nearest 1e-5). -/
def cEps : Vec F S_ .f32 := constant S_ .f32 0x3727C5AC#32
/-- What the variance answers where its divisor is not positive. -/
def cNaN : Vec F S_ .f32 := constant S_ .f32 0x7FC00000#32

/-- `x.mean(axis=1)`: the sum over the positions, from zero, divided by L at every entry. -/
def pooled (x : Vec F S8x4096x2048 .f32) : Vec F S8x2048 .f32 :=
  Host.divf (Host.reduceAdd x c0 reducesTo_S8x4096x2048_S8x2048_d1 h_S_) (broadcastInDim S8x2048 ![] bcast_S_S8x2048 cL)

/-- `h_cat`: the two pooled summaries side by side along the features, [B, 2d]. -/
def hCat (xl xr : Vec F S8x4096x2048 .f32) : Vec F S8x4096 .f32 :=
  concatenate S8x4096 1 [⟨S8x2048, pooled xl⟩, ⟨S8x2048, pooled xr⟩] concatenates_S8x2048_S8x2048_S8x4096_d1

/-- A bias of d entries as a [B, d] tensor: first a row, then the row at every sequence. -/
def biasD (b : Vec F S2048 .f32) : Vec F S8x2048 .f32 :=
  broadcastInDim S8x2048 ![0, 1] bcast_S1x2048_S8x2048_0_1 (broadcastInDim S1x2048 ![1] bcast_S2048_S1x2048_1 b)

/-- A bias of 2d entries as a [B, 2d] tensor. -/
def bias2D (b : Vec F S4096 .f32) : Vec F S8x4096 .f32 :=
  broadcastInDim S8x4096 ![0, 1] bcast_S1x4096_S8x4096_0_1 (broadcastInDim S1x4096 ![1] bcast_S4096_S1x4096_1 b)

/-- `x @ W.T + b` from 2d features to d: the contraction of `x`'s features with the transposed weights, plus the bias. -/
def linear2D_D (x : Vec F S8x4096 .f32) (W : Vec F S2048x4096 .f32) (b : Vec F S2048 .f32) : Vec F S8x2048 .f32 :=
  addf (Host.dotGeneral dot_S8x4096_S4096x2048_S8x2048_1_0_0_1_n_n none x (transpose S4096x2048 [1, 0] W transposes_S2048x4096_S4096x2048_1_0)) (biasD b)

/-- `x @ W.T + b` from 2d features to 2d. -/
def linear2D_2D (x : Vec F S8x4096 .f32) (W : Vec F S4096x4096 .f32) (b : Vec F S4096 .f32) : Vec F S8x4096 .f32 :=
  addf (Host.dotGeneral dot_S8x4096_S4096x4096_S8x4096_1_0_0_1_n_n none x (transpose S4096x4096 [1, 0] W transposes_S4096x4096_S4096x4096_1_0)) (bias2D b)

/-- `x @ W.T + b` from d features to d. -/
def linearD_D (x : Vec F S8x2048 .f32) (W : Vec F S2048x2048 .f32) (b : Vec F S2048 .f32) : Vec F S8x2048 .f32 :=
  addf (Host.dotGeneral dot_S8x2048_S2048x2048_S8x2048_1_0_0_1_n_n none x (transpose S2048x2048 [1, 0] W transposes_S2048x2048_S2048x2048_1_0)) (biasD b)

/-- The logistic function as the program spells it, 1 / (1 + exp(−z)), at [B, d]. -/
def sigmoidD (z : Vec F S8x2048 .f32) : Vec F S8x2048 .f32 :=
  Host.divf (broadcastInDim S8x2048 ![] bcast_S_S8x2048 c1)
    (addf (broadcastInDim S8x2048 ![] bcast_S_S8x2048 c1) (Host.exp (Host.negf z)))

/-- `silu`: z · (1 / (1 + exp(−z))), at [B, d]. -/
def siluD (z : Vec F S8x2048 .f32) : Vec F S8x2048 .f32 :=
  mulf z (Host.divf (broadcastInDim S8x2048 ![] bcast_S_S8x2048 c1)
    (addf (broadcastInDim S8x2048 ![] bcast_S_S8x2048 c1) (Host.exp (Host.negf z))))

/-- `silu` at [B, 2d]. -/
def silu2D (z : Vec F S8x4096 .f32) : Vec F S8x4096 .f32 :=
  mulf z (Host.divf (broadcastInDim S8x4096 ![] bcast_S_S8x4096 c1)
    (addf (broadcastInDim S8x4096 ![] bcast_S_S8x4096 c1) (Host.exp (Host.negf z))))

/-- `alpha`: the gate, the logistic of the gate's affine map of the pooled summaries, [B, d]. -/
def alpha (xl xr : Vec F S8x4096x2048 .f32) (Wg : Vec F S2048x4096 .f32) (bg : Vec F S2048 .f32) : Vec F S8x2048 .f32 :=
  sigmoidD (linear2D_D (hCat xl xr) Wg bg)

/-- `fusion`: the three-layer network on the pooled summaries, [B, d]. -/
def fusion (xl xr : Vec F S8x4096x2048 .f32) (W1 : Vec F S4096x4096 .f32) (b1 : Vec F S4096 .f32)
    (W2 : Vec F S2048x4096 .f32) (b2 : Vec F S2048 .f32) (W3 : Vec F S2048x2048 .f32) (b3 : Vec F S2048 .f32) : Vec F S8x2048 .f32 :=
  linearD_D (siluD (linear2D_D (silu2D (linear2D_2D (hCat xl xr) W1 b1)) W2 b2)) W3 b3

/-- `reflex`: the hyperbolic tangent of the reflex gate's affine map of the pooled summaries, [B, d]. -/
def reflex (xl xr : Vec F S8x4096x2048 .f32) (Wr : Vec F S2048x4096 .f32) (br : Vec F S2048 .f32) : Vec F S8x2048 .f32 :=
  Host.tanh (linear2D_D (hCat xl xr) Wr br)

/-- `a[:, None, :]`: a [B, d] tensor as [B, 1, d]. -/
def row3 (a : Vec F S8x2048 .f32) : Vec F S8x1x2048 .f32 :=
  broadcastInDim S8x1x2048 ![0, 2] bcast_S8x2048_S8x1x2048_0_2 a

/-- A [B, 1, d] tensor at every position: [B, L, d]. -/
def overL (a : Vec F S8x1x2048 .f32) : Vec F S8x4096x2048 .f32 :=
  broadcastInDim S8x4096x2048 ![0, 1, 2] bcast_S8x1x2048_S8x4096x2048_0_1_2 a

/-- `x_gated = (1 − α) · x_left + α · x_right`, the gate the same at every position. -/
def gated (a : Vec F S8x2048 .f32) (xl xr : Vec F S8x4096x2048 .f32) : Vec F S8x4096x2048 .f32 :=
  addf (mulf (overL (subf (broadcastInDim S8x1x2048 ![] bcast_S_S8x1x2048 c1) (row3 a))) xl) (mulf (overL (row3 a)) xr)

/-- `s * r[:, None, :]` at every position: a scalar times a [B, d] correction. -/
def scaled (s : Vec F S_ .f32) (r : Vec F S8x2048 .f32) : Vec F S8x4096x2048 .f32 :=
  overL (mulf (broadcastInDim S8x1x2048 ![] bcast_S_S8x1x2048 s) (row3 r))

/-- `x = x_gated + fusion_scale · fusion + reflex_scale · reflex`. -/
def mixed (a fu re : Vec F S8x2048 .f32) (xl xr : Vec F S8x4096x2048 .f32) (fs rs : Vec F S_ .f32) : Vec F S8x4096x2048 .f32 :=
  addf (addf (gated a xl xr) (scaled fs fu)) (scaled rs re)

/-- A [B, L, 1] tensor at every feature: [B, L, d]. -/
def overD (a : Vec F S8x4096x1 .f32) : Vec F S8x4096x2048 .f32 :=
  broadcastInDim S8x4096x2048 ![0, 1, 2] bcast_S8x4096x1_S8x4096x2048_0_1_2 a

/-- The sum over the features, from zero, kept as [B, L, 1]. -/
def rowSum (x : Vec F S8x4096x2048 .f32) : Vec F S8x4096x1 .f32 :=
  broadcastInDim S8x4096x1 ![0, 1] bcast_S8x4096_S8x4096x1_0_1 (Host.reduceAdd x c0 reducesTo_S8x4096x2048_S8x4096_d2 h_S_)

/-- `x.mean(axis=-1, keepdims=True)`: the row sum divided by d. -/
def rowMean (x : Vec F S8x4096x2048 .f32) : Vec F S8x4096x1 .f32 :=
  Host.divf (rowSum x) (broadcastInDim S8x4096x1 ![] bcast_S_S8x4096x1 cD)

/-- `x − mean`: every row centred. -/
def centred (x : Vec F S8x4096x2048 .f32) : Vec F S8x4096x2048 .f32 :=
  subf x (overD (rowMean x))

/-- The variance's divisor, d − ddof with ddof the integer 0 made a float. -/
def varDivisor : Vec F S_ .f32 := subf cD (sitofp .f32 (constantI S_ 32 0#32))

/-- `x.var(axis=-1, keepdims=True)`: the row sum of the squared centred entries over the divisor where the divisor is
    positive, and the not-a-number elsewhere. -/
def rowVar (x : Vec F S8x4096x2048 .f32) : Vec F S8x4096x1 .f32 :=
  select (broadcastInDim S8x4096x1 ![] bcast_S_S8x4096x1 (cmpf .ogt (varDivisor (F := F)) c0))
    (Host.divf (rowSum (mulf (centred x) (centred x))) (broadcastInDim S8x4096x1 ![] bcast_S_S8x4096x1 varDivisor))
    (broadcastInDim S8x4096x1 ![] bcast_S_S8x4096x1 cNaN)

/-- A vector of d features at every sequence and position: [B, L, d]. -/
def overBL (g : Vec F S2048 .f32) : Vec F S8x4096x2048 .f32 :=
  broadcastInDim S8x4096x2048 ![0, 1, 2] bcast_S1x1x2048_S8x4096x2048_0_1_2 (broadcastInDim S1x1x2048 ![2] bcast_S2048_S1x1x2048_2 g)

/-- The layer normalisation over the features: `(x − mean) · rsqrt(var + ε) · γ + β`. -/
def layerNorm (x : Vec F S8x4096x2048 .f32) (γ β : Vec F S2048 .f32) : Vec F S8x4096x2048 .f32 :=
  addf (mulf (mulf (centred x) (overD (Host.rsqrt (addf (rowVar x) (broadcastInDim S8x4096x1 ![] bcast_S_S8x4096x1 cEps))))) (overBL γ)) (overBL β)

/-- `alpha.mean()`: the sum of all the gate's entries, from zero, over their count. -/
def meanAll (a : Vec F S8x2048 .f32) : Vec F S_ .f32 :=
  Host.divf (Host.reduceAdd a c0 reducesTo_S8x2048_S_d0_1 h_S_) cBD

/-- The first result, `x_norm`, over the sixteen arguments. -/
def xNorm (xl xr : Vec F S8x4096x2048 .f32) (Wg : Vec F S2048x4096 .f32) (bg : Vec F S2048 .f32)
    (W1 : Vec F S4096x4096 .f32) (b1 : Vec F S4096 .f32) (W2 : Vec F S2048x4096 .f32) (b2 : Vec F S2048 .f32)
    (W3 : Vec F S2048x2048 .f32) (b3 : Vec F S2048 .f32) (Wr : Vec F S2048x4096 .f32) (br : Vec F S2048 .f32)
    (γ β : Vec F S2048 .f32) (fs rs : Vec F S_ .f32) : Vec F S8x4096x2048 .f32 :=
  layerNorm (mixed (alpha xl xr Wg bg) (fusion xl xr W1 b1 W2 b2 W3 b3) (reflex xl xr Wr br) xl xr fs rs) γ β

/-! ## The results -/

/-- The second result buffer after the line, from any contents: the mean of the gate over all its entries. -/
theorem res78_eq (V : Valuation τ sig (Elt F)) :
    after (RefRun.ops (F := F)) V (Proc.devRef .tc main_v78)
      = meanAll (alpha (V (Proc.devRef .tc main_arg0)) (V (Proc.devRef .tc main_arg1)) (V (Proc.devRef .tc main_arg2)) (V (Proc.devRef .tc main_arg3))) := by
  after_results_simp
  rfl

set_option maxHeartbeats 8000000 in
set_option maxRecDepth 8192 in
/-- The first result buffer after the line, from any contents: the normalised mix. -/
theorem res76_eq (V : Valuation τ sig (Elt F)) :
    after (RefRun.ops (F := F)) V (Proc.devRef .tc main_v76)
      = xNorm (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11))
          (V (Proc.devRef .tc main_arg12)) (V (Proc.devRef .tc main_arg13)) (V (Proc.devRef .tc main_arg14)) (V (Proc.devRef .tc main_arg15)) := by
  after_results_simp
  rfl

end Cert.ReferenceIdeal.RefTerms

end
-- ==== Proof.RefValue.lean ====
/-
  The reference's steps read at an index, on the extended reals.

  At the ideal instance every float is an extended real and every operation its exact one, so each named step of
  the reference, read at coordinates (batch b, position l, feature j), is an expression of extended reals: a
  broadcast reads its operand at the coordinates it keeps, a sum over one axis from the initial value zero is the
  plain sum over that axis's coordinate, a quotient is the instance's division. Read so, the pooled mean, the
  gated mix with its two scaled corrections and the layer normalisation are the functions of `Cert.Spec`, the
  same operations in the same order; nothing is assumed finite. One scalar is evaluated: the variance's divisor,
  2048 minus the integer 0 made a float, is the word of 2048, which is positive, so the selection that guards the
  divisor takes the quotient everywhere.
-/
import proofs.«140230_j55336358642849_1_alg».proof.Proof.RefTerms
import proofs.«140230_j55336358642849_1_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## Broadcasts at coordinates -/

/-- A scalar at every index of any shape reads the scalar. -/
theorem scalar_at {T : Shape} (h : S_.BroadcastsInDim T ![]) (x : Vec Ideal S_ .f32) (i : T.Idx) :
    broadcastInDim T ![] h x i = x ix0 :=
  broadcastInDim_scalar_apply h x i

/-- [B, d] as [B, 1, d]: the entry at (b, ·, j) is the entry at (b, j). -/
theorem row3_at (a : Vec Ideal S8x2048 .f32) (b : Fin 8) (u : Fin 1) (j : Fin 2048) :
    RefTerms.row3 (F := Ideal) a (ix3 b u j) = a (ix2 b j) := by
  unfold RefTerms.row3
  exact broadcastInDim_apply _ _ a _ (ix2 b j) fun c => by
    match c with
    | ⟨0, _⟩ => rfl
    | ⟨1, _⟩ => rfl

/-- [B, 1, d] at every position: the entry at (b, l, j) is the entry at (b, 0, j). -/
theorem overL_at (a : Vec Ideal S8x1x2048 .f32) (b : Fin 8) (l : Fin 4096) (j : Fin 2048) :
    RefTerms.overL (F := Ideal) a (ix3 b l j) = a (ix3 b 0 j) := by
  unfold RefTerms.overL
  exact broadcastInDim_apply _ _ a _ (ix3 b 0 j) fun c => by
    match c with
    | ⟨0, _⟩ => rfl
    | ⟨1, _⟩ => rfl
    | ⟨2, _⟩ => rfl

/-- [B, L, 1] at every feature: the entry at (b, l, j) is the entry at (b, l, 0). -/
theorem overD_at (a : Vec Ideal S8x4096x1 .f32) (b : Fin 8) (l : Fin 4096) (j : Fin 2048) :
    RefTerms.overD (F := Ideal) a (ix3 b l j) = a (ix3 b l 0) := by
  unfold RefTerms.overD
  exact broadcastInDim_apply _ _ a _ (ix3 b l 0) fun c => by
    match c with
    | ⟨0, _⟩ => rfl
    | ⟨1, _⟩ => rfl
    | ⟨2, _⟩ => rfl

/-- d features at every sequence and position: the entry at (b, l, j) is the entry at j. -/
theorem overBL_at (g : Vec Ideal S2048 .f32) (b : Fin 8) (l : Fin 4096) (j : Fin 2048) :
    RefTerms.overBL (F := Ideal) g (ix3 b l j) = g (ix1 j) := by
  unfold RefTerms.overBL
  refine (broadcastInDim_apply _ _ _ _ (ix3 (0 : Fin 1) (0 : Fin 1) j) fun c => by
    match c with
    | ⟨0, _⟩ => rfl
    | ⟨1, _⟩ => rfl
    | ⟨2, _⟩ => rfl).trans ?_
  exact broadcastInDim_apply _ _ g _ (ix1 j) fun c => by
    match c with
    | ⟨0, _⟩ => rfl

/-! ## Sums over one axis at coordinates -/

/-- The sum over the positions from an initial scalar, at (b, j): the scalar plus the sum over l. -/
theorem sumL_at (x : FVec Ideal S8x4096x2048 .f32) (init : FVec Ideal S_ .f32) (b : Fin 8) (j : Fin 2048) :
    Host.reduceAdd (F := Ideal) x init reducesTo_S8x4096x2048_S8x2048_d1 h_S_ (ix2 b j)
      = init ix0 + ∑ l : Fin 4096, x (ix3 b l j) := by
  have h' : S8x4096x2048.ReducesTo [1] S8x2048 := reducesTo_S8x4096x2048_S8x2048_d1
  have h : S8x4096x2048.Reduces [1] S8x2048 := ⟨h'.1, Nat.two_pos, h'.2⟩
  show Ideal.hostReduceAdd h' x (init (Shape.Idx.first h_S_)) (ix2 b j) = _
  rw [Ideal.hostReduceAdd_single h' h]
  refine congrArg₂ (· + ·) (congrArg init (eq_ix0 _)) (Finset.sum_congr rfl fun l _ => congrArg x (funext fun c => Fin.ext ?_))
  match c with
  | ⟨0, _⟩ => rfl
  | ⟨1, _⟩ => rfl
  | ⟨2, _⟩ => rfl

/-- The sum over the features from an initial scalar, at (b, l): the scalar plus the sum over j. -/
theorem sumD_at (x : FVec Ideal S8x4096x2048 .f32) (init : FVec Ideal S_ .f32) (b : Fin 8) (l : Fin 4096) :
    Host.reduceAdd (F := Ideal) x init reducesTo_S8x4096x2048_S8x4096_d2 h_S_ (ix2 b l)
      = init ix0 + ∑ j : Fin 2048, x (ix3 b l j) := by
  have h' : S8x4096x2048.ReducesTo [2] S8x4096 := reducesTo_S8x4096x2048_S8x4096_d2
  have h : S8x4096x2048.Reduces [2] S8x4096 := ⟨h'.1, Nat.two_pos, h'.2⟩
  show Ideal.hostReduceAdd h' x (init (Shape.Idx.first h_S_)) (ix2 b l) = _
  rw [Ideal.hostReduceAdd_single h' h]
  refine congrArg₂ (· + ·) (congrArg init (eq_ix0 _)) (Finset.sum_congr rfl fun j _ => congrArg x (funext fun c => Fin.ext ?_))
  match c with
  | ⟨0, _⟩ => rfl
  | ⟨1, _⟩ => rfl
  | ⟨2, _⟩ => rfl

/-- The literal zero the sums start from is the extended real zero. -/
theorem c0_at : RefTerms.c0 (F := Ideal) ix0 = 0 := Ideal.ofBits_zero_f32

/-! ## The pooled mean -/

/-- The pooled mean at (b, j): the sum over the positions divided by the literal 4096. -/
theorem pooled_at (x : Vec Ideal S8x4096x2048 .f32) (b : Fin 8) (j : Fin 2048) :
    RefTerms.pooled (F := Ideal) x (ix2 b j)
      = Ideal.div (∑ l : Fin 4096, x (ix3 b l j)) (Ideal.ofBits .f32 0x45800000#32) := by
  unfold RefTerms.pooled
  rw [hostDivf_apply, sumL_at, scalar_at, c0_at, zero_add]
  rfl

theorem pooled_apply (x : Vec Ideal S8x4096x2048 .f32) :
    RefTerms.pooled (F := Ideal) x
      = fun i => Cert.Spec.pooledDiv (Ideal.ofBits .f32 0x45800000#32) (fun b l j => x (ix3 b l j)) (i 0) (i 1) := by
  funext i
  obtain ⟨b, j, rfl⟩ : ∃ (b : Fin 8) (j : Fin 2048), i = ix2 b j := ⟨i 0, i 1, eq_ix2 i⟩
  exact pooled_at x b j

/-! ## The gated mix and its two corrections -/

/-- The gated mix at (b, l, j): (1 − α(b, j)) · x_left + α(b, j) · x_right, the one kept as its word. -/
theorem gated_at (a : Vec Ideal S8x2048 .f32) (xl xr : Vec Ideal S8x4096x2048 .f32) (b : Fin 8) (l : Fin 4096) (j : Fin 2048) :
    RefTerms.gated (F := Ideal) a xl xr (ix3 b l j)
      = (Ideal.ofBits .f32 0x3F800000#32 - a (ix2 b j)) * xl (ix3 b l j) + a (ix2 b j) * xr (ix3 b l j) := by
  unfold RefTerms.gated
  rw [addf_apply, mulf_apply, mulf_apply, overL_at, overL_at, subf_apply, scalar_at, row3_at]
  rfl

/-- A scaled correction at (b, l, j): the scalar times the correction at (b, j). -/
theorem scaled_at (s : Vec Ideal S_ .f32) (r : Vec Ideal S8x2048 .f32) (b : Fin 8) (l : Fin 4096) (j : Fin 2048) :
    RefTerms.scaled (F := Ideal) s r (ix3 b l j) = s ix0 * r (ix2 b j) := by
  unfold RefTerms.scaled
  rw [overL_at, mulf_apply, scalar_at, row3_at]

theorem mixed_apply (a fu re : Vec Ideal S8x2048 .f32) (xl xr : Vec Ideal S8x4096x2048 .f32) (fs rs : Vec Ideal S_ .f32) :
    RefTerms.mixed (F := Ideal) a fu re xl xr fs rs
      = fun i => Cert.Spec.mixed2 (Ideal.ofBits .f32 0x3F800000#32) (fun b l j => xl (ix3 b l j)) (fun b l j => xr (ix3 b l j))
          (fun b j => a (ix2 b j)) (fun b j => fs ix0 * fu (ix2 b j)) (fun b j => rs ix0 * re (ix2 b j)) (i 0) (i 1) (i 2) := by
  funext i
  obtain ⟨b, l, j, rfl⟩ : ∃ (b : Fin 8) (l : Fin 4096) (j : Fin 2048), i = ix3 b l j := ⟨i 0, i 1, i 2, eq_ix3 i⟩
  unfold RefTerms.mixed
  rw [addf_apply, addf_apply, gated_at, scaled_at, scaled_at]
  rfl

/-! ## The layer normalisation -/

/-- The word of 2048, the rows' width, is the real 2048. -/
theorem ofBits_width : Ideal.ofBits .f32 0x45000000#32 = ((2048 : ℝ) : EReal) := by
  simp [Ideal.ofBits, Ideal.ieee, -EReal.coe_mul]; norm_num

/-- It is positive. -/
theorem width_pos : (0 : EReal) < Ideal.ofBits .f32 0x45000000#32 := by
  rw [ofBits_width]; exact EReal.coe_pos.mpr (by norm_num)

/-- The row sum kept as [B, L, 1], at (b, l, ·): the sum over the features. -/
theorem rowSum_at (x : Vec Ideal S8x4096x2048 .f32) (b : Fin 8) (l : Fin 4096) (u : Fin 1) :
    RefTerms.rowSum (F := Ideal) x (ix3 b l u) = ∑ j : Fin 2048, x (ix3 b l j) := by
  unfold RefTerms.rowSum
  refine (broadcastInDim_apply _ _ _ _ (ix2 b l) fun c => by
    match c with
    | ⟨0, _⟩ => rfl
    | ⟨1, _⟩ => rfl).trans ?_
  rw [sumD_at, c0_at, zero_add]

/-- The row mean at (b, l, ·): `Cert.Spec.rowMean` with the divisor the word of 2048. -/
theorem rowMean_at (x : Vec Ideal S8x4096x2048 .f32) (b : Fin 8) (l : Fin 4096) (u : Fin 1) :
    RefTerms.rowMean (F := Ideal) x (ix3 b l u)
      = Cert.Spec.rowMean (Ideal.ofBits .f32 0x45000000#32) (fun b l j => x (ix3 b l j)) b l := by
  unfold RefTerms.rowMean
  rw [hostDivf_apply, rowSum_at, scalar_at]
  rfl

/-- A centred entry at (b, l, j): the entry minus its row's mean. -/
theorem centred_at (x : Vec Ideal S8x4096x2048 .f32) (b : Fin 8) (l : Fin 4096) (j : Fin 2048) :
    RefTerms.centred (F := Ideal) x (ix3 b l j)
      = x (ix3 b l j) - Cert.Spec.rowMean (Ideal.ofBits .f32 0x45000000#32) (fun b l j => x (ix3 b l j)) b l := by
  unfold RefTerms.centred
  rw [subf_apply, overD_at, rowMean_at]

/-- The variance's divisor, 2048 − float(0), is the word of 2048: the integer 0 made a float is the real 0. -/
theorem varDivisor_at : RefTerms.varDivisor (F := Ideal) ix0 = Ideal.ofBits .f32 0x45000000#32 := by
  unfold RefTerms.varDivisor
  rw [subf_apply]
  show Ideal.ofBits .f32 0x45000000#32 - (((0#32 : BitVec 32).toInt : ℝ) : EReal) = _
  simp

/-- The divisor is positive, so the guard's bit is set. -/
theorem guard_at :
    cmpf (F := Ideal) (φ := .f32) .ogt (RefTerms.varDivisor (F := Ideal)) (RefTerms.c0 (F := Ideal)) ix0 = 1#1 := by
  rw [cmpf_apply, varDivisor_at, c0_at]
  show Ideal.cmp .ogt (Ideal.ofBits .f32 0x45000000#32) 0 = 1#1
  simp [Ideal.cmp, width_pos]

/-- The row variance at (b, l, ·): the guard decided, `Cert.Spec.rowVar` with the divisor the word of 2048. -/
theorem rowVar_at (x : Vec Ideal S8x4096x2048 .f32) (b : Fin 8) (l : Fin 4096) (u : Fin 1) :
    RefTerms.rowVar (F := Ideal) x (ix3 b l u)
      = Cert.Spec.rowVar (Ideal.ofBits .f32 0x45000000#32) (fun b l j => x (ix3 b l j)) b l := by
  unfold RefTerms.rowVar
  rw [select_apply, hostDivf_apply, broadcastInDim_scalar_apply, broadcastInDim_scalar_apply, broadcastInDim_scalar_apply,
    guard_at, select_one, rowSum_at, varDivisor_at]
  unfold Cert.Spec.rowVar
  refine congrArg (Ideal.div · _) (Finset.sum_congr rfl fun j _ => ?_)
  rw [mulf_apply, centred_at]

/-- The host's reciprocal square root at an index is the instance's, of the element. -/
theorem hostRsqrt_at {s : Shape} (a : FVec Ideal s .f32) (i : s.Idx) : Host.rsqrt a i = Ideal.rsqrt (a i) := rfl

theorem layerNorm_apply (x : Vec Ideal S8x4096x2048 .f32) (γ β : Vec Ideal S2048 .f32) :
    RefTerms.layerNorm (F := Ideal) x γ β
      = fun i => Cert.Spec.layerNorm (Ideal.ofBits .f32 0x45000000#32) (Ideal.ofBits .f32 0x3727C5AC#32)
          (fun b l j => x (ix3 b l j)) (fun j => γ (ix1 j)) (fun j => β (ix1 j)) (i 0) (i 1) (i 2) := by
  funext i
  obtain ⟨b, l, j, rfl⟩ : ∃ (b : Fin 8) (l : Fin 4096) (j : Fin 2048), i = ix3 b l j := ⟨i 0, i 1, i 2, eq_ix3 i⟩
  unfold RefTerms.layerNorm
  rw [addf_apply, mulf_apply, mulf_apply, centred_at, overD_at, overBL_at, overBL_at, hostRsqrt_at, addf_apply, rowVar_at,
    scalar_at]
  rfl

end Cert.ReferenceIdeal.RefValue

end
-- ==== Proof.Bridge.lean ====
/-
  The kernel program's two results are the reference's two results, over the extended reals, when the sixteen arguments
  agree.

  Both programs compute, per batch, the same host chain — the gate, the fusion network, the reflex branch — from the two
  inputs pooled over their positions, mix the inputs by the gate, add the two scaled corrections and normalise each row;
  and both return the gate's mean. They differ in three spellings. The kernel program's first launch multiplies each sum
  over the positions by the word of 1 / 4096 where the reference divides by the word of 4096: two words are evaluated,
  and the product with the reciprocal of a nonzero real is the quotient by it. The kernel program hands its second launch
  the sum of the two scaled corrections as one bias where the reference adds them one after the other: addition of
  extended reals is associative. And the kernel program reshapes and broadcasts where the reference broadcasts twice:
  read at an index these are the same entries. The shared host chain is never opened: each program's spelling of it is
  the same operations over definitionally equal shapes, so the two are equal as whole functions of the pooled arrays.
  No finiteness is used.
-/
import proofs.«140230_j55336358642849_1_alg».proof.Proof.Launch
import proofs.«140230_j55336358642849_1_alg».proof.Proof.HostTerms
import proofs.«140230_j55336358642849_1_alg».proof.Proof.HostValue
import proofs.«140230_j55336358642849_1_alg».proof.Proof.PoolValue
import proofs.«140230_j55336358642849_1_alg».proof.Proof.NormValue
import proofs.«140230_j55336358642849_1_alg».proof.Proof.RefRun
import proofs.«140230_j55336358642849_1_alg».proof.Proof.RefTerms
import proofs.«140230_j55336358642849_1_alg».proof.Proof.RefValue
import proofs.«140230_j55336358642849_1_alg».proof.Proof.Spec
import Idealize.ShloMosaic.Lib.Pipeline.Value
import Idealize.ShloMosaic.Lib.ValueIdx
import Idealize.ShloMosaic.PureOps.Ideal

noncomputable section

namespace Cert.Bridge.Steps

open Idealize.ShloMosaic Idealize.ShloMosaic.TcCoe Idealize.SL.Sem Idealize.ShloMosaic.ValueIdx

/-! ## The two words of the pooled mean -/

/-- The word of 4096, the number of positions, is the real 4096. -/
theorem ofBits_len : Ideal.ofBits .f32 0x45800000#32 = ((4096 : ℝ) : EReal) := by
  simp [Ideal.ofBits, Ideal.ieee, -EReal.coe_mul]; norm_num

/-- The word the first launch multiplies its sums by is the real 1 / 4096. -/
theorem ofBits_invLen : Ideal.ofBits .f32 0x39800000#32 = ((1 / 4096 : ℝ) : EReal) := by
  simp [Ideal.ofBits, Ideal.ieee, -EReal.coe_mul]; norm_num

/-- So the sum times that word is the sum divided by the word of 4096. -/
theorem pooled_eq (x : Cert.Spec.Arr3) :
    Cert.Spec.pooled (Ideal.ofBits .f32 0x39800000#32) x = Cert.Spec.pooledDiv (Ideal.ofBits .f32 0x45800000#32) x :=
  Cert.Spec.pooled_eq_pooledDiv (y := 4096) (by norm_num) ofBits_len ofBits_invLen x

/-! ## The pooled arrays and their concatenation -/

/-- What the first launch leaves for one input, read as batch × feature, is the reference's pooled mean of that input. -/
theorem cast_pooled (L : Vec Ideal KernelIdeal.S8x1x2048 .f32) (x : Vec Ideal KernelIdeal.S8x4096x2048 .f32)
    (hL : L = fun i => Cert.Spec.pooled (Ideal.ofBits .f32 0x39800000#32) (fun b l j => x (ix3 b l j)) (i 0) (i 2)) :
    shapeCast KernelIdeal.S8x2048 L KernelIdeal.Gen.shapeCasts_S8x1x2048_S8x2048 = ReferenceIdeal.RefTerms.pooled (F := Ideal) x := by
  funext i
  obtain ⟨b, j, rfl⟩ : ∃ (b : Fin 8) (j : Fin 2048), i = ix2 b j := ⟨i 0, i 1, eq_ix2 i⟩
  refine (shapeCast_apply L _ (ix2 b j) (ix3 b (0 : Fin 1) j) ?_).trans ?_
  · rw [Shape.rowMajor_val_three, Shape.rowMajor_val_two]
    show (b.val * 1 + 0) * 2048 + j.val = b.val * 2048 + j.val
    omega
  · rw [ReferenceIdeal.RefValue.pooled_at, hL]
    show Cert.Spec.pooled (Ideal.ofBits .f32 0x39800000#32) (fun b l j => x (ix3 b l j)) b j
      = Cert.Spec.pooledDiv (Ideal.ofBits .f32 0x45800000#32) (fun b l j => x (ix3 b l j)) b j
    rw [pooled_eq]

/-- So the kernel program's concatenation of its two pooled results is the reference's. -/
theorem hcat_eq (L0 L1 : Vec Ideal KernelIdeal.S8x1x2048 .f32) (xl xr : Vec Ideal KernelIdeal.S8x4096x2048 .f32)
    (hL0 : L0 = fun i => Cert.Spec.pooled (Ideal.ofBits .f32 0x39800000#32) (fun b l j => xl (ix3 b l j)) (i 0) (i 2))
    (hL1 : L1 = fun i => Cert.Spec.pooled (Ideal.ofBits .f32 0x39800000#32) (fun b l j => xr (ix3 b l j)) (i 0) (i 2)) :
    KernelIdeal.HostTerms.hcat (F := Ideal) L0 L1 = ReferenceIdeal.RefTerms.hCat (F := Ideal) xl xr := by
  unfold KernelIdeal.HostTerms.hcat ReferenceIdeal.RefTerms.hCat
  rw [cast_pooled L0 xl hL0, cast_pooled L1 xr hL1]

/-! ## The shared host chain, as whole functions -/

/-- The gate of a concatenation is the reference's logistic of its affine map. -/
theorem gate_eq (h : Vec Ideal KernelIdeal.S8x4096 .f32) (Wg : Vec Ideal KernelIdeal.S2048x4096 .f32) (bg : Vec Ideal KernelIdeal.S2048 .f32) :
    KernelIdeal.HostTerms.gate (F := Ideal) h Wg bg
      = ReferenceIdeal.RefTerms.sigmoidD (F := Ideal) (ReferenceIdeal.RefTerms.linear2D_D (F := Ideal) h Wg bg) := by
  unfold KernelIdeal.HostTerms.gate ReferenceIdeal.RefTerms.sigmoidD ReferenceIdeal.RefTerms.linear2D_D ReferenceIdeal.RefTerms.biasD
    ReferenceIdeal.RefTerms.c1
  rfl

/-- The fusion network of a concatenation is the reference's three layers. -/
theorem fusion_eq (h : Vec Ideal KernelIdeal.S8x4096 .f32) (W1 : Vec Ideal KernelIdeal.S4096x4096 .f32) (b1 : Vec Ideal KernelIdeal.S4096 .f32)
    (W2 : Vec Ideal KernelIdeal.S2048x4096 .f32) (b2 : Vec Ideal KernelIdeal.S2048 .f32) (W3 : Vec Ideal KernelIdeal.S2048x2048 .f32)
    (b3 : Vec Ideal KernelIdeal.S2048 .f32) :
    KernelIdeal.HostTerms.fusion (F := Ideal) h W1 b1 W2 b2 W3 b3
      = ReferenceIdeal.RefTerms.linearD_D (F := Ideal) (ReferenceIdeal.RefTerms.siluD (F := Ideal) (ReferenceIdeal.RefTerms.linear2D_D (F := Ideal)
          (ReferenceIdeal.RefTerms.silu2D (F := Ideal) (ReferenceIdeal.RefTerms.linear2D_2D (F := Ideal) h W1 b1)) W2 b2)) W3 b3 := by
  unfold KernelIdeal.HostTerms.fusion KernelIdeal.HostTerms.layer3 KernelIdeal.HostTerms.silu2 KernelIdeal.HostTerms.layer2
    KernelIdeal.HostTerms.silu1 KernelIdeal.HostTerms.layer1
    ReferenceIdeal.RefTerms.linearD_D ReferenceIdeal.RefTerms.siluD ReferenceIdeal.RefTerms.linear2D_D ReferenceIdeal.RefTerms.silu2D
    ReferenceIdeal.RefTerms.linear2D_2D ReferenceIdeal.RefTerms.biasD ReferenceIdeal.RefTerms.bias2D ReferenceIdeal.RefTerms.c1
  rfl

/-- The gate's mean is the reference's mean over all entries. -/
theorem gateMean_eq (g : Vec Ideal KernelIdeal.S8x2048 .f32) :
    KernelIdeal.HostTerms.gateMean (F := Ideal) g = ReferenceIdeal.RefTerms.meanAll (F := Ideal) g := by
  unfold KernelIdeal.HostTerms.gateMean ReferenceIdeal.RefTerms.meanAll ReferenceIdeal.RefTerms.c0 ReferenceIdeal.RefTerms.cBD
  rfl

section Chain

variable (xl xr : Vec Ideal KernelIdeal.S8x4096x2048 .f32)

/-- The gate of the reference's concatenation is the reference's gate. -/
theorem gate_hCat (Wg : Vec Ideal KernelIdeal.S2048x4096 .f32) (bg : Vec Ideal KernelIdeal.S2048 .f32) :
    KernelIdeal.HostTerms.gate (F := Ideal) (ReferenceIdeal.RefTerms.hCat (F := Ideal) xl xr) Wg bg
      = ReferenceIdeal.RefTerms.alpha (F := Ideal) xl xr Wg bg := by
  rw [gate_eq]; rfl

/-- The fusion network at the reference's concatenation is the reference's fusion value. -/
theorem fusion_hCat (W1 : Vec Ideal KernelIdeal.S4096x4096 .f32) (b1 : Vec Ideal KernelIdeal.S4096 .f32)
    (W2 : Vec Ideal KernelIdeal.S2048x4096 .f32) (b2 : Vec Ideal KernelIdeal.S2048 .f32) (W3 : Vec Ideal KernelIdeal.S2048x2048 .f32)
    (b3 : Vec Ideal KernelIdeal.S2048 .f32) :
    KernelIdeal.HostTerms.fusion (F := Ideal) (ReferenceIdeal.RefTerms.hCat (F := Ideal) xl xr) W1 b1 W2 b2 W3 b3
      = ReferenceIdeal.RefTerms.fusion (F := Ideal) xl xr W1 b1 W2 b2 W3 b3 := by
  rw [fusion_eq]; rfl

/-- The reflex branch at the reference's concatenation is the reference's reflex value. -/
theorem reflex_hCat (Wr : Vec Ideal KernelIdeal.S2048x4096 .f32) (br : Vec Ideal KernelIdeal.S2048 .f32) :
    KernelIdeal.HostTerms.reflex (F := Ideal) (ReferenceIdeal.RefTerms.hCat (F := Ideal) xl xr) Wr br
      = ReferenceIdeal.RefTerms.reflex (F := Ideal) xl xr Wr br := by
  unfold KernelIdeal.HostTerms.reflex ReferenceIdeal.RefTerms.reflex ReferenceIdeal.RefTerms.linear2D_D ReferenceIdeal.RefTerms.biasD
  rfl

end Chain

/-! ## The normalised result -/

section Norm

variable (xl xr : Vec Ideal KernelIdeal.S8x4096x2048 .f32) (Wg : Vec Ideal KernelIdeal.S2048x4096 .f32) (bg : Vec Ideal KernelIdeal.S2048 .f32)
  (W1 : Vec Ideal KernelIdeal.S4096x4096 .f32) (b1 : Vec Ideal KernelIdeal.S4096 .f32) (W2 : Vec Ideal KernelIdeal.S2048x4096 .f32)
  (b2 : Vec Ideal KernelIdeal.S2048 .f32) (W3 : Vec Ideal KernelIdeal.S2048x2048 .f32) (b3 : Vec Ideal KernelIdeal.S2048 .f32)
  (Wr : Vec Ideal KernelIdeal.S2048x4096 .f32) (br : Vec Ideal KernelIdeal.S2048 .f32) (γ β : Vec Ideal KernelIdeal.S2048 .f32)
  (fs rs : Vec Ideal KernelIdeal.S_ .f32)

/-- The reference's mix is the specification's with the two scaled corrections added one after the other. -/
theorem ref_mixed (a fu re : Vec Ideal KernelIdeal.S8x2048 .f32) :
    (fun (b : Fin 8) (l : Fin 4096) (j : Fin 2048) => ReferenceIdeal.RefTerms.mixed (F := Ideal) a fu re xl xr fs rs (ix3 b l j))
      = Cert.Spec.mixed2 (Ideal.ofBits .f32 0x3F800000#32) (fun b l j => xl (ix3 b l j)) (fun b l j => xr (ix3 b l j))
          (fun b j => a (ix2 b j)) (fun b j => fs ix0 * fu (ix2 b j)) (fun b j => rs ix0 * re (ix2 b j)) := by
  rw [ReferenceIdeal.RefValue.mixed_apply]

/-- The second launch's mix, its bias the sum of the two scaled corrections, is the same: a sum of two terms may be added
    one term after the other. -/
theorem ker_mixed (g fu re : Vec Ideal KernelIdeal.S8x2048 .f32) :
    Cert.Spec.mixed (Ideal.ofBits .f32 0x3F800000#32) (fun b l j => xl (ix3 b l j)) (fun b l j => xr (ix3 b l j))
        (fun b j => KernelIdeal.HostTerms.gate3 (F := Ideal) g (ix3 b 0 j))
        (fun b j => KernelIdeal.HostTerms.bias3 (F := Ideal) (KernelIdeal.HostTerms.bias (F := Ideal) fu re fs rs) (ix3 b 0 j))
      = Cert.Spec.mixed2 (Ideal.ofBits .f32 0x3F800000#32) (fun b l j => xl (ix3 b l j)) (fun b l j => xr (ix3 b l j))
          (fun b j => g (ix2 b j)) (fun b j => fs ix0 * fu (ix2 b j)) (fun b j => rs ix0 * re (ix2 b j)) := by
  simp only [KernelIdeal.HostValue.gate3_apply, KernelIdeal.HostValue.bias3_apply, KernelIdeal.HostValue.bias_apply]
  exact Cert.Spec.mixed_add _ _ _ _ _ _

/-- The reference's first result is the specification's normalised mix at what the kernel program hands its second
    launch: the two inputs, the gate and the bias of the pooled results with their unit axis, the scale and the shift as
    1 × 1 × feature. -/
theorem norm_bridge (L0 L1 : Vec Ideal KernelIdeal.S8x1x2048 .f32)
    (hL0 : L0 = fun i => Cert.Spec.pooled (Ideal.ofBits .f32 0x39800000#32) (fun b l j => xl (ix3 b l j)) (i 0) (i 2))
    (hL1 : L1 = fun i => Cert.Spec.pooled (Ideal.ofBits .f32 0x39800000#32) (fun b l j => xr (ix3 b l j)) (i 0) (i 2)) :
    ReferenceIdeal.RefTerms.xNorm (F := Ideal) xl xr Wg bg W1 b1 W2 b2 W3 b3 Wr br γ β fs rs
      = fun i => Cert.Spec.layerNorm (Ideal.ofBits .f32 0x45000000#32) (Ideal.ofBits .f32 0x3727C5AC#32)
          (Cert.Spec.mixed (Ideal.ofBits .f32 0x3F800000#32) (fun b l j => xl (ix3 b l j)) (fun b l j => xr (ix3 b l j))
            (fun b j => KernelIdeal.HostTerms.gate3 (F := Ideal)
              (KernelIdeal.HostTerms.gate (F := Ideal) (KernelIdeal.HostTerms.hcat (F := Ideal) L0 L1) Wg bg) (ix3 b 0 j))
            (fun b j => KernelIdeal.HostTerms.bias3 (F := Ideal) (KernelIdeal.HostTerms.bias (F := Ideal)
              (KernelIdeal.HostTerms.fusion (F := Ideal) (KernelIdeal.HostTerms.hcat (F := Ideal) L0 L1) W1 b1 W2 b2 W3 b3)
              (KernelIdeal.HostTerms.reflex (F := Ideal) (KernelIdeal.HostTerms.hcat (F := Ideal) L0 L1) Wr br) fs rs) (ix3 b 0 j)))
          (fun j => KernelIdeal.HostTerms.gamma3 (F := Ideal) γ (ix3 0 0 j)) (fun j => KernelIdeal.HostTerms.beta3 (F := Ideal) β (ix3 0 0 j))
          (i 0) (i 1) (i 2) := by
  have hγ : (fun j : Fin 2048 => KernelIdeal.HostTerms.gamma3 (F := Ideal) γ (ix3 0 0 j)) = fun j => γ (ix1 j) :=
    funext fun j => KernelIdeal.HostValue.gamma3_apply γ j
  have hβ : (fun j : Fin 2048 => KernelIdeal.HostTerms.beta3 (F := Ideal) β (ix3 0 0 j)) = fun j => β (ix1 j) :=
    funext fun j => KernelIdeal.HostValue.beta3_apply β j
  rw [hcat_eq L0 L1 xl xr hL0 hL1, gate_hCat, fusion_hCat, reflex_hCat, ker_mixed, hγ, hβ]
  unfold ReferenceIdeal.RefTerms.xNorm
  rw [ReferenceIdeal.RefValue.layerNorm_apply, ref_mixed]

/-- The reference's first result at equal arguments. -/
theorem xNorm_congr {xl xl' xr xr' : Vec Ideal KernelIdeal.S8x4096x2048 .f32} {Wg Wg' : Vec Ideal KernelIdeal.S2048x4096 .f32}
    {bg bg' : Vec Ideal KernelIdeal.S2048 .f32} {W1 W1' : Vec Ideal KernelIdeal.S4096x4096 .f32} {b1 b1' : Vec Ideal KernelIdeal.S4096 .f32}
    {W2 W2' : Vec Ideal KernelIdeal.S2048x4096 .f32} {b2 b2' : Vec Ideal KernelIdeal.S2048 .f32} {W3 W3' : Vec Ideal KernelIdeal.S2048x2048 .f32}
    {b3 b3' : Vec Ideal KernelIdeal.S2048 .f32} {Wr Wr' : Vec Ideal KernelIdeal.S2048x4096 .f32} {br br' : Vec Ideal KernelIdeal.S2048 .f32}
    {γ γ' β β' : Vec Ideal KernelIdeal.S2048 .f32} {fs fs' rs rs' : Vec Ideal KernelIdeal.S_ .f32}
    (h0 : xl = xl') (h1 : xr = xr') (h2 : Wg = Wg') (h3 : bg = bg') (h4 : W1 = W1') (h5 : b1 = b1') (h6 : W2 = W2') (h7 : b2 = b2')
    (h8 : W3 = W3') (h9 : b3 = b3') (h10 : Wr = Wr') (h11 : br = br') (h12 : γ = γ') (h13 : β = β') (h14 : fs = fs') (h15 : rs = rs') :
    ReferenceIdeal.RefTerms.xNorm (F := Ideal) xl xr Wg bg W1 b1 W2 b2 W3 b3 Wr br γ β fs rs
      = ReferenceIdeal.RefTerms.xNorm (F := Ideal) xl' xr' Wg' bg' W1' b1' W2' b2' W3' b3' Wr' br' γ' β' fs' rs' := by
  subst h0 h1 h2 h3 h4 h5 h6 h7 h8 h9 h10 h11 h12 h13 h14 h15; rfl

/-- The reference's gate at equal arguments. -/
theorem alpha_congr {xl xl' xr xr' : Vec Ideal KernelIdeal.S8x4096x2048 .f32} {Wg Wg' : Vec Ideal KernelIdeal.S2048x4096 .f32}
    {bg bg' : Vec Ideal KernelIdeal.S2048 .f32} (h0 : xl = xl') (h1 : xr = xr') (h2 : Wg = Wg') (h3 : bg = bg') :
    ReferenceIdeal.RefTerms.alpha (F := Ideal) xl xr Wg bg = ReferenceIdeal.RefTerms.alpha (F := Ideal) xl' xr' Wg' bg' := by
  subst h0 h1 h2 h3; rfl

end Norm

end Cert.Bridge.Steps

namespace Cert.Bridge

open Idealize.ShloMosaic Idealize.ShloMosaic.TcCoe Idealize.SL.Sem
open Cert.Bridge.Steps

/-- THE FIRST RESULT: the reference's normalised mix is what the kernel program's second launch leaves. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    StableHlo.after (Cert.ReferenceIdeal.RefRun.ops (F := Ideal)) (StableHlo.launchContents m' c) (Proc.devRef .tc Cert.ReferenceIdeal.main_v76)
      = Cert.KernelIdeal.Gen.V8 m (Cert.KernelIdeal.Run.outs m) c Cert.KernelIdeal.main_v47 := by
  obtain ⟨h0, h1, h2, h3, h4, h5, h6, h7, h8, h9, h10, h11, h12, h13, h14, h15⟩ := hagree
  refine (Cert.ReferenceIdeal.RefTerms.res76_eq (F := Ideal) (StableHlo.launchContents m' c)).trans ?_
  refine (xNorm_congr h0 h1 h2 h3 h4 h5 h6 h7 h8 h9 h10 h11 h12 h13 h14 h15).trans ?_
  refine Eq.trans ?_ (Cert.KernelIdeal.HostTerms.V8_main_v47 m (Cert.KernelIdeal.Run.outs m) c).symm
  refine Eq.trans ?_ (Cert.KernelIdeal.Run.outs_v47 m 7 c).symm
  refine Eq.trans ?_ (Cert.KernelIdeal.NormValue.normed (Cert.KernelIdeal.Run.E1 m) c).symm
  have e0 : Cert.KernelIdeal.Run.E1 m c Cert.KernelIdeal.main_arg0 = m ((c.tc : Thread Cert.KernelIdeal.nD Cert.KernelIdeal.τ).loc Cert.KernelIdeal.main_arg0) :=
    Cert.KernelIdeal.HostTerms.V6_main_arg0 m (Cert.KernelIdeal.Run.outsA m) c
  have e1 : Cert.KernelIdeal.Run.E1 m c Cert.KernelIdeal.main_arg1 = m ((c.tc : Thread Cert.KernelIdeal.nD Cert.KernelIdeal.τ).loc Cert.KernelIdeal.main_arg1) :=
    Cert.KernelIdeal.HostTerms.V6_main_arg1 m (Cert.KernelIdeal.Run.outsA m) c
  have e43 := Cert.KernelIdeal.HostTerms.V6_main_v43 m (Cert.KernelIdeal.Run.outsA m) c
  have e44 := Cert.KernelIdeal.HostTerms.V6_main_v44 m (Cert.KernelIdeal.Run.outsA m) c
  have e45 := Cert.KernelIdeal.HostTerms.V6_main_v45 m (Cert.KernelIdeal.Run.outsA m) c
  have e46 := Cert.KernelIdeal.HostTerms.V6_main_v46 m (Cert.KernelIdeal.Run.outsA m) c
  rw [Cert.KernelIdeal.Run.outsA_v0_0, Cert.KernelIdeal.Run.outsA_v0_1] at e43 e44
  rw [e0, e1, show Cert.KernelIdeal.Run.E1 m c Cert.KernelIdeal.main_v43 = _ from e43,
    show Cert.KernelIdeal.Run.E1 m c Cert.KernelIdeal.main_v44 = _ from e44,
    show Cert.KernelIdeal.Run.E1 m c Cert.KernelIdeal.main_v45 = _ from e45,
    show Cert.KernelIdeal.Run.E1 m c Cert.KernelIdeal.main_v46 = _ from e46]
  exact norm_bridge _ _ _ _ _ _ _ _ _ _ _ _ _ _ _ _ (Cert.KernelIdeal.Run.left0 m c) (Cert.KernelIdeal.Run.left1 m c)
    (Cert.KernelIdeal.PoolValue.pooled_left (Cert.KernelIdeal.Run.E0 m) c) (Cert.KernelIdeal.PoolValue.pooled_right (Cert.KernelIdeal.Run.E0 m) c)

/-- THE SECOND RESULT: the reference's mean of the gate is the kernel program's. -/
theorem mean_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    StableHlo.after (Cert.ReferenceIdeal.RefRun.ops (F := Ideal)) (StableHlo.launchContents m' c) (Proc.devRef .tc Cert.ReferenceIdeal.main_v78)
      = Cert.KernelIdeal.Gen.V8 m (Cert.KernelIdeal.Run.outs m) c Cert.KernelIdeal.main_v49 := by
  obtain ⟨h0, h1, h2, h3, -⟩ := hagree
  refine (Cert.ReferenceIdeal.RefTerms.res78_eq (F := Ideal) (StableHlo.launchContents m' c)).trans ?_
  have hk := Cert.KernelIdeal.HostTerms.V8_main_v49 m (Cert.KernelIdeal.Run.outs m) c
  rw [Cert.KernelIdeal.Run.outs_v0_0, Cert.KernelIdeal.Run.outs_v0_1, gateMean_eq,
    hcat_eq (Cert.KernelIdeal.Run.left0 m c) (Cert.KernelIdeal.Run.left1 m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.KernelIdeal.PoolValue.pooled_left (Cert.KernelIdeal.Run.E0 m) c) (Cert.KernelIdeal.PoolValue.pooled_right (Cert.KernelIdeal.Run.E0 m) c),
    gate_hCat] at hk
  exact (congrArg (Cert.ReferenceIdeal.RefTerms.meanAll (F := Ideal)) (alpha_congr h0 h1 h2 h3)).trans hk.symm

end Cert.Bridge

end
-- ==== Proof.lean ====
/-
  The certificate of a kernel that pools two inputs over the sequence axis, gates and biases their mix by small
  per-batch networks of the pooled means, and normalises every row over its features — two launches among host
  operations — against its plain reference.
  * Frames. The word-level program and its idealization are the same text; each runs as its two launches' pipelines
    among the host stretches (the first launch carrying two running sums from grid point to grid point, the second
    keeping nothing), every argument array read and never written. The reference is a straight line of host
    operations, its three outlined functions opened in place.
  * Value, on the extended reals. The pooled sum accumulated over sixteen blocks of 256 positions and scaled by 2⁻¹² is
    the reference's sum over the 4096 positions divided by 4096 (a product with the reciprocal of a nonzero real is the
    quotient by it; a sum may be regrouped). From equal pooled means the two programs apply the same host operations,
    so gate, fusion and reflex terms are equal as they stand. The kernel adds the bias fs·fusion + rs·reflex in one
    step, the reference one term after the other: addition is associative, infinities included. Both then normalise
    with the same mean, the same mean squared deviation (the reference's guarded quotient takes its quotient branch,
    its divisor being 2048 − 0), the same ε, scale and shift. No law used needs a finite argument.
  The idealization rewrote nothing, so nothing is owed for it.
-/
import proofs.«140230_j55336358642849_1_alg».proof.Defs
import proofs.«140230_j55336358642849_1_alg».proof.Proof.Gen.Kernel
import proofs.«140230_j55336358642849_1_alg».proof.Proof.Gen.KernelIdeal
import proofs.«140230_j55336358642849_1_alg».proof.Proof.Gen.ReferenceIdeal
import proofs.«140230_j55336358642849_1_alg».proof.Proof.Gen.Pre_finite_inputs
import proofs.«140230_j55336358642849_1_alg».proof.Proof.BitsLaunch
import proofs.«140230_j55336358642849_1_alg».proof.Proof.Launch
import proofs.«140230_j55336358642849_1_alg».proof.Proof.RefRun
import proofs.«140230_j55336358642849_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Run.frame m ρ

/-- So does its idealization, -/
theorem frame_ki : Cert.frame_KernelIdeal := fun m ρ _ => Cert.KernelIdeal.Run.frame m ρ

/-- and the reference. -/
theorem frame_ri : Cert.frame_ReferenceIdeal := fun m ρ _ => Cert.ReferenceIdeal.RefRun.frame m ρ

/-- The idealization rewrote no operation. -/
theorem preserves : Cert.preserves_Kernel_KernelIdeal := trivial

/-- From memories agreeing on the arguments both idealized programs run, and end with the same normalised array and
    the same mean of the gate: the kernel's results are what its last host operations leave of what the second launch
    left; the reference's are its operations' fold, which is the same (the bridge). -/
theorem algebraic : Cert.algebraic_KernelIdeal_ReferenceIdeal := by
  intro m ρ m' ρ' _ hagree
  refine ⟨fun c => Cert.KernelIdeal.Gen.V8 m (Cert.KernelIdeal.Run.outs m) c Cert.KernelIdeal.main_v47,
    fun c => Cert.KernelIdeal.Gen.V8 m (Cert.KernelIdeal.Run.outs m) c Cert.KernelIdeal.main_v49,
    Cert.KernelIdeal.Run.run_res m ρ, ?_⟩
  refine (θ_run Cert.ReferenceIdeal.defs _ _).mono (fun r h c => ?_) (Cert.ReferenceIdeal.RefRun.run m' ρ')
  exact ⟨(h c Cert.ReferenceIdeal.main_v76).trans (Cert.Bridge.out_eq m m' c (hagree c)),
    (h c Cert.ReferenceIdeal.main_v78).trans (Cert.Bridge.mean_eq m m' c (hagree c)),
    (h c Cert.ReferenceIdeal.main_arg0).trans (Cert.ReferenceIdeal.RefRun.after_keep (by decide) _),
    (h c Cert.ReferenceIdeal.main_arg1).trans (Cert.ReferenceIdeal.RefRun.after_keep (by decide) _),
    (h c Cert.ReferenceIdeal.main_arg2).trans (Cert.ReferenceIdeal.RefRun.after_keep (by decide) _),
    (h c Cert.ReferenceIdeal.main_arg3).trans (Cert.ReferenceIdeal.RefRun.after_keep (by decide) _),
    (h c Cert.ReferenceIdeal.main_arg4).trans (Cert.ReferenceIdeal.RefRun.after_keep (by decide) _),
    (h c Cert.ReferenceIdeal.main_arg5).trans (Cert.ReferenceIdeal.RefRun.after_keep (by decide) _),
    (h c Cert.ReferenceIdeal.main_arg6).trans (Cert.ReferenceIdeal.RefRun.after_keep (by decide) _),
    (h c Cert.ReferenceIdeal.main_arg7).trans (Cert.ReferenceIdeal.RefRun.after_keep (by decide) _),
    (h c Cert.ReferenceIdeal.main_arg8).trans (Cert.ReferenceIdeal.RefRun.after_keep (by decide) _),
    (h c Cert.ReferenceIdeal.main_arg9).trans (Cert.ReferenceIdeal.RefRun.after_keep (by decide) _),
    (h c Cert.ReferenceIdeal.main_arg10).trans (Cert.ReferenceIdeal.RefRun.after_keep (by decide) _),
    (h c Cert.ReferenceIdeal.main_arg11).trans (Cert.ReferenceIdeal.RefRun.after_keep (by decide) _),
    (h c Cert.ReferenceIdeal.main_arg12).trans (Cert.ReferenceIdeal.RefRun.after_keep (by decide) _),
    (h c Cert.ReferenceIdeal.main_arg13).trans (Cert.ReferenceIdeal.RefRun.after_keep (by decide) _),
    (h c Cert.ReferenceIdeal.main_arg14).trans (Cert.ReferenceIdeal.RefRun.after_keep (by decide) _),
    (h c Cert.ReferenceIdeal.main_arg15).trans (Cert.ReferenceIdeal.RefRun.after_keep (by decide) _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
